-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000x92 : Shape := ⟨3, ![16, 1000, 92]⟩
abbrev S16x1000x4 : Shape := ⟨3, ![16, 1000, 4]⟩
abbrev S1600 : Shape := ⟨1, ![1600]⟩
abbrev S1600x4 : Shape := ⟨2, ![1600, 4]⟩
abbrev S_ : Shape := ⟨0, ![]⟩

class Facts : Prop where
  bcast_S_S16x1000x92 : S_.BroadcastsInDim S16x1000x92 (![] : Fin 0 → Fin S16x1000x92.rank)
  reducesTo_S16x1000x92_S_d0_1_2 : S16x1000x92.ReducesTo [0, 1, 2] S_
  h_S_ : 0 < S_.numel
  bcast_S_S16x1000x4 : S_.BroadcastsInDim S16x1000x4 (![] : Fin 0 → Fin S16x1000x4.rank)
  reducesTo_S16x1000x4_S_d0_1_2 : S16x1000x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_

variable [Facts]

def fn_part1 {F : FTy → Type} [FloatOps F] (main_arg2 : IVec S1600 32) (main_v13 : IVec S_ 1) (main_v15 : IVec S1600 1) (main_c_5 : IVec S_ 1) : IVec S_ 1 :=
  let main_v16 : IVec S_ 1 := (fun x v => Host.reduce IntOp.andi x v reducesTo_S1600_S_d0 h_S_) main_v15 main_c_5
  let main_v17 : IVec S_ 1 := andi main_v13 main_v16
  let main_c_6 : IVec S_ 32 := constantI S_ 32 92#32
  let main_v18 : IVec S1600 32 := broadcastInDim S1600 ![] bcast_S_S1600 main_c_6
  let main_v19 : IVec S1600 1 := cmpi .slt main_arg2 main_v18
  let main_c_7 : IVec S_ 1 := constantI S_ 1 1#1
  let main_v20 : IVec S_ 1 := (fun x v => Host.reduce IntOp.andi x v reducesTo_S1600_S_d0 h_S_) main_v19 main_c_7
  let main_v21 : IVec S_ 1 := andi main_v17 main_v20
  main_v21

def fn {F : FTy → Type} [FloatOps F] (main_arg0 : FVec F S16x1000x92 .f32) (main_arg1 : FVec F S16x1000x4 .f32) (main_arg2 : IVec S1600 32) (main_arg3 : FVec F S1600x4 .f32) : IVec S_ 1 :=
  let main_v0 : FVec F S16x1000x92 .f32 := Host.absf main_arg0
  let main_cst : FVec F S_ .f32 := constant S_ .f32 0x7F800000#32
  let main_v1 : FVec F S16x1000x92 .f32 := broadcastInDim S16x1000x92 ![] bcast_S_S16x1000x92 main_cst
  let main_v2 : IVec S16x1000x92 1 := cmpf .olt main_v0 main_v1
  let main_c : IVec S_ 1 := constantI S_ 1 1#1
  let main_v3 : IVec S_ 1 := (fun x v => Host.reduce IntOp.andi x v reducesTo_S16x1000x92_S_d0_1_2 h_S_) main_v2 main_c
  let main_v4 : FVec F S16x1000x4 .f32 := Host.absf main_arg1
  let main_cst_0 : FVec F S_ .f32 := constant S_ .f32 0x7F800000#32
  let main_v5 : FVec F S16x1000x4 .f32 := broadcastInDim S16x1000x4 ![] bcast_S_S16x1000x4 main_cst_0
  let main_v6 : IVec S16x1000x4 1 := cmpf .olt main_v4 main_v5
  let main_c_1 : IVec S_ 1 := constantI S_ 1 1#1
  let main_v7 : IVec S_ 1 := (fun x v => Host.reduce IntOp.andi x v reducesTo_S16x1000x4_S_d0_1_2 h_S_) main_v6 main_c_1
  let main_v8 : IVec S_ 1 := andi main_v3 main_v7
  let main_v9 : FVec F S1600x4 .f32 := Host.absf main_arg3
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg2 main_v14
  let main_c_5 : IVec S_ 1 := constantI S_ 1 1#1
  fn_part1 (F := F) main_arg2 main_v13 main_v15 main_c_5
-- ==== Kernel.lean ====
abbrev S16x1000x92 : Shape := ⟨3, ![16, 1000, 92]⟩
abbrev S16x1000x4 : Shape := ⟨3, ![16, 1000, 4]⟩
abbrev S1600 : Shape := ⟨1, ![1600]⟩
abbrev S1600x4 : Shape := ⟨2, ![1600, 4]⟩
abbrev S16000x92 : Shape := ⟨2, ![16000, 92]⟩
abbrev S16000x4 : Shape := ⟨2, ![16000, 4]⟩
abbrev S1600x1 : Shape := ⟨2, ![1600, 1]⟩
abbrev S1x92 : Shape := ⟨2, ![1, 92]⟩
abbrev S1600x92 : Shape := ⟨2, ![1600, 92]⟩
abbrev S92x1600 : Shape := ⟨2, ![92, 1600]⟩
abbrev S_ : Shape := ⟨0, ![]⟩
abbrev S1x1600 : Shape := ⟨2, ![1, 1600]⟩
abbrev S9x1600 : Shape := ⟨2, ![9, 1600]⟩
abbrev S16x1600 : Shape := ⟨2, ![16, 1600]⟩
abbrev S92x1664 : Shape := ⟨2, ![92, 1664]⟩
abbrev S16x1664 : Shape := ⟨2, ![16, 1664]⟩
abbrev S16000x1600 : Shape := ⟨2, ![16000, 1600]⟩
abbrev S640x92 : Shape := ⟨2, ![640, 92]⟩
abbrev S640x4 : Shape := ⟨2, ![640, 4]⟩
abbrev S640x1600 : Shape := ⟨2, ![640, 1600]⟩
abbrev S640 : Shape := ⟨1, ![640]⟩
abbrev S640x1 : Shape := ⟨2, ![640, 1]⟩
abbrev S640x1664 : Shape := ⟨2, ![640, 1664]⟩
abbrev S1x1664 : Shape := ⟨2, ![1, 1664]⟩
abbrev S16x1000x1600 : Shape := ⟨3, ![16, 1000, 1600]⟩

abbrev nBuf : Space → Nat
  | .hbm => 61
  | .vmem => 8
  | .smem => 0
  | _ => 0

abbrev bufTy : (tb : Table) → Fin (tcTables nBuf tb) → BufTy
  | .hbm, ⟨0, _⟩ => ⟨S16x1000x92, .f32⟩
  | .hbm, ⟨1, _⟩ => ⟨S16x1000x4, .f32⟩
  | .hbm, ⟨2, _⟩ => ⟨S1600, .i32⟩
  | .hbm, ⟨3, _⟩ => ⟨S1600x4, .f32⟩
  | .hbm, ⟨4, _⟩ => ⟨S16000x92, .f32⟩
  | .hbm, ⟨5, _⟩ => ⟨S16000x4, .f32⟩
  | .hbm, ⟨6, _⟩ => ⟨S1600x1, .i32⟩
  | .hbm, ⟨7, _⟩ => ⟨S1x92, .i32⟩
  | .hbm, ⟨8, _⟩ => ⟨S1600x92, .i32⟩
  | .hbm, ⟨9, _⟩ => ⟨S1600x92, .i32⟩
  | .hbm, ⟨10, _⟩ => ⟨S1600x92, .i1⟩
  | .hbm, ⟨11, _⟩ => ⟨S1600x92, .bf16⟩
  | .hbm, ⟨12, _⟩ => ⟨S92x1600, .bf16⟩
  | .hbm, ⟨13, _⟩ => ⟨S1600x1, .f32⟩
  | .hbm, ⟨14, _⟩ => ⟨S1600, .f32⟩
  | .hbm, ⟨15, _⟩ => ⟨S1600x1, .f32⟩
  | .hbm, ⟨16, _⟩ => ⟨S1600, .f32⟩
  | .hbm, ⟨17, _⟩ => ⟨S1600x1, .f32⟩
  | .hbm, ⟨18, _⟩ => ⟨S1600, .f32⟩
  | .hbm, ⟨19, _⟩ => ⟨S1600x1, .f32⟩
  | .hbm, ⟨20, _⟩ => ⟨S1600, .f32⟩
  | .hbm, ⟨21, _⟩ => ⟨S_, .f32⟩
  | .hbm, ⟨22, _⟩ => ⟨S1600, .f32⟩
  | .hbm, ⟨23, _⟩ => ⟨S1600, .f32⟩
  | .hbm, ⟨24, _⟩ => ⟨S1600, .f32⟩
  | .hbm, ⟨25, _⟩ => ⟨S_, .f32⟩
  | .hbm, ⟨26, _⟩ => ⟨S1600, .f32⟩
  | .hbm, ⟨27, _⟩ => ⟨S1600, .f32⟩
  | .hbm, ⟨28, _⟩ => ⟨S1600, .f32⟩
  | .hbm, ⟨29, _⟩ => ⟨S_, .f32⟩
  | .hbm, ⟨30, _⟩ => ⟨S1600, .f32⟩
  | .hbm, ⟨31, _⟩ => ⟨S1600, .f32⟩
  | .hbm, ⟨32, _⟩ => ⟨S1600, .f32⟩
  | .hbm, ⟨33, _⟩ => ⟨S_, .f32⟩
  | .hbm, ⟨34, _⟩ => ⟨S1600, .f32⟩
  | .hbm, ⟨35, _⟩ => ⟨S1600, .f32⟩
  | .hbm, ⟨36, _⟩ => ⟨S1600, .f32⟩
  | .hbm, ⟨37, _⟩ => ⟨S1600, .f32⟩
  | .hbm, ⟨38, _⟩ => ⟨S1600, .f32⟩
  | .hbm, ⟨39, _⟩ => ⟨S1600, .f32⟩
  | .hbm, ⟨40, _⟩ => ⟨S1x1600, .f32⟩
  | .hbm, ⟨41, _⟩ => ⟨S1x1600, .f32⟩
  | .hbm, ⟨42, _⟩ => ⟨S1x1600, .f32⟩
  | .hbm, ⟨43, _⟩ => ⟨S1x1600, .f32⟩
  | .hbm, ⟨44, _⟩ => ⟨S1x1600, .f32⟩
  | .hbm, ⟨45, _⟩ => ⟨S1x1600, .f32⟩
  | .hbm, ⟨46, _⟩ => ⟨S1x1600, .f32⟩
  | .hbm, ⟨47, _⟩ => ⟨S1x1600, .f32⟩
  | .hbm, ⟨48, _⟩ => ⟨S1x1600, .f32⟩
  | .hbm, ⟨49, _⟩ => ⟨S9x1600, .f32⟩
  | .hbm, ⟨50, _⟩ => ⟨S_, .i32⟩
  | .hbm, ⟨51, _⟩ => ⟨S_, .f32⟩
  | .hbm, ⟨52, _⟩ => ⟨S16x1600, .f32⟩
  | .hbm, ⟨53, _⟩ => ⟨S_, .i32⟩
  | .hbm, ⟨54, _⟩ => ⟨S_, .bf16⟩
  | .hbm, ⟨55, _⟩ => ⟨S92x1664, .bf16⟩
  | .hbm, ⟨56, _⟩ => ⟨S_, .i32⟩
  | .hbm, ⟨57, _⟩ => ⟨S_, .f32⟩
  | .hbm, ⟨58, _⟩ => ⟨S16x1664, .f32⟩
  | .hbm, ⟨59, _⟩ => ⟨S16000x1600, .f32⟩
  | .hbm, ⟨60, _⟩ => ⟨S16x1000x1600, .f32⟩
  | .local _ .vmem, ⟨0, _⟩ => ⟨S640x92, .f32⟩
  | .local _ .vmem, ⟨1, _⟩ => ⟨S640x92, .f32⟩
  | .local _ .vmem, ⟨2, _⟩ => ⟨S640x4, .f32⟩
  | .local _ .vmem, ⟨3, _⟩ => ⟨S640x4, .f32⟩
  | .local _ .vmem, ⟨4, _⟩ => ⟨S16x1664, .f32⟩
  | .local _ .vmem, ⟨5, _⟩ => ⟨S92x1664, .bf16⟩
  | .local _ .vmem, ⟨6, _⟩ => ⟨S640x1600, .f32⟩
  | .local _ .vmem, ⟨7, _⟩ => ⟨S640x1600, .f32⟩
  | _, _ => ⟨S16x1000x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_call1_v0 : Ref sig .tc := ⟨.hbm, 51, rfl⟩
abbrev main_v37 : Ref sig .tc := ⟨.hbm, 52, rfl⟩
abbrev main_c_3 : Ref sig .tc := ⟨.hbm, 53, rfl⟩
abbrev main_call2_v0 : Ref sig .tc := ⟨.hbm, 54, rfl⟩
abbrev main_v38 : Ref sig .tc := ⟨.hbm, 55, rfl⟩
abbrev main_c_4 : Ref sig .tc := ⟨.hbm, 56, rfl⟩
abbrev main_call3_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S92x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1000x92_S16000x92 : S16x1000x92.ShapeCasts S16000x92
  shapeCasts_S16x1000x4_S16000x4 : S16x1000x4.ShapeCasts S16000x4
  bcast_S1600_S1600x1_0 : S1600.BroadcastsInDim S1600x1 (![0] : Fin 1 → Fin S1600x1.rank)
  bcast_S1600x1_S1600x92_0_1 : S1600x1.BroadcastsInDim S1600x92 (![0, 1] : Fin 2 → Fin S1600x92.rank)
  bcast_S1x92_S1600x92_0_1 : S1x92.BroadcastsInDim S1600x92 (![0, 1] : Fin 2 → Fin S1600x92.rank)
  transposes_S1600x92_S92x1600_1_0 : S1600x92.Transposes [1, 0] S92x1600
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600 : S_.BroadcastsInDim S1600 (![] : Fin 0 → Fin S1600.rank)
  bcast_S1600_S1x1600_1 : S1600.BroadcastsInDim S1x1600 (![1] : Fin 1 → Fin S1x1600.rank)
  concatenates_S1x1600_S1x1600_S1x1600_S1x1600_S1x1600_S1x1600_S1x1600_S1x1600_S1x1600_S9x1600_d0 : Shape.Concatenates [S1x1600, S1x1600, S1x1600, S1x1600, S1x1600, S1x1600, S1x1600, S1x1600, S1x1600] S9x1600 0
  pads_S9x1600_S16x1600_070_000 : S9x1600.Pads (![0, 0] : Fin 2 → Nat) ![7, 0] ![0, 0] S16x1600
  h_S_ : 0 < S_.numel
  pads_S92x1600_S92x1664_000_0640 : S92x1600.Pads (![0, 0] : Fin 2 → Nat) ![0, 64] ![0, 0] S92x1664
  pads_S16x1600_S16x1664_000_0640 : S16x1600.Pads (![0, 0] : Fin 2 → Nat) ![0, 64] ![0, 0] S16x1664
  inb_S640x92_S640x92_0_0 : ∀ a, (![0, 0] : Fin 2 → Nat) a + S640x92.size a ≤ S640x92.size a
  h_S640x92 : 0 < S640x92.numel
  shapeCasts_S640x92_S640x92 : S640x92.ShapeCasts S640x92
  reduces_S640x92_S640 : S640x92.Reduces [1] S640
  shapeCasts_S640_S640x1 : S640.ShapeCasts S640x1
  broadcasts_S640x1_S640x92 : S640x1.Broadcasts S640x92
  bitsLt_bf16_f32 : FTy.bits .bf16 < FTy.bits .f32
  inb_S92x1664_S92x1664_0_0 : ∀ a, (![0, 0] : Fin 2 → Nat) a + S92x1664.size a ≤ S92x1664.size a
  h_S92x1664 : 0 < S92x1664.numel
  shapeCasts_S92x1664_S92x1664 : S92x1664.ShapeCasts S92x1664
  inb_S640x4_S640x4_0_0 : ∀ a, (![0, 0] : Fin 2 → Nat) a + S640x4.size a ≤ S640x4.size a
  h_S640x4 : 0 < S640x4.numel
  shapeCasts_S640x4_S640x4 : S640x4.ShapeCasts S640x4
  slices_S640x4_o0_0_S640x1 : S640x4.Slices ![0, 0] S640x1
  slices_S640x4_o0_1_S640x1 : S640x4.Slices ![0, 1] S640x1
  slices_S640x4_o0_2_S640x1 : S640x4.Slices ![0, 2] S640x1
  slices_S640x4_o0_3_S640x1 : S640x4.Slices ![0, 3] S640x1
  inb_S16x1664_S16x1664_0_0 : ∀ a, (![0, 0] : Fin 2 → Nat) a + S16x1664.size a ≤ S16x1664.size a
  h_S16x1664 : 0 < S16x1664.numel
  shapeCasts_S16x1664_S16x1664 : S16x1664.ShapeCasts S16x1664
  slices_S16x1664_o0_0_S1x1664 : S16x1664.Slices ![0, 0] S1x1664
  slices_S16x1664_o1_0_S1x1664 : S16x1664.Slices ![1, 0] S1x1664
  slices_S16x1664_o2_0_S1x1664 : S16x1664.Slices ![2, 0] S1x1664
  slices_S16x1664_o3_0_S1x1664 : S16x1664.Slices ![3, 0] S1x1664
  slices_S16x1664_o4_0_S1x1664 : S16x1664.Slices ![4, 0] S1x1664
  slices_S16x1664_o5_0_S1x1664 : S16x1664.Slices ![5, 0] S1x1664
  slices_S16x1664_o6_0_S1x1664 : S16x1664.Slices ![6, 0] S1x1664
  slices_S16x1664_o7_0_S1x1664 : S16x1664.Slices ![7, 0] S1x1664
  slices_S16x1664_o8_0_S1x1664 : S16x1664.Slices ![8, 0] S1x1664
  broadcasts_S640x1_S640x1664 : S640x1.Broadcasts S640x1664
  broadcasts_S1x1664_S640x1664 : S1x1664.Broadcasts S640x1664
  slices_S640x1664_o0_0_S640x1600 : S640x1664.Slices ![0, 0] S640x1600
  inb_S640x1600_S640x1600_0_0 : ∀ a, (![0, 0] : Fin 2 → Nat) a + S640x1600.size a ≤ S640x1600.size a
  h_S640x1600 : 0 < S640x1600.numel
  shapeCasts_S16000x1600_S16x1000x1600 : S16000x1600.ShapeCasts S16x1000x1600
  dot_S640x92_S92x1664_S640x1664_1_0_0_1_n_n_wf : DotDims.WF S640x92 S92x1664 S640x1664 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x92.size a ≤ S16000x92.size a
  hwx0_0 : ∀ i : grid0.Coords, EltTy.bits .f32 = 32 ∨ (Rect.block (s := S16000x92) S640x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x4.size a ≤ S16000x4.size a
  hwx0_1 : ∀ i : grid0.Coords, EltTy.bits .f32 = 32 ∨ (Rect.block (s := S16000x4) S640x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1664.size a ≤ S16x1664.size a
  hwx0_2 : ∀ i : grid0.Coords, EltTy.bits .f32 = 32 ∨ (Rect.block (s := S16x1664) S16x1664.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S92x1664.size a ≤ S92x1664.size a
  hwx0_3 : ∀ i : grid0.Coords, EltTy.bits .bf16 = 32 ∨ (Rect.block (s := S92x1664) S92x1664.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S640x1600.size a ≤ S16000x1600.size a
  hwx0_4 : ∀ i : grid0.Coords, EltTy.bits .f32 = 32 ∨ (Rect.block (s := S16000x1600) S640x1600.size (cc0_transform_4 i) (hinb0_4 i)).WholeWords (EltTy.packing .f32)

variable [Facts₀]

def dot_S640x92_S92x1664_S640x1664_1_0_0_1_n_n : DotDims S640x92 S92x1664 S640x1664 where
  lhsContracting := [1]
  rhsContracting := [0]
  lhsNonContracting := [0]
  rhsNonContracting := [1]
  lhsBatch := []
  rhsBatch := []
  wf := dot_S640x92_S92x1664_S640x1664_1_0_0_1_n_n_wf

abbrev win0_0 : Pipeline.Window sig grid0 :=
  Pipeline.Window.ofSpec (Memref.whole main_v0) S640x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S640x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S16x1664.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S92x1664.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S640x1600.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1000x92 : Shape := ⟨3, ![16, 1000, 92]⟩
abbrev S16x1000x4 : Shape := ⟨3, ![16, 1000, 4]⟩
abbrev S1600 : Shape := ⟨1, ![1600]⟩
abbrev S1600x4 : Shape := ⟨2, ![1600, 4]⟩
abbrev S16000x92 : Shape := ⟨2, ![16000, 92]⟩
abbrev S_ : Shape := ⟨0, ![]⟩
abbrev S16000 : Shape := ⟨1, ![16000]⟩
abbrev S16000x1 : Shape := ⟨2, ![16000, 1]⟩
abbrev S16000x4 : Shape := ⟨2, ![16000, 4]⟩
abbrev S1600x1 : Shape := ⟨2, ![1600, 1]⟩
abbrev S16000x1600 : Shape := ⟨2, ![16000, 1600]⟩
abbrev S16000x1x4 : Shape := ⟨3, ![16000, 1, 4]⟩
abbrev S1x1600x4 : Shape := ⟨3, ![1, 1600, 4]⟩
abbrev S16000x1600x4 : Shape := ⟨3, ![16000, 1600, 4]⟩
abbrev S1x1600 : Shape := ⟨2, ![1, 1600]⟩
abbrev S16x1000x1600 : Shape := ⟨3, ![16, 1000, 1600]⟩

abbrev nBuf : Space → Nat
  | .hbm => 233
  | .vmem => 0
  | .smem => 0
  | _ => 0

abbrev hbmTy0_0 (i : Nat) : BufTy := match i % 128 with
  | 0 => ⟨S16x1000x92, .f32⟩
  | 1 => ⟨S16x1000x4, .f32⟩
  | 2 => ⟨S1600, .i32⟩
  | 3 => ⟨S1600x4, .f32⟩
  | 4 => ⟨S16000x92, .f32⟩
  | 5 => ⟨S_, .f32⟩
  | 6 => ⟨S16000, .f32⟩
  | 7 => ⟨S_, .f32⟩
  | 8 => ⟨S16000, .f32⟩
  | 9 => ⟨S16000, .f32⟩
  | 10 => ⟨S16000x1, .f32⟩
  | 11 => ⟨S16000x92, .f32⟩
  | 12 => ⟨S16000x92, .f32⟩
  | 13 => ⟨S16000x92, .f32⟩
  | 14 => ⟨S_, .f32⟩
  | 15 => ⟨S16000, .f32⟩
  | 16 => ⟨S16000x1, .f32⟩
  | 17 => ⟨S16000x92, .f32⟩
  | 18 => ⟨S16000x92, .f32⟩
  | 19 => ⟨S16000x4, .f32⟩
  | 20 => ⟨S_, .i32⟩
  | 21 => ⟨S1600, .i32⟩
  | 22 => ⟨S1600, .i1⟩
  | 23 => ⟨S_, .i32⟩
  | 24 => ⟨S1600, .i32⟩
  | 25 => ⟨S1600, .i32⟩
  | 26 => ⟨S1600, .i32⟩
  | 27 => ⟨S1600x1, .i32⟩
  | 28 => ⟨S16000x1600, .f32⟩
  | 29 => ⟨S16000x1600, .f32⟩
  | 30 => ⟨S16000x1x4, .f32⟩
  | 31 => ⟨S1x1600x4, .f32⟩
  | 32 => ⟨S16000x1600x4, .f32⟩
  | 33 => ⟨S16000x1600x4, .f32⟩
  | 34 => ⟨S16000x1600x4, .f32⟩
  | 35 => ⟨S16000x1600x4, .f32⟩
  | 36 => ⟨S_, .f32⟩
  | 37 => ⟨S16000x1600, .f32⟩
  | 38 => ⟨S16000x1, .f32⟩
  | 39 => ⟨S16000, .f32⟩
  | 40 => ⟨S16000x1, .f32⟩
  | 41 => ⟨S16000, .f32⟩
  | 42 => ⟨S16000x1, .f32⟩
  | 43 => ⟨S16000, .f32⟩
  | 44 => ⟨S16000x1, .f32⟩
  | 45 => ⟨S16000, .f32⟩
  | 46 => ⟨S_, .f32⟩
  | 47 => ⟨S16000, .f32⟩
  | 48 => ⟨S16000, .f32⟩
  | 49 => ⟨S16000, .f32⟩
  | 50 => ⟨S_, .f32⟩
  | 51 => ⟨S16000, .f32⟩
  | 52 => ⟨S16000, .f32⟩
  | 53 => ⟨S16000, .f32⟩
  | 54 => ⟨S_, .f32⟩
  | 55 => ⟨S16000, .f32⟩
  | 56 => ⟨S16000, .f32⟩
  | 57 => ⟨S16000, .f32⟩
  | 58 => ⟨S_, .f32⟩
  | 59 => ⟨S16000, .f32⟩
  | 60 => ⟨S16000, .f32⟩
  | 61 => ⟨S16000, .f32⟩
  | 62 => ⟨S16000x1, .f32⟩
  | 63 => ⟨S16000x1, .f32⟩
  | 64 => ⟨S16000x1, .f32⟩
  | 65 => ⟨S16000x1, .f32⟩
  | 66 => ⟨S16000x4, .f32⟩
  | 67 => ⟨S1600x1, .f32⟩
  | 68 => ⟨S1600, .f32⟩
  | 69 => ⟨S1600x1, .f32⟩
  | 70 => ⟨S1600, .f32⟩
  | 71 => ⟨S1600x1, .f32⟩
  | 72 => ⟨S1600, .f32⟩
  | 73 => ⟨S1600x1, .f32⟩
  | 74 => ⟨S1600, .f32⟩
  | 75 => ⟨S_, .f32⟩
  | 76 => ⟨S1600, .f32⟩
  | 77 => ⟨S1600, .f32⟩
  | 78 => ⟨S1600, .f32⟩
  | 79 => ⟨S_, .f32⟩
  | 80 => ⟨S1600, .f32⟩
  | 81 => ⟨S1600, .f32⟩
  | 82 => ⟨S1600, .f32⟩
  | 83 => ⟨S_, .f32⟩
  | 84 => ⟨S1600, .f32⟩
  | 85 => ⟨S1600, .f32⟩
  | 86 => ⟨S1600, .f32⟩
  | 87 => ⟨S_, .f32⟩
  | 88 => ⟨S1600, .f32⟩
  | 89 => ⟨S1600, .f32⟩
  | 90 => ⟨S1600, .f32⟩
  | 91 => ⟨S1600x1, .f32⟩
  | 92 => ⟨S1600x1, .f32⟩
  | 93 => ⟨S1600x1, .f32⟩
  | 94 => ⟨S1600x1, .f32⟩
  | 95 => ⟨S1600x4, .f32⟩
  | 96 => ⟨S16000x1, .f32⟩
  | 97 => ⟨S16000, .f32⟩
  | 98 => ⟨S16000x1, .f32⟩
  | 99 => ⟨S1600x1, .f32⟩
  | 100 => ⟨S1600, .f32⟩
  | 101 => ⟨S1x1600, .f32⟩
  | 102 => ⟨S16000x1600, .f32⟩
  | 103 => ⟨S16000x1600, .f32⟩
  | 104 => ⟨S16000x1600, .f32⟩
  | 105 => ⟨S16000x1, .f32⟩
  | 106 => ⟨S16000, .f32⟩
  | 107 => ⟨S16000x1, .f32⟩
  | 108 => ⟨S1600x1, .f32⟩
  | 109 => ⟨S1600, .f32⟩
  | 110 => ⟨S1x1600, .f32⟩
  | 111 => ⟨S16000x1600, .f32⟩
  | 112 => ⟨S16000x1600, .f32⟩
  | 113 => ⟨S16000x1600, .f32⟩
  | 114 => ⟨S16000x1, .f32⟩
  | 115 => ⟨S16000, .f32⟩
  | 116 => ⟨S16000x1, .f32⟩
  | 117 => ⟨S1600x1, .f32⟩
  | 118 => ⟨S1600, .f32⟩
  | 119 => ⟨S1x1600, .f32⟩
  | 120 => ⟨S16000x1600, .f32⟩
  | 121 => ⟨S16000x1600, .f32⟩
  | 122 => ⟨S16000x1600, .f32⟩
  | 123 => ⟨S16000x1, .f32⟩
  | 124 => ⟨S16000, .f32⟩
  | 125 => ⟨S16000x1, .f32⟩
  | 126 => ⟨S1600x1, .f32⟩
  | 127 => ⟨S1600, .f32⟩
  | _ => ⟨S16x1000x92, .f32⟩

abbrev hbmTy0_1 (i : Nat) : BufTy := match i % 128 with
  | 0 => ⟨S1x1600, .f32⟩
  | 1 => ⟨S16000x1600, .f32⟩
  | 2 => ⟨S16000x1600, .f32⟩
  | 3 => ⟨S16000x1600, .f32⟩
  | 4 => ⟨S16000x1600, .f32⟩
  | 5 => ⟨S_, .f32⟩
  | 6 => ⟨S_, .f32⟩
  | 7 => ⟨S16000x1600, .f32⟩
  | 8 => ⟨S16000x1600, .f32⟩
  | 9 => ⟨S16000x1600, .f32⟩
  | 10 => ⟨S_, .f32⟩
  | 11 => ⟨S_, .f32⟩
  | 12 => ⟨S16000x1600, .f32⟩
  | 13 => ⟨S16000x1600, .f32⟩
  | 14 => ⟨S16000x1600, .f32⟩
  | 15 => ⟨S16000x1, .f32⟩
  | 16 => ⟨S16000, .f32⟩
  | 17 => ⟨S16000x1, .f32⟩
  | 18 => ⟨S16000, .f32⟩
  | 19 => ⟨S16000, .f32⟩
  | 20 => ⟨S16000x1, .f32⟩
  | 21 => ⟨S16000, .f32⟩
  | 22 => ⟨S16000x1, .f32⟩
  | 23 => ⟨S16000, .f32⟩
  | 24 => ⟨S16000, .f32⟩
  | 25 => ⟨S16000, .f32⟩
  | 26 => ⟨S1600x1, .f32⟩
  | 27 => ⟨S1600, .f32⟩
  | 28 => ⟨S1600x1, .f32⟩
  | 29 => ⟨S1600, .f32⟩
  | 30 => ⟨S1600, .f32⟩
  | 31 => ⟨S1600x1, .f32⟩
  | 32 => ⟨S1600, .f32⟩
  | 33 => ⟨S1600x1, .f32⟩
  | 34 => ⟨S1600, .f32⟩
  | 35 => ⟨S1600, .f32⟩
  | 36 => ⟨S1600, .f32⟩
  | 37 => ⟨S16000x1, .f32⟩
  | 38 => ⟨S1x1600, .f32⟩
  | 39 => ⟨S16000x1600, .f32⟩
  | 40 => ⟨S16000x1600, .f32⟩
  | 41 => ⟨S16000x1600, .f32⟩
  | 42 => ⟨S16000x1600, .f32⟩
  | 43 => ⟨S_, .f32⟩
  | 44 => ⟨S16000x1600, .f32⟩
  | 45 => ⟨S16000x1600, .f32⟩
  | 46 => ⟨S16000x1600, .f32⟩
  | 47 => ⟨S16000x1, .f32⟩
  | 48 => ⟨S16000, .f32⟩
  | 49 => ⟨S16000x1, .f32⟩
  | 50 => ⟨S1600x1, .f32⟩
  | 51 => ⟨S1600, .f32⟩
  | 52 => ⟨S1x1600, .f32⟩
  | 53 => ⟨S16000x1600, .f32⟩
  | 54 => ⟨S16000x1600, .f32⟩
  | 55 => ⟨S16000x1600, .f32⟩
  | 56 => ⟨S16000x1, .f32⟩
  | 57 => ⟨S16000, .f32⟩
  | 58 => ⟨S16000x1, .f32⟩
  | 59 => ⟨S1600x1, .f32⟩
  | 60 => ⟨S1600, .f32⟩
  | 61 => ⟨S1x1600, .f32⟩
  | 62 => ⟨S16000x1600, .f32⟩
  | 63 => ⟨S16000x1600, .f32⟩
  | 64 => ⟨S16000x1600, .f32⟩
  | 65 => ⟨S16000x1, .f32⟩
  | 66 => ⟨S16000, .f32⟩
  | 67 => ⟨S16000x1, .f32⟩
  | 68 => ⟨S1600x1, .f32⟩
  | 69 => ⟨S1600, .f32⟩
  | 70 => ⟨S1x1600, .f32⟩
  | 71 => ⟨S16000x1600, .f32⟩
  | 72 => ⟨S16000x1600, .f32⟩
  | 73 => ⟨S16000x1600, .f32⟩
  | 74 => ⟨S16000x1, .f32⟩
  | 75 => ⟨S16000, .f32⟩
  | 76 => ⟨S16000x1, .f32⟩
  | 77 => ⟨S1600x1, .f32⟩
  | 78 => ⟨S1600, .f32⟩
  | 79 => ⟨S1x1600, .f32⟩
  | 80 => ⟨S16000x1600, .f32⟩
  | 81 => ⟨S16000x1600, .f32⟩
  | 82 => ⟨S16000x1600, .f32⟩
  | 83 => ⟨S16000x1600, .f32⟩
  | 84 => ⟨S16000x1600, .f32⟩
  | 85 => ⟨S16000x1600, .f32⟩
  | 86 => ⟨S16000x1600, .f32⟩
  | 87 => ⟨S_, .f32⟩
  | 88 => ⟨S16000x1600, .f32⟩
  | 89 => ⟨S16000x1600, .f32⟩
  | 90 => ⟨S16000x1600, .f32⟩
  | 91 => ⟨S16000x1600, .f32⟩
  | 92 => ⟨S16000x1600, .f32⟩
  | 93 => ⟨S_, .f32⟩
  | 94 => ⟨S16000x1600, .f32⟩
  | 95 => ⟨S16000x1600, .f32⟩
  | 96 => ⟨S_, .f32⟩
  | 97 => ⟨S16000x1600, .f32⟩
  | 98 => ⟨S16000x1600, .f32⟩
  | 99 => ⟨S16000x1600, .f32⟩
  | 100 => ⟨S_, .f32⟩
  | 101 => ⟨S16000x1600, .f32⟩
  | 102 => ⟨S16000x1600, .f32⟩
  | 103 => ⟨S16000x1600, .f32⟩
  | 104 => ⟨S16x1000x1600, .f32⟩
  | _ => ⟨S16x1000x92, .f32⟩

abbrev hbmTy (i : Nat) : BufTy := match i / 128 with
  | 0 => hbmTy0_0 i
  | 1 => hbmTy0_1 i
  | _ => ⟨S16x1000x92, .f32⟩

abbrev bufTy : (tb : Table) → Fin (tcTables nBuf tb) → BufTy
  | .hbm, ⟨i, _⟩ => hbmTy i
  | _, _ => ⟨S16x1000x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_12 : Ref sig .tc := ⟨.hbm, 133, rfl⟩
abbrev main_call0_v0 : Ref sig .tc := ⟨.hbm, 134, rfl⟩
abbrev main_call0_v1 : Ref sig .tc := ⟨.hbm, 135, rfl⟩
abbrev main_v115 : Ref sig .tc := ⟨.hbm, 136, rfl⟩
abbrev main_v116 : Ref sig .tc := ⟨.hbm, 137, rfl⟩
abbrev main_cst_13 : Ref sig .tc := ⟨.hbm, 138, rfl⟩
abbrev main_call1_v0 : Ref sig .tc := ⟨.hbm, 139, rfl⟩
abbrev main_call1_v1 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_cst_14 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_cst_15 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_cst_16 : Ref sig .tc := ⟨.hbm, 221, rfl⟩
abbrev main_v195 : Ref sig .tc := ⟨.hbm, 222, rfl⟩
abbrev main_v196 : Ref sig .tc := ⟨.hbm, 223, rfl⟩
abbrev main_cst_17 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_cst_18 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩

abbrev nD : Nat := 1
abbrev τ : Topo := Topo.v7x

variable {F : FTy → Type} [FloatOps F]

class Facts₀ : Prop where
  shapeCasts_S16x1000x92_S16000x92 : S16x1000x92.ShapeCasts S16000x92
  reducesTo_S16000x92_S16000_d1 : S16000x92.ReducesTo [1] S16000
  h_S_ : 0 < S_.numel
  bcast_S_S16000 : S_.BroadcastsInDim S16000 (![] : Fin 0 → Fin S16000.rank)
  bcast_S16000_S16000x1_0 : S16000.BroadcastsInDim S16000x1 (![0] : Fin 1 → Fin S16000x1.rank)
  bcast_S16000x1_S16000x92_0_1 : S16000x1.BroadcastsInDim S16000x92 (![0, 1] : Fin 2 → Fin S16000x92.rank)
  shapeCasts_S16x1000x4_S16000x4 : S16x1000x4.ShapeCasts S16000x4
  bcast_S_S1600 : S_.BroadcastsInDim S1600 (![] : Fin 0 → Fin S1600.rank)
  bcast_S1600_S1600x1_0 : S1600.BroadcastsInDim S1600x1 (![0] : Fin 1 → Fin S1600x1.rank)
  bcast_S16000x4_S16000x1x4_0_2 : S16000x4.BroadcastsInDim S16000x1x4 (![0, 2] : Fin 2 → Fin S16000x1x4.rank)
  bcast_S1600x4_S1x1600x4_1_2 : S1600x4.BroadcastsInDim S1x1600x4 (![1, 2] : Fin 2 → Fin S1x1600x4.rank)
  bcast_S16000x1x4_S16000x1600x4_0_1_2 : S16000x1x4.BroadcastsInDim S16000x1600x4 (![0, 1, 2] : Fin 3 → Fin S16000x1600x4.rank)
  bcast_S1x1600x4_S16000x1600x4_0_1_2 : S1x1600x4.BroadcastsInDim S16000x1600x4 (![0, 1, 2] : Fin 3 → Fin S16000x1600x4.rank)
  reducesTo_S16000x1600x4_S16000x1600_d2 : S16000x1600x4.ReducesTo [2] S16000x1600
  slices_S16000x4_S16000x1_0_0 : S16000x4.Slices ![0, 0] S16000x1
  shapeCasts_S16000x1_S16000 : S16000x1.ShapeCasts S16000
  slices_S16000x4_S16000x1_0_1 : S16000x4.Slices ![0, 1] S16000x1
  slices_S16000x4_S16000x1_0_2 : S16000x4.Slices ![0, 2] S16000x1
  slices_S16000x4_S16000x1_0_3 : S16000x4.Slices ![0, 3] S16000x1
  concatenates_S16000x1_S16000x1_S16000x1_S16000x1_S16000x4_d1 : Shape.Concatenates [S16000x1, S16000x1, S16000x1, S16000x1] S16000x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  bcast_S1600_S1x1600_1 : S1600.BroadcastsInDim S1x1600 (![1] : Fin 1 → Fin S1x1600.rank)
  bcast_S16000x1_S16000x1600_0_1 : S16000x1.BroadcastsInDim S16000x1600 (![0, 1] : Fin 2 → Fin S16000x1600.rank)
  bcast_S1x1600_S16000x1600_0_1 : S1x1600.BroadcastsInDim S16000x1600 (![0, 1] : Fin 2 → Fin S16000x1600.rank)
  bcast_S_S16000x1600 : S_.BroadcastsInDim S16000x1600 (![] : Fin 0 → Fin S16000x1600.rank)
  shapeCasts_S16000x1600_S16x1000x1600 : S16000x1600.ShapeCasts S16x1000x1600
  gather_S16000x92_S1600x1_S16000x1600_0_1_n_n_1_1_160001_wf : GatherDims.WF S16000x92 S1600x1 S16000x1600 [0] [1] [] [1] [] 1 ![16000, 1]

variable [Facts₀]

def gather_S16000x92_S1600x1_S16000x1600_0_1_n_n_1_1_160001 : GatherDims S16000x92 S1600x1 S16000x1600 where
  offsetDims := [0]
  collapsedSliceDims := [1]
  operandBatchingDims := []
  startIndicesBatchingDims := []
  startIndexMap := [1]
  indexVectorDim := 1
  sliceSizes := ![16000, 1]
  wf := gather_S16000x92_S1600x1_S16000x1600_0_1_n_n_1_1_160001_wf

class Facts : Prop extends Facts₀ where

variable [Facts]
-- ==== Proof.FrameK.lean ====
/-
  The frame of the cost-matrix program: the host lines before its one region (two reshapes, the one-hot class table,
  the nine target-box rows stacked and padded), the region over 25 row blocks of 640 queries, and the reshape after it.
  Every host line writes only its own result buffer, so the four argument arrays reach the region, and the end of the
  program, as launched. At each grid point the body loads the whole of its four input blocks, and stores the whole of
  its output block: the block it leaves is one function `bodyVal` of the four input blocks, read through whole
  rectangles. The run's post names the output array as the blocks written back point by point.
  Stated at any float instance `F`.
-/
import proofs.«421631_j28406913696524_3_alg».proof.Proof.Gen.Kernel.Launch
import proofs.«421631_j28406913696524_3_alg».proof.Proof.Gen.Kernel.Skeleton
import proofs.«421631_j28406913696524_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffer contents when the region is entered: the launch contents after the eight stretches of host
    lines before it. -/
abbrev V0 (c : Dev nD) : Valuation τ sig (Elt F) := StableHlo.after (List.flatten [hostOps0, hostOps0_1, hostOps0_2, hostOps0_3, hostOps0_4, hostOps0_5, hostOps0_6, hostOps0_7]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7] [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩)
    main_chain

/-- The reshape after the region touches only the region's output array and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (a block whose index has not moved is still the one in the buffer). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (a block whose index has not moved is still the one in the buffer). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (a block whose index has not moved is still the one in the buffer). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (a block whose index has not moved is still the one in the buffer). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the region-entry contents, a run ending with every staged array at what the
    write-backs left and every other buffer as the reshape after the region leaves it has the four argument arrays as
    launched: none of them is staged, and no host line writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses: each a whole buffer -/

abbrev rL : Rect S640x92 := Rect.unit (s := S640x92) ![0, 0] S640x92.size inb_S640x92_S640x92_0_0
abbrev rB : Rect S640x4 := Rect.unit (s := S640x4) ![0, 0] S640x4.size inb_S640x4_S640x4_0_0
abbrev rT : Rect S16x1664 := Rect.unit (s := S16x1664) ![0, 0] S16x1664.size inb_S16x1664_S16x1664_0_0
abbrev rH : Rect S92x1664 := Rect.unit (s := S92x1664) ![0, 0] S92x1664.size inb_S92x1664_S92x1664_0_0
abbrev rO : Rect S640x1600 := Rect.unit (s := S640x1600) ![0, 0] S640x1600.size inb_S640x1600_S640x1600_0_0

/-! ## What the body computes -/

/-- The body's one stored value as a function of its four loaded blocks (640 logits rows, 640 predicted boxes, the
    16-row table of target-box quantities, the 92-row one-hot class table): the skeleton's payloads composed in the
    order the body names them. -/
def bodyVal (x0 : Vec F S640x92 .f32) (x1 : Vec F S640x4 .f32) (x2 : Vec F S16x1664 .f32) (x3 : Vec F S92x1664 .bf16) : FVec F S640x1600 .f32 :=
  k0_pay1 (k0_pay2 x0 x3) (k0_pay12 x2) (k0_pay13 x2)
    (k0_pay17 (k0_pay7 x1) (k0_pay9 x2) (k0_pay15 x1 x2) (k0_pay16 x1 x2))
    (k0_pay20 (k0_pay4 x1) (k0_pay6 x1)) (k0_pay21 (k0_pay5 x1) (k0_pay7 x1))
    (k0_pay23 (k0_pay4 x1) (k0_pay5 x1) (k0_pay6 x1) (k0_pay7 x1) (k0_pay10 x2) (k0_pay11 x2) (k0_pay12 x2) (k0_pay13 x2) (k0_pay14 x2))
    (k0_pay24 (k0_pay4 x1) (k0_pay5 x1) (k0_pay6 x1) (k0_pay7 x1) (k0_pay10 x2) (k0_pay11 x2) (k0_pay12 x2) (k0_pay13 x2) (k0_pay14 x2))
    (k0_pay25 (k0_pay4 x1) (k0_pay6 x1) (k0_pay10 x2))
    (k0_pay26 (k0_pay5 x1) (k0_pay7 x1) (k0_pay11 x2))

/-- The output window's staging buffer after the body: its one whole store. -/
def out0_4 (x0 : Vec F S640x92 .f32) (x1 : Vec F S640x4 .f32) (x2 : Vec F S16x1664 .f32) (x3 : Vec F S92x1664 .bf16) : Vec F S640x1600 .f32 :=
  View.canon [⟨rO, bodyVal (View.ld x0 rL) (View.ld x1 rB) (View.ld x2 rT) (View.ld x3 rH)⟩]

/-- The one store covers the buffer. -/
theorem cover0_4 (p0 : Vec F S640x1600 .f32) (y : S640x1600.Idx) :
    ∃ pc ∈ ([⟨rO, p0⟩] : List (View.Piece (Elt F) S640x1600 .f32)), y ∈ pc.1.set :=
  View.cover_of_tiled [⟨rO, p0⟩] S640x1600.size (by rfl) y

/-! ## The body's triple -/

set_option maxHeartbeats 1000000 in
/-- On whole staging memrefs, the inputs' at read contents `x0 … x3` and the output's at anything, the body runs to
    its continuation with the inputs' unchanged and the output's at `out0_4` of them. -/
theorem sound_kernel (c : Dev nD) (E : Set ℕ) (i : grid0.Coords)
    (arg1 : Memref sig .tc .vmem S640x92 .f32) (harg1 : arg1.IsWhole) (arg2 : Memref sig .tc .vmem S640x4 .f32) (harg2 : arg2.IsWhole)
    (arg3 : Memref sig .tc .vmem S16x1664 .f32) (harg3 : arg3.IsWhole) (arg4 : Memref sig .tc .vmem S92x1664 .bf16) (harg4 : arg4.IsWhole)
    (arg5 : Memref sig .tc .vmem S640x1600 .f32) (harg5 : arg5.IsWhole)
    (x0 : Vec F S640x92 .f32) (x1 : Vec F S640x4 .f32) (x2 : Vec F S16x1664 .f32) (x3 : Vec F S92x1664 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cost_kernel i arg1 harg1 arg2 harg2 arg3 harg3 arg4 harg4 arg5 harg5) K := by
  simp only [cc0__cost_kernel_eq_skeleton]; unfold cc0__cost_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t`
    each input's buffer at its block and the output's at `out0_4` of the four input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents (the definition projected; the fold over the host lines
    is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each staged array at what the write-backs left (`Dat.arrAt`) and every other buffer as the reshape after the
    region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end from any memory and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.FrameKI.lean ====
/-
  The frame of the cost-matrix program: the host lines before its one region (two reshapes, the one-hot class table,
  the nine target-box rows stacked and padded), the region over 25 row blocks of 640 queries, and the reshape after it.
  Every host line writes only its own result buffer, so the four argument arrays reach the region, and the end of the
  program, as launched. At each grid point the body loads the whole of its four input blocks, and stores the whole of
  its output block: the block it leaves is one function `bodyVal` of the four input blocks, read through whole
  rectangles. The run's post names the output array as the blocks written back point by point.
  Stated at any float instance `F`.
-/
import proofs.«421631_j28406913696524_3_alg».proof.Proof.Gen.KernelIdeal.Launch
import proofs.«421631_j28406913696524_3_alg».proof.Proof.Gen.KernelIdeal.Skeleton
import proofs.«421631_j28406913696524_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffer contents when the region is entered: the launch contents after the eight stretches of host
    lines before it. -/
abbrev V0 (c : Dev nD) : Valuation τ sig (Elt F) := StableHlo.after (List.flatten [hostOps0, hostOps0_1, hostOps0_2, hostOps0_3, hostOps0_4, hostOps0_5, hostOps0_6, hostOps0_7]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7] [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩)
    main_chain

/-- The reshape after the region touches only the region's output array and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (a block whose index has not moved is still the one in the buffer). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (a block whose index has not moved is still the one in the buffer). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (a block whose index has not moved is still the one in the buffer). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (a block whose index has not moved is still the one in the buffer). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the region-entry contents, a run ending with every staged array at what the
    write-backs left and every other buffer as the reshape after the region leaves it has the four argument arrays as
    launched: none of them is staged, and no host line writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses: each a whole buffer -/

abbrev rL : Rect S640x92 := Rect.unit (s := S640x92) ![0, 0] S640x92.size inb_S640x92_S640x92_0_0
abbrev rB : Rect S640x4 := Rect.unit (s := S640x4) ![0, 0] S640x4.size inb_S640x4_S640x4_0_0
abbrev rT : Rect S16x1664 := Rect.unit (s := S16x1664) ![0, 0] S16x1664.size inb_S16x1664_S16x1664_0_0
abbrev rH : Rect S92x1664 := Rect.unit (s := S92x1664) ![0, 0] S92x1664.size inb_S92x1664_S92x1664_0_0
abbrev rO : Rect S640x1600 := Rect.unit (s := S640x1600) ![0, 0] S640x1600.size inb_S640x1600_S640x1600_0_0

/-! ## What the body computes -/

/-- The body's one stored value as a function of its four loaded blocks (640 logits rows, 640 predicted boxes, the
    16-row table of target-box quantities, the 92-row one-hot class table): the skeleton's payloads composed in the
    order the body names them. -/
def bodyVal (x0 : Vec F S640x92 .f32) (x1 : Vec F S640x4 .f32) (x2 : Vec F S16x1664 .f32) (x3 : Vec F S92x1664 .bf16) : FVec F S640x1600 .f32 :=
  k0_pay1 (k0_pay2 x0 x3) (k0_pay12 x2) (k0_pay13 x2)
    (k0_pay17 (k0_pay7 x1) (k0_pay9 x2) (k0_pay15 x1 x2) (k0_pay16 x1 x2))
    (k0_pay20 (k0_pay4 x1) (k0_pay6 x1)) (k0_pay21 (k0_pay5 x1) (k0_pay7 x1))
    (k0_pay23 (k0_pay4 x1) (k0_pay5 x1) (k0_pay6 x1) (k0_pay7 x1) (k0_pay10 x2) (k0_pay11 x2) (k0_pay12 x2) (k0_pay13 x2) (k0_pay14 x2))
    (k0_pay24 (k0_pay4 x1) (k0_pay5 x1) (k0_pay6 x1) (k0_pay7 x1) (k0_pay10 x2) (k0_pay11 x2) (k0_pay12 x2) (k0_pay13 x2) (k0_pay14 x2))
    (k0_pay25 (k0_pay4 x1) (k0_pay6 x1) (k0_pay10 x2))
    (k0_pay26 (k0_pay5 x1) (k0_pay7 x1) (k0_pay11 x2))

/-- The output window's staging buffer after the body: its one whole store. -/
def out0_4 (x0 : Vec F S640x92 .f32) (x1 : Vec F S640x4 .f32) (x2 : Vec F S16x1664 .f32) (x3 : Vec F S92x1664 .bf16) : Vec F S640x1600 .f32 :=
  View.canon [⟨rO, bodyVal (View.ld x0 rL) (View.ld x1 rB) (View.ld x2 rT) (View.ld x3 rH)⟩]

/-- The one store covers the buffer. -/
theorem cover0_4 (p0 : Vec F S640x1600 .f32) (y : S640x1600.Idx) :
    ∃ pc ∈ ([⟨rO, p0⟩] : List (View.Piece (Elt F) S640x1600 .f32)), y ∈ pc.1.set :=
  View.cover_of_tiled [⟨rO, p0⟩] S640x1600.size (by rfl) y

/-! ## The body's triple -/

set_option maxHeartbeats 1000000 in
/-- On whole staging memrefs, the inputs' at read contents `x0 … x3` and the output's at anything, the body runs to
    its continuation with the inputs' unchanged and the output's at `out0_4` of them. -/
theorem sound_kernel (c : Dev nD) (E : Set ℕ) (i : grid0.Coords)
    (arg1 : Memref sig .tc .vmem S640x92 .f32) (harg1 : arg1.IsWhole) (arg2 : Memref sig .tc .vmem S640x4 .f32) (harg2 : arg2.IsWhole)
    (arg3 : Memref sig .tc .vmem S16x1664 .f32) (harg3 : arg3.IsWhole) (arg4 : Memref sig .tc .vmem S92x1664 .bf16) (harg4 : arg4.IsWhole)
    (arg5 : Memref sig .tc .vmem S640x1600 .f32) (harg5 : arg5.IsWhole)
    (x0 : Vec F S640x92 .f32) (x1 : Vec F S640x4 .f32) (x2 : Vec F S16x1664 .f32) (x3 : Vec F S92x1664 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cost_kernel i arg1 harg1 arg2 harg2 arg3 harg3 arg4 harg4 arg5 harg5) K := by
  simp only [cc0__cost_kernel_eq_skeleton]; unfold cc0__cost_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t`
    each input's buffer at its block and the output's at `out0_4` of the four input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents (the definition projected; the fold over the host lines
    is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each staged array at what the write-backs left (`Dat.arrAt`) and every other buffer as the reshape after the
    region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end from any memory and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.Spec.lean ====
/-
  The matching cost of one (query, target) pair, as a function of extended reals.

  For a row of 92 class logits ℓ, a predicted box p = (cx, cy, w, h), a target box t = (cx, cy, w, h) and a target
  class k, the cost is   5 · L1(p, t)  +  1 · (−softmax(ℓ)ₖ)  +  2 · (−GIoU(p, t)).
  The softmax subtracts the row's maximum before exponentiating. The boxes' corners are centre ∓ half · extent. GIoU is
  the intersection over union (the union's denominator shifted by a small ε) minus the share of the smallest
  enclosing box not covered by the union (its denominator shifted by the same ε).

  The target-box quantities are read from a 16-entry column u: the four box entries, the four corners, the area,
  then zeros. `tcol t` is that column for a target box t. `costCore` is the cost over such a column and a class
  probability; `costK` takes the class probability as the product of the softmax row with a 92-entry column o
  (a column of a one-hot table picks out one entry); `cost` takes it as the softmax's entry at k.

  The float literals (½, ε, 5, 1, 2, 0, −∞) stay as the words the programs carry.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev half : EReal := Ideal.ofBits .f32 0x3F000000#32
abbrev eps : EReal := Ideal.ofBits .f32 0x358637BD#32
abbrev five : EReal := Ideal.ofBits .f32 0x40A00000#32
abbrev one : EReal := Ideal.ofBits .f32 0x3F800000#32
abbrev two : EReal := Ideal.ofBits .f32 0x40000000#32
abbrev zero : EReal := Ideal.ofBits .f32 0x00000000#32
abbrev ninf : EReal := Ideal.ofBits .f32 0xFF800000#32

/-- |x| on the extended reals. -/
abbrev absE (x : EReal) : EReal := max x (-x)

/-! ## The softmax of a row of 92 logits -/

/-- The row's largest entry (the fold of max from −∞). -/
def smax (ℓ : Fin 92 → EReal) : EReal := (Finset.univ : Finset (Fin 92)).fold max ninf ℓ

/-- The shifted exponential of entry k. -/
def sexp (ℓ : Fin 92 → EReal) (k : Fin 92) : EReal := Ideal.exp (ℓ k - smax ℓ)

/-- The softmax's entry k. -/
def prob (ℓ : Fin 92 → EReal) (k : Fin 92) : EReal := Ideal.div (sexp ℓ k) (∑ k' : Fin 92, sexp ℓ k')

/-! ## Corners -/

/-- The low corner: centre − ½ · extent. -/
def lo (c w : EReal) : EReal := c - half * w
/-- The high corner: centre + ½ · extent. -/
def hi (c w : EReal) : EReal := c + half * w

/-- The column of target-box quantities for a target box t = (cx, cy, w, h): the box, its corners
    (x low, y low, x high, y high), its area, and seven zeros. -/
def tcol (t : Fin 4 → EReal) : Fin 16 → EReal :=
  ![t 0, t 1, t 2, t 3, lo (t 0) (t 2), lo (t 1) (t 3), hi (t 0) (t 2), hi (t 1) (t 3),
    (hi (t 0) (t 2) - lo (t 0) (t 2)) * (hi (t 1) (t 3) - lo (t 1) (t 3)), 0, 0, 0, 0, 0, 0, 0]

/-! ## The three costs over a predicted box p and a column u -/

/-- The L1 distance of the two boxes, summed left to right. -/
def l1K (p : Fin 4 → EReal) (u : Fin 16 → EReal) : EReal :=
  ((absE (p 0 - u 0) + absE (p 1 - u 1)) + absE (p 2 - u 2)) + absE (p 3 - u 3)

/-- The intersection's area. -/
def inter (p : Fin 4 → EReal) (u : Fin 16 → EReal) : EReal :=
  max (min (hi (p 0) (p 2)) (u 6) - max (lo (p 0) (p 2)) (u 4)) zero
    * max (min (hi (p 1) (p 3)) (u 7) - max (lo (p 1) (p 3)) (u 5)) zero

/-- The union's area: the two areas less the intersection. -/
def union (p : Fin 4 → EReal) (u : Fin 16 → EReal) : EReal :=
  ((hi (p 0) (p 2) - lo (p 0) (p 2)) * (hi (p 1) (p 3) - lo (p 1) (p 3)) + u 8) - inter p u

/-- The smallest enclosing box's area. -/
def enclose (p : Fin 4 → EReal) (u : Fin 16 → EReal) : EReal :=
  (max (hi (p 0) (p 2)) (u 6) - min (lo (p 0) (p 2)) (u 4)) * (max (hi (p 1) (p 3)) (u 7) - min (lo (p 1) (p 3)) (u 5))

/-- Generalised intersection over union. -/
def giouK (p : Fin 4 → EReal) (u : Fin 16 → EReal) : EReal :=
  Ideal.div (inter p u) (union p u + eps) - Ideal.div (enclose p u - union p u) (enclose p u + eps)

/-- The cost from the box terms and a class probability. -/
def costCore (p : Fin 4 → EReal) (u : Fin 16 → EReal) (cls : EReal) : EReal :=
  (five * l1K p u + one * (zero - cls)) + two * (zero - giouK p u)

/-- The cost with the class probability taken as the softmax row times a 92-entry column. -/
def costK (ℓ : Fin 92 → EReal) (p : Fin 4 → EReal) (u : Fin 16 → EReal) (o : Fin 92 → EReal) : EReal :=
  costCore p u (∑ k : Fin 92, prob ℓ k * o k)

/-- The cost of query (ℓ, p) against target (t, k). -/
def cost (ℓ : Fin 92 → EReal) (p : Fin 4 → EReal) (t : Fin 4 → EReal) (k : Fin 92) : EReal :=
  costCore p (tcol t) (prob ℓ k)

/-! ## The whole cost array -/

/-- A class word as a class: its value when it is below 92 (any class otherwise; the claim's domain keeps the words
    below 92). -/
def idOf (w : BitVec 32) : Fin 92 := ⟨w.toNat % 92, Nat.mod_lt _ (by decide)⟩

theorem idOf_ofNat (k : Fin 92) : idOf (BitVec.ofNat 32 k.val) = k := by
  apply Fin.ext
  show (BitVec.ofNat 32 k.val).toNat % 92 = k.val
  have h := k.isLt
  rw [BitVec.toNat_ofNat]
  omega

/-- The cost of every (batch, query, target) triple, from the logits L, the predicted boxes B, the target class words I
    and the target boxes T. -/
def G (L : (⟨3, ![16, 1000, 92]⟩ : Shape).Idx → EReal) (B : (⟨3, ![16, 1000, 4]⟩ : Shape).Idx → EReal)
    (I : (⟨1, ![1600]⟩ : Shape).Idx → BitVec 32) (T : (⟨2, ![1600, 4]⟩ : Shape).Idx → EReal) :
    (⟨3, ![16, 1000, 1600]⟩ : Shape).Idx → EReal :=
  fun i => cost (fun k => L (ix3 (i 0) (i 1) k)) (fun a => B (ix3 (i 0) (i 1) a)) (fun a => T (ix2 (i 2) a)) (idOf (I (ix1 (i 2))))

/-- A one-hot column picks out one entry of the softmax row. -/
theorem sum_onehot (ℓ : Fin 92 → EReal) (k : Fin 92) :
    (∑ k' : Fin 92, prob ℓ k' * (if k' = k then (1 : EReal) else 0)) = prob ℓ k := by
  rw [Finset.sum_eq_single k]
  · rw [if_pos rfl, mul_one]
  · intro b _ hb; rw [if_neg hb, mul_zero]
  · intro h; exact absurd (Finset.mem_univ k) h

/-- So the cost over a target's column and its class's one-hot column is the cost against that target. -/
theorem costK_onehot (ℓ : Fin 92 → EReal) (p t : Fin 4 → EReal) (k : Fin 92) :
    costK ℓ p (tcol t) (fun k' => if k' = k then (1 : EReal) else 0) = cost ℓ p t k := by
  unfold costK cost
  rw [sum_onehot]

end Cert.Spec

end
-- ==== Proof.KBody.lean ====
/-
  The body's stored value at one entry: row p of the 640-row block and target column q (q < 1600, inside the 1664
  columns the body computes over) is the matching cost of that row's logits and box against column q of the two tables.
-/
import proofs.«421631_j28406913696524_3_alg».proof.Proof.FrameKI
import proofs.«421631_j28406913696524_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx
open Cert.KernelIdeal Cert.KernelIdeal.Gen

/-! ## Layout operations read at an entry -/

section Layout
variable {α : Type}

/-- A column ([a, 1]) laid along b columns reads, at (i, c), the column's entry i. -/
theorem bcol_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A vector ([a]) cast to a column ([a, 1]) reads, at (i, u), the vector's entry i. -/
theorem cast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column o of a matrix, cut out as a column, reads at (i, u) the matrix at (i, k), k the column numbered o. -/
theorem colcut_apply {n0 n1 : ℕ} (o : ℕ) (X : (⟨2, ![n0, n1]⟩ : Shape).Idx → α)
    (h : (⟨2, ![n0, n1]⟩ : Shape).Slices ![0, o] ⟨2, ![n0, 1]⟩) (i : Fin n0) (u : Fin 1) (k : Fin n1) (hk : k.val = o) :
    extractStridedSlice ⟨2, ![n0, 1]⟩ ![0, o] X h (ix2 i u) = X (ix2 i k) :=
  slice2_axis1_apply o X h i u k (by have := u.isLt; omega)

/-- Row o of a matrix, cut out as a row, reads at (u, c) the matrix at (k, c), k the row numbered o. -/
theorem rowcut_apply {n0 n1 : ℕ} (o : ℕ) (X : (⟨2, ![n0, n1]⟩ : Shape).Idx → α)
    (h : (⟨2, ![n0, n1]⟩ : Shape).Slices ![o, 0] ⟨2, ![1, n1]⟩) (u : Fin 1) (c : Fin n1) (k : Fin n0) (hk : k.val = o) :
    extractStridedSlice ⟨2, ![1, n1]⟩ ![o, 0] X h (ix2 u c) = X (ix2 k c) :=
  slice2_axis0_apply o X h u c k (by have := u.isLt; omega)

end Layout

/-! ## The elementwise operations read at an entry -/

/-- |x| at an entry. -/
theorem absf_apply {s : Shape} {φ : FTy} (a : FVec Ideal s φ) (i : s.Idx) : absf a i = Cert.Spec.absE (a i) := rfl
/-- The exponential at an entry. -/
theorem exp_apply {s : Shape} {φ : FTy} (a : FVec Ideal s φ) (i : s.Idx) : exp a i = Ideal.exp (a i) := rfl
/-- A float word taken as a scalar is what the word denotes. -/
theorem word_eq (b : BitVec 32) : Scalar.ofBits (F := Ideal) .f32 b = Ideal.ofBits .f32 b := rfl

/-! ## The two lane reductions of a [640, 92] block, and the product with the [92, 1664] table -/

/-- Row p with the reduced coordinate k put back is entry (p, k). -/
theorem lift_row (p : Fin 640) (k : Fin 92) : reduces_S640x92_S640.lift (ix1 p) k = ix2 p k :=
  funext fun a => Fin.ext (by match a with | ⟨0, _⟩ => rfl | ⟨1, _⟩ => rfl)

/-- The lane maximum of row p is the fold of max from −∞ over the row. -/
theorem rowmax_apply (src : FVec Ideal S640x92 .f32) (hφ : FKind.Formats .f32)
    (hacc : (0xFF800000#32 : BitVec 32) = FKind.maximumf.neutral .f32 hφ) (p : Fin 640) :
    multiReduction (F := Ideal) .maximumf [1] S640 src 0xFF800000#32 reduces_S640x92_S640 hφ hacc (ix1 p)
      = Cert.Spec.smax (fun k => src (ix2 p k)) := by
  refine (Ideal.multiReduction_maximumf_single src 0xFF800000#32 reduces_S640x92_S640 hφ hacc (ix1 p)).trans ?_
  unfold Cert.Spec.smax
  exact congrArg (fun f : Fin 92 → EReal => (Finset.univ : Finset (Fin 92)).fold max Cert.Spec.ninf f)
    (funext fun k => congrArg src (lift_row p k))

/-- The lane sum of row p is the sum over the row. -/
theorem rowsum_apply (src : FVec Ideal S640x92 .f32) (hφ : FKind.Formats .f32)
    (hacc : (0x00000000#32 : BitVec 32) = FKind.add.neutral .f32 hφ) (p : Fin 640) :
    multiReduction (F := Ideal) .add [1] S640 src 0x00000000#32 reduces_S640x92_S640 hφ hacc (ix1 p)
      = ∑ k : Fin 92, src (ix2 p k) := by
  refine (Ideal.multiReduction_add_single src 0x00000000#32 reduces_S640x92_S640 hφ hacc (ix1 p)).trans ?_
  exact Finset.sum_congr rfl fun k _ => congrArg src (lift_row p k)

/-- The left operand's entry of the product at (j, k): row j 0, column k. -/
theorem lhs_dot_0 (j : S640x1664.Idx) (k : dot_S640x92_S92x1664_S640x1664_1_0_0_1_n_n.contr.Idx) :
    (dot_S640x92_S92x1664_S640x1664_1_0_0_1_n_n.lhsIdx j k 0 : ℕ) = j 0 := by
  simp [DotDims.lhsIdx, dot_S640x92_S92x1664_S640x1664_1_0_0_1_n_n]; rfl
theorem lhs_dot_1 (j : S640x1664.Idx) (k : dot_S640x92_S92x1664_S640x1664_1_0_0_1_n_n.contr.Idx) :
    (dot_S640x92_S92x1664_S640x1664_1_0_0_1_n_n.lhsIdx j k 1 : ℕ) = k ⟨0, by decide⟩ := by
  simp [DotDims.lhsIdx, dot_S640x92_S92x1664_S640x1664_1_0_0_1_n_n]; rfl
/-- The right operand's entry: row k, column j 1. -/
theorem rhs_dot_0 (j : S640x1664.Idx) (k : dot_S640x92_S92x1664_S640x1664_1_0_0_1_n_n.contr.Idx) :
    (dot_S640x92_S92x1664_S640x1664_1_0_0_1_n_n.rhsIdx j k 0 : ℕ) = k ⟨0, by decide⟩ := by
  simp [DotDims.rhsIdx, dot_S640x92_S92x1664_S640x1664_1_0_0_1_n_n]; rfl
theorem rhs_dot_1 (j : S640x1664.Idx) (k : dot_S640x92_S92x1664_S640x1664_1_0_0_1_n_n.contr.Idx) :
    (dot_S640x92_S92x1664_S640x1664_1_0_0_1_n_n.rhsIdx j k 1 : ℕ) = j 1 := by
  simp [DotDims.rhsIdx, dot_S640x92_S92x1664_S640x1664_1_0_0_1_n_n]; rfl

/-- The product into the zero block, at (p, c): the sum over k of the left operand's (p, k) times the right operand's (k, c). -/
theorem dot_apply (lhs : FVec Ideal S640x92 .bf16) (rhs : FVec Ideal S92x1664 .bf16) (p : Fin 640) (c : Fin 1664) :
    matmul (F := Ideal) dot_S640x92_S92x1664_S640x1664_1_0_0_1_n_n none lhs rhs (constant (F := Ideal) S640x1664 .f32 0x00000000#32) (ix2 p c)
      = ∑ k : Fin 92, lhs (ix2 p k) * rhs (ix2 k c) := by
  refine (Ideal.matmul_constant_zero_apply dot_S640x92_S92x1664_S640x1664_1_0_0_1_n_n none lhs rhs (ix2 p c)).trans ?_
  rw [← Equiv.sum_comp (contrEquiv1 dot_S640x92_S92x1664_S640x1664_1_0_0_1_n_n 92 rfl rfl).symm]
  refine Finset.sum_congr rfl fun k _ => ?_
  congr 2
  · apply Shape.idx_ext₂
    · exact lhs_dot_0 _ _
    · exact (lhs_dot_1 _ _).trans (contrEquiv1_symm_val dot_S640x92_S92x1664_S640x1664_1_0_0_1_n_n 92 rfl rfl k)
  · apply Shape.idx_ext₂
    · exact (rhs_dot_0 _ _).trans (contrEquiv1_symm_val dot_S640x92_S92x1664_S640x1664_1_0_0_1_n_n 92 rfl rfl k)
    · exact rhs_dot_1 _ _

/-! ## The softmax row and the class term -/

/-- A lane-reduced vector, cast to a column and laid along the 92 lanes, reads at (p, k) its entry p. -/
theorem keepcol_apply (v : FVec Ideal S640 .f32) (p : Fin 640) (k : Fin 92) :
    broadcastTo S640x92 (shapeCast S640x1 v shapeCasts_S640_S640x1) broadcasts_S640x1_S640x92 (ix2 p k) = v (ix1 p) :=
  (bcol_apply _ broadcasts_S640x1_S640x92 p k).trans (cast_col_apply v shapeCasts_S640_S640x1 p 0)

/-- The shifted exponential of the block at (p, k) is that of row p at k. -/
theorem sexp_apply (v0 : FVec Ideal S640x92 .f32) (hφ : FKind.Formats .f32)
    (hacc : (0xFF800000#32 : BitVec 32) = FKind.maximumf.neutral .f32 hφ) (p : Fin 640) (k : Fin 92) :
    exp (subf v0 (broadcastTo S640x92 (shapeCast S640x1
        (multiReduction (F := Ideal) .maximumf [1] S640 v0 0xFF800000#32 reduces_S640x92_S640 hφ hacc)
        shapeCasts_S640_S640x1) broadcasts_S640x1_S640x92)) (ix2 p k)
      = Cert.Spec.sexp (fun k' => v0 (ix2 p k')) k := by
  unfold Cert.Spec.sexp
  exact congrArg (fun m => Ideal.exp (v0 (ix2 p k) - m)) ((keepcol_apply _ p k).trans (rowmax_apply v0 hφ hacc p))

/-- A block whose row p is the shifted exponentials of ℓ, divided by its lane sums, has the softmax of ℓ as row p. -/
theorem prob_apply (ℓ : Fin 92 → EReal) (E : FVec Ideal S640x92 .f32) (p : Fin 640)
    (hE : ∀ k, E (ix2 p k) = Cert.Spec.sexp ℓ k) (hφ : FKind.Formats .f32)
    (hacc : (0x00000000#32 : BitVec 32) = FKind.add.neutral .f32 hφ) (k : Fin 92) :
    divf E (broadcastTo S640x92 (shapeCast S640x1
        (multiReduction (F := Ideal) .add [1] S640 E 0x00000000#32 reduces_S640x92_S640 hφ hacc)
        shapeCasts_S640_S640x1) broadcasts_S640x1_S640x92) (ix2 p k)
      = Cert.Spec.prob ℓ k := by
  unfold Cert.Spec.prob
  have hs := (keepcol_apply (multiReduction (F := Ideal) .add [1] S640 E 0x00000000#32 reduces_S640x92_S640 hφ hacc) p k).trans
    ((rowsum_apply E hφ hacc p).trans (Finset.sum_congr rfl fun k' _ => hE k'))
  exact (congrArg (fun m => Ideal.div (E (ix2 p k)) m) hs).trans (congrArg (fun e => Ideal.div e _) (hE k))

/-- The class term at (p, c): 0 − the softmax of row p of the logits times column c of the class table. -/
theorem pay2_apply (v0 : Vec Ideal S640x92 .f32) (v12 : Vec Ideal S92x1664 .bf16) (p : Fin 640) (c : Fin 1664) :
    k0_pay2 (F := Ideal) v0 v12 (ix2 p c)
      = Cert.Spec.zero - ∑ k : Fin 92, Cert.Spec.prob (fun k' => v0 (ix2 p k')) k * v12 (ix2 k c) := by
  unfold k0_pay2
  simp only [shapeCast_self]
  refine (congrArg (fun z => Cert.Spec.zero - z) (dot_apply _ _ p c)).trans ?_
  refine congrArg (fun z => Cert.Spec.zero - z) (Finset.sum_congr rfl fun k _ => congrArg (· * v12 (ix2 k c)) ?_)
  exact prob_apply (fun k' => v0 (ix2 p k')) _ p (fun k' => sexp_apply v0 _ _ p k') _ _ k

/-! ## The box terms -/

theorem pay3_eq (v17 : Vec Ideal S640x4 .f32) : k0_pay3 (F := Ideal) v17 = v17 :=
  shapeCast_self v17 shapeCasts_S640x4_S640x4
theorem pay8_eq (v23 : Vec Ideal S16x1664 .f32) : k0_pay8 (F := Ideal) v23 = v23 :=
  shapeCast_self v23 shapeCasts_S16x1664_S16x1664

/-- The predicted box's four columns. -/
theorem pay4_apply (v17 : Vec Ideal S640x4 .f32) (p : Fin 640) (u : Fin 1) :
    k0_pay4 (F := Ideal) v17 (ix2 p u) = v17 (ix2 p (0 : Fin 4)) := by
  unfold k0_pay4; rw [pay3_eq]; exact colcut_apply 0 v17 slices_S640x4_o0_0_S640x1 p u 0 rfl
theorem pay5_apply (v17 : Vec Ideal S640x4 .f32) (p : Fin 640) (u : Fin 1) :
    k0_pay5 (F := Ideal) v17 (ix2 p u) = v17 (ix2 p (1 : Fin 4)) := by
  unfold k0_pay5; rw [pay3_eq]; exact colcut_apply 1 v17 slices_S640x4_o0_1_S640x1 p u 1 rfl
theorem pay6_apply (v17 : Vec Ideal S640x4 .f32) (p : Fin 640) (u : Fin 1) :
    k0_pay6 (F := Ideal) v17 (ix2 p u) = v17 (ix2 p (2 : Fin 4)) := by
  unfold k0_pay6; rw [pay3_eq]; exact colcut_apply 2 v17 slices_S640x4_o0_2_S640x1 p u 2 rfl
theorem pay7_apply (v17 : Vec Ideal S640x4 .f32) (p : Fin 640) (u : Fin 1) :
    k0_pay7 (F := Ideal) v17 (ix2 p u) = v17 (ix2 p (3 : Fin 4)) := by
  unfold k0_pay7; rw [pay3_eq]; exact colcut_apply 3 v17 slices_S640x4_o0_3_S640x1 p u 3 rfl

/-- The table's rows 3 to 8. -/
theorem pay9_apply (v23 : Vec Ideal S16x1664 .f32) (u : Fin 1) (c : Fin 1664) :
    k0_pay9 (F := Ideal) v23 (ix2 u c) = v23 (ix2 (3 : Fin 16) c) := by
  unfold k0_pay9; rw [pay8_eq]; exact rowcut_apply 3 v23 slices_S16x1664_o3_0_S1x1664 u c 3 rfl
theorem pay10_apply (v23 : Vec Ideal S16x1664 .f32) (u : Fin 1) (c : Fin 1664) :
    k0_pay10 (F := Ideal) v23 (ix2 u c) = v23 (ix2 (4 : Fin 16) c) := by
  unfold k0_pay10; rw [pay8_eq]; exact rowcut_apply 4 v23 slices_S16x1664_o4_0_S1x1664 u c 4 rfl
theorem pay11_apply (v23 : Vec Ideal S16x1664 .f32) (u : Fin 1) (c : Fin 1664) :
    k0_pay11 (F := Ideal) v23 (ix2 u c) = v23 (ix2 (5 : Fin 16) c) := by
  unfold k0_pay11; rw [pay8_eq]; exact rowcut_apply 5 v23 slices_S16x1664_o5_0_S1x1664 u c 5 rfl
theorem pay12_apply (v23 : Vec Ideal S16x1664 .f32) (u : Fin 1) (c : Fin 1664) :
    k0_pay12 (F := Ideal) v23 (ix2 u c) = v23 (ix2 (6 : Fin 16) c) := by
  unfold k0_pay12; rw [pay8_eq]; exact rowcut_apply 6 v23 slices_S16x1664_o6_0_S1x1664 u c 6 rfl
theorem pay13_apply (v23 : Vec Ideal S16x1664 .f32) (u : Fin 1) (c : Fin 1664) :
    k0_pay13 (F := Ideal) v23 (ix2 u c) = v23 (ix2 (7 : Fin 16) c) := by
  unfold k0_pay13; rw [pay8_eq]; exact rowcut_apply 7 v23 slices_S16x1664_o7_0_S1x1664 u c 7 rfl
theorem pay14_apply (v23 : Vec Ideal S16x1664 .f32) (u : Fin 1) (c : Fin 1664) :
    k0_pay14 (F := Ideal) v23 (ix2 u c) = v23 (ix2 (8 : Fin 16) c) := by
  unfold k0_pay14; rw [pay8_eq]; exact rowcut_apply 8 v23 slices_S16x1664_o8_0_S1x1664 u c 8 rfl

/-- The first two terms of the L1 sum. -/
theorem pay15_apply (v17 : Vec Ideal S640x4 .f32) (v23 : Vec Ideal S16x1664 .f32) (p : Fin 640) (c : Fin 1664) :
    k0_pay15 (F := Ideal) v17 v23 (ix2 p c)
      = Cert.Spec.absE (v17 (ix2 p (0 : Fin 4)) - v23 (ix2 (0 : Fin 16) c))
        + Cert.Spec.absE (v17 (ix2 p (1 : Fin 4)) - v23 (ix2 (1 : Fin 16) c)) := by
  have r0 : ∀ u : Fin 1, extractStridedSlice S1x1664 ![0, 0] v23 slices_S16x1664_o0_0_S1x1664 (ix2 u c) = v23 (ix2 (0 : Fin 16) c) :=
    fun u => rowcut_apply 0 v23 slices_S16x1664_o0_0_S1x1664 u c 0 rfl
  have r1 : ∀ u : Fin 1, extractStridedSlice S1x1664 ![1, 0] v23 slices_S16x1664_o1_0_S1x1664 (ix2 u c) = v23 (ix2 (1 : Fin 16) c) :=
    fun u => rowcut_apply 1 v23 slices_S16x1664_o1_0_S1x1664 u c 1 rfl
  unfold k0_pay15
  simp only [pay8_eq, addf_apply, absf_apply, subf_apply, bcol_apply, broadcastTo_1b_ab_apply, pay4_apply, pay5_apply, r0, r1]

/-- The third. -/
theorem pay16_apply (v17 : Vec Ideal S640x4 .f32) (v23 : Vec Ideal S16x1664 .f32) (p : Fin 640) (c : Fin 1664) :
    k0_pay16 (F := Ideal) v17 v23 (ix2 p c) = Cert.Spec.absE (v17 (ix2 p (2 : Fin 4)) - v23 (ix2 (2 : Fin 16) c)) := by
  have r2 : ∀ u : Fin 1, extractStridedSlice S1x1664 ![2, 0] v23 slices_S16x1664_o2_0_S1x1664 (ix2 u c) = v23 (ix2 (2 : Fin 16) c) :=
    fun u => rowcut_apply 2 v23 slices_S16x1664_o2_0_S1x1664 u c 2 rfl
  unfold k0_pay16
  simp only [pay8_eq, absf_apply, subf_apply, bcol_apply, broadcastTo_1b_ab_apply, pay6_apply, r2]

/-- The L1 sum: the three terms, then the fourth. -/
theorem pay17_apply (v22 : FVec Ideal S640x1 .f32) (v28 : FVec Ideal S1x1664 .f32) (v42 v46 : FVec Ideal S640x1664 .f32)
    (p : Fin 640) (c : Fin 1664) :
    k0_pay17 v22 v28 v42 v46 (ix2 p c)
      = (v42 (ix2 p c) + v46 (ix2 p c)) + Cert.Spec.absE (v22 (ix2 p (0 : Fin 1)) - v28 (ix2 (0 : Fin 1) c)) := by
  unfold k0_pay17
  simp only [addf_apply, absf_apply, subf_apply, bcol_apply, broadcastTo_1b_ab_apply]

/-- The predicted box's corners. -/
theorem pay18_apply (v19 v21 : FVec Ideal S640x1 .f32) (i : S640x1.Idx) :
    k0_pay18 v19 v21 i = Cert.Spec.lo (v19 i) (v21 i) := rfl
theorem pay19_apply (v20 v22 : FVec Ideal S640x1 .f32) (i : S640x1.Idx) :
    k0_pay19 v20 v22 i = Cert.Spec.lo (v20 i) (v22 i) := rfl
theorem pay20_apply (v19 v21 : FVec Ideal S640x1 .f32) (i : S640x1.Idx) :
    k0_pay20 v19 v21 i = Cert.Spec.hi (v19 i) (v21 i) := rfl
theorem pay21_apply (v20 v22 : FVec Ideal S640x1 .f32) (i : S640x1.Idx) :
    k0_pay21 v20 v22 i = Cert.Spec.hi (v20 i) (v22 i) := rfl

/-- The intersection's area. -/
theorem pay22_apply (v19 v20 v21 v22 : FVec Ideal S640x1 .f32) (v29 v30 v31 v32 : FVec Ideal S1x1664 .f32)
    (p : Fin 640) (c : Fin 1664) :
    k0_pay22 v19 v20 v21 v22 v29 v30 v31 v32 (ix2 p c)
      = max (min (Cert.Spec.hi (v19 (ix2 p (0 : Fin 1))) (v21 (ix2 p (0 : Fin 1)))) (v31 (ix2 (0 : Fin 1) c))
            - max (Cert.Spec.lo (v19 (ix2 p (0 : Fin 1))) (v21 (ix2 p (0 : Fin 1)))) (v29 (ix2 (0 : Fin 1) c))) Cert.Spec.zero
        * max (min (Cert.Spec.hi (v20 (ix2 p (0 : Fin 1))) (v22 (ix2 p (0 : Fin 1)))) (v32 (ix2 (0 : Fin 1) c))
            - max (Cert.Spec.lo (v20 (ix2 p (0 : Fin 1))) (v22 (ix2 p (0 : Fin 1)))) (v30 (ix2 (0 : Fin 1) c))) Cert.Spec.zero := by
  unfold k0_pay22
  simp only [mulf_apply, maximumf_apply, minimumf_apply, subf_apply, broadcast_apply, word_eq, bcol_apply, broadcastTo_1b_ab_apply,
    pay18_apply, pay19_apply, pay20_apply, pay21_apply]

/-- The union's area. -/
theorem pay23_apply (v19 v20 v21 v22 : FVec Ideal S640x1 .f32) (v29 v30 v31 v32 v33 : FVec Ideal S1x1664 .f32)
    (p : Fin 640) (c : Fin 1664) :
    k0_pay23 v19 v20 v21 v22 v29 v30 v31 v32 v33 (ix2 p c)
      = ((Cert.Spec.hi (v19 (ix2 p (0 : Fin 1))) (v21 (ix2 p (0 : Fin 1))) - Cert.Spec.lo (v19 (ix2 p (0 : Fin 1))) (v21 (ix2 p (0 : Fin 1))))
          * (Cert.Spec.hi (v20 (ix2 p (0 : Fin 1))) (v22 (ix2 p (0 : Fin 1))) - Cert.Spec.lo (v20 (ix2 p (0 : Fin 1))) (v22 (ix2 p (0 : Fin 1))))
          + v33 (ix2 (0 : Fin 1) c))
        - k0_pay22 v19 v20 v21 v22 v29 v30 v31 v32 (ix2 p c) := by
  unfold k0_pay23
  simp only [mulf_apply, addf_apply, subf_apply, bcol_apply, broadcastTo_1b_ab_apply,
    pay18_apply, pay19_apply, pay20_apply, pay21_apply]

/-- Intersection over union, the denominator shifted by ε. -/
theorem pay24_apply (v19 v20 v21 v22 : FVec Ideal S640x1 .f32) (v29 v30 v31 v32 v33 : FVec Ideal S1x1664 .f32)
    (i : S640x1664.Idx) :
    k0_pay24 v19 v20 v21 v22 v29 v30 v31 v32 v33 i
      = Ideal.div (k0_pay22 v19 v20 v21 v22 v29 v30 v31 v32 i) (k0_pay23 v19 v20 v21 v22 v29 v30 v31 v32 v33 i + Cert.Spec.eps) := rfl

/-- The enclosing box's low corners. -/
theorem pay25_apply (v19 v21 : FVec Ideal S640x1 .f32) (v29 : FVec Ideal S1x1664 .f32) (p : Fin 640) (c : Fin 1664) :
    k0_pay25 v19 v21 v29 (ix2 p c)
      = min (Cert.Spec.lo (v19 (ix2 p (0 : Fin 1))) (v21 (ix2 p (0 : Fin 1)))) (v29 (ix2 (0 : Fin 1) c)) := by
  unfold k0_pay25
  simp only [minimumf_apply, bcol_apply, broadcastTo_1b_ab_apply, pay18_apply]
theorem pay26_apply (v20 v22 : FVec Ideal S640x1 .f32) (v30 : FVec Ideal S1x1664 .f32) (p : Fin 640) (c : Fin 1664) :
    k0_pay26 v20 v22 v30 (ix2 p c)
      = min (Cert.Spec.lo (v20 (ix2 p (0 : Fin 1))) (v22 (ix2 p (0 : Fin 1)))) (v30 (ix2 (0 : Fin 1) c)) := by
  unfold k0_pay26
  simp only [minimumf_apply, bcol_apply, broadcastTo_1b_ab_apply, pay19_apply]

/-- The stored value at (p, q): the enclosing box, GIoU and the weighted sum, read at column q of the 1664. -/
theorem pay1_apply (v16 : FVec Ideal S640x1664 .f32) (v31 v32 : FVec Ideal S1x1664 .f32) (v52 : FVec Ideal S640x1664 .f32)
    (v61 v64 : FVec Ideal S640x1 .f32) (v90 v93 v96 v99 : FVec Ideal S640x1664 .f32) (p : Fin 640) (q : Fin 1600) :
    k0_pay1 v16 v31 v32 v52 v61 v64 v90 v93 v96 v99 (ix2 p q)
      = (Cert.Spec.five * v52 (ix2 p (Fin.castLE (by decide : 1600 ≤ 1664) q))
          + Cert.Spec.one * v16 (ix2 p (Fin.castLE (by decide : 1600 ≤ 1664) q)))
        + Cert.Spec.two * (Cert.Spec.zero
          - (v93 (ix2 p (Fin.castLE (by decide : 1600 ≤ 1664) q))
            - Ideal.div
                ((max (v61 (ix2 p (0 : Fin 1))) (v31 (ix2 (0 : Fin 1) (Fin.castLE (by decide : 1600 ≤ 1664) q)))
                      - v96 (ix2 p (Fin.castLE (by decide : 1600 ≤ 1664) q)))
                    * (max (v64 (ix2 p (0 : Fin 1))) (v32 (ix2 (0 : Fin 1) (Fin.castLE (by decide : 1600 ≤ 1664) q)))
                      - v99 (ix2 p (Fin.castLE (by decide : 1600 ≤ 1664) q)))
                  - v90 (ix2 p (Fin.castLE (by decide : 1600 ≤ 1664) q)))
                ((max (v61 (ix2 p (0 : Fin 1))) (v31 (ix2 (0 : Fin 1) (Fin.castLE (by decide : 1600 ≤ 1664) q)))
                      - v96 (ix2 p (Fin.castLE (by decide : 1600 ≤ 1664) q)))
                    * (max (v64 (ix2 p (0 : Fin 1))) (v32 (ix2 (0 : Fin 1) (Fin.castLE (by decide : 1600 ≤ 1664) q)))
                      - v99 (ix2 p (Fin.castLE (by decide : 1600 ≤ 1664) q)))
                  + Cert.Spec.eps))) := by
  have hs : ∀ X : FVec Ideal S640x1664 .f32,
      extractStridedSlice S640x1600 ![0, 0] X slices_S640x1664_o0_0_S640x1600 (ix2 p q)
        = X (ix2 p (Fin.castLE (by decide : 1600 ≤ 1664) q)) :=
    fun X => slice2_axis1_apply 0 X slices_S640x1664_o0_0_S640x1600 p q _ (Nat.zero_add q.val).symm
  unfold k0_pay1
  simp only [hs, mulf_apply, addf_apply, subf_apply, divf_apply, maximumf_apply, broadcast_apply, word_eq, bcol_apply,
    broadcastTo_1b_ab_apply]

theorem bodyVal_apply (x0 : Vec Ideal S640x92 .f32) (x1 : Vec Ideal S640x4 .f32) (x2 : Vec Ideal S16x1664 .f32) (x3 : Vec Ideal S92x1664 .bf16)
    (p : Fin 640) (q : Fin 1600) :
    Cert.KernelIdeal.Fr.bodyVal (F := Ideal) x0 x1 x2 x3 (ix2 p q)
      = Cert.Spec.costK (fun k : Fin 92 => x0 (ix2 p k)) (fun a : Fin 4 => x1 (ix2 p a))
          (fun r : Fin 16 => x2 (ix2 r (Fin.castLE (by decide : 1600 ≤ 1664) q)))
          (fun k : Fin 92 => x3 (ix2 k (Fin.castLE (by decide : 1600 ≤ 1664) q))) := by
  unfold Cert.KernelIdeal.Fr.bodyVal
  rw [pay1_apply]
  simp only [pay2_apply, pay12_apply, pay13_apply, pay17_apply, pay15_apply, pay16_apply, pay20_apply, pay21_apply,
    pay24_apply, pay23_apply, pay22_apply, pay25_apply, pay26_apply, pay4_apply, pay5_apply, pay6_apply, pay7_apply,
    pay9_apply, pay10_apply, pay11_apply, pay14_apply]
  unfold Cert.Spec.costK Cert.Spec.costCore Cert.Spec.l1K Cert.Spec.giouK Cert.Spec.enclose Cert.Spec.union Cert.Spec.inter
  rfl

end Cert.KernelIdeal.Body

end
-- ==== Proof.KTables.lean ====
/-
  What the region finds in its four staged input arrays, entry by entry, from the launch contents: the logits and the
  predicted boxes re-laid from [16, 1000, ·] to [16000, ·]; the table of target-box quantities (column q, for q < 1600,
  is the column of target box q); the one-hot class table (entry (k, q), for q < 1600, is 1 where target q's class word
  is k, else 0).
-/
import proofs.«421631_j28406913696524_3_alg».proof.Proof.FrameKI
import proofs.«421631_j28406913696524_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.KernelVsHost
import Idealize.ShloMosaic.Lib.StableHlo.Predicate

noncomputable section

namespace Cert.KernelIdeal.Tables

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The logits table is the launched logits re-laid row-major. -/
private theorem e_v0 : (Cert.KernelIdeal.Fr.V m c main_v0 : S16000x92.Idx → EReal)
    = shapeCast S16000x92 (m ((c : Thread nD τ).loc main_arg0) : S16x1000x92.Idx → EReal) shapeCasts_S16x1000x92_S16000x92 := by
  dsimp only [Cert.KernelIdeal.Fr.V, Cert.KernelIdeal.Fr.V0]
  simp only [hostOps0, hostOps0_1, hostOps0_2, hostOps0_3, hostOps0_4, hostOps0_5, hostOps0_6, hostOps0_7, List.flatten_cons, List.flatten_nil, List.append_nil, List.cons_append, List.nil_append]
  after_results
  rfl

/-- The predicted-box table is the launched boxes re-laid row-major. -/
private theorem e_v1 : (Cert.KernelIdeal.Fr.V m c main_v1 : S16000x4.Idx → EReal)
    = shapeCast S16000x4 (m ((c : Thread nD τ).loc main_arg1) : S16x1000x4.Idx → EReal) shapeCasts_S16x1000x4_S16000x4 := by
  dsimp only [Cert.KernelIdeal.Fr.V, Cert.KernelIdeal.Fr.V0]
  simp only [hostOps0, hostOps0_1, hostOps0_2, hostOps0_3, hostOps0_4, hostOps0_5, hostOps0_6, hostOps0_7, List.flatten_cons, List.flatten_nil, List.append_nil, List.cons_append, List.nil_append]
  after_results
  rfl

theorem V_v0_apply (R : Fin 16000) (k : Fin 92) :
    (Cert.KernelIdeal.Fr.V m c main_v0 : S16000x92.Idx → EReal) (ix2 R k)
      = (m ((c : Thread nD τ).loc main_arg0) : S16x1000x92.Idx → EReal)
          (ix3 ⟨R.val / 1000, by have := R.isLt; omega⟩ ⟨R.val % 1000, Nat.mod_lt _ (by decide)⟩ k) := by
  rw [e_v0]
  -- row R of the re-laid table is row (R / 1000, R % 1000) of the launched array: the row-major positions agree
  refine shapeCast_apply _ shapeCasts_S16x1000x92_S16000x92 _ _ ?_
  rewrite [Shape.rowMajor_val_three, Shape.rowMajor_val_two]
  have h0 := R.isLt
  show (R.val / 1000 * 1000 + R.val % 1000) * 92 + k.val = R.val * 92 + k.val
  omega

theorem V_v1_apply (R : Fin 16000) (a : Fin 4) :
    (Cert.KernelIdeal.Fr.V m c main_v1 : S16000x4.Idx → EReal) (ix2 R a)
      = (m ((c : Thread nD τ).loc main_arg1) : S16x1000x4.Idx → EReal)
          (ix3 ⟨R.val / 1000, by have := R.isLt; omega⟩ ⟨R.val % 1000, Nat.mod_lt _ (by decide)⟩ a) := by
  rw [e_v1]
  refine shapeCast_apply _ shapeCasts_S16x1000x4_S16000x4 _ _ ?_
  rewrite [Shape.rowMajor_val_three, Shape.rowMajor_val_two]
  have h0 := R.isLt
  show (R.val / 1000 * 1000 + R.val % 1000) * 4 + a.val = R.val * 4 + a.val
  omega

/-! ## The table of target-box quantities as a function of the target boxes -/

section Table

variable (T : S1600x4.Idx → EReal)

/-- Column 0..3 of the target boxes as 1600-vectors: the centre's x and y, the width, the height. -/
private def cxv : S1600.Idx → EReal :=
  shapeCast S1600 (extractStridedSlice S1600x1 ![0, 0] T slices_S1600x4_S1600x1_0_0) shapeCasts_S1600x1_S1600
private def cyv : S1600.Idx → EReal :=
  shapeCast S1600 (extractStridedSlice S1600x1 ![0, 1] T slices_S1600x4_S1600x1_0_1) shapeCasts_S1600x1_S1600
private def wv : S1600.Idx → EReal :=
  shapeCast S1600 (extractStridedSlice S1600x1 ![0, 2] T slices_S1600x4_S1600x1_0_2) shapeCasts_S1600x1_S1600
private def hv : S1600.Idx → EReal :=
  shapeCast S1600 (extractStridedSlice S1600x1 ![0, 3] T slices_S1600x4_S1600x1_0_3) shapeCasts_S1600x1_S1600
/-- The word ½ at every target. -/
private def halfv : S1600.Idx → EReal :=
  broadcastInDim S1600 ![] bcast_S_S1600 (constant (F := Ideal) S_ .f32 0x3F000000#32)
/-- The corners: low x, low y, high x, high y; and the area. -/
private def x0v : S1600.Idx → EReal := subf (F := Ideal) (s := S1600) (φ := .f32) (cxv T) (mulf (F := Ideal) (s := S1600) (φ := .f32) halfv (wv T))
private def y0v : S1600.Idx → EReal := subf (F := Ideal) (s := S1600) (φ := .f32) (cyv T) (mulf (F := Ideal) (s := S1600) (φ := .f32) halfv (hv T))
private def x1v : S1600.Idx → EReal := addf (F := Ideal) (s := S1600) (φ := .f32) (cxv T) (mulf (F := Ideal) (s := S1600) (φ := .f32) halfv (wv T))
private def y1v : S1600.Idx → EReal := addf (F := Ideal) (s := S1600) (φ := .f32) (cyv T) (mulf (F := Ideal) (s := S1600) (φ := .f32) halfv (hv T))
private def arv : S1600.Idx → EReal :=
  mulf (F := Ideal) (s := S1600) (φ := .f32) (subf (F := Ideal) (s := S1600) (φ := .f32) (x1v T) (x0v T)) (subf (F := Ideal) (s := S1600) (φ := .f32) (y1v T) (y0v T))
/-- A 1600-vector as one row. -/
private def rowOf (v : S1600.Idx → EReal) : S1x1600.Idx → EReal := broadcastInDim S1x1600 ![1] bcast_S1600_S1x1600_1 v
/-- The padding value: the word 0 read as a number. -/
private def zpad : S_.Idx → EReal := sitofp (F := Ideal) FTy.f32 (constantI S_ 32 0#32)
/-- The nine rows stacked. -/
private def nine : S9x1600.Idx → EReal :=
  concatenate S9x1600 0 [⟨S1x1600, rowOf (cxv T)⟩, ⟨S1x1600, rowOf (cyv T)⟩, ⟨S1x1600, rowOf (wv T)⟩, ⟨S1x1600, rowOf (hv T)⟩,
    ⟨S1x1600, rowOf (x0v T)⟩, ⟨S1x1600, rowOf (y0v T)⟩, ⟨S1x1600, rowOf (x1v T)⟩, ⟨S1x1600, rowOf (y1v T)⟩, ⟨S1x1600, rowOf (arv T)⟩]
    concatenates_S1x1600_S1x1600_S1x1600_S1x1600_S1x1600_S1x1600_S1x1600_S1x1600_S1x1600_S9x1600_d0
/-- Seven zero rows below, then 64 zero columns to the right. -/
private def tbl : S16x1664.Idx → EReal :=
  pad S16x1664 ![0, 0] ![0, 64] ![0, 0]
    (pad S16x1600 ![0, 0] ![7, 0] ![0, 0] (nine T) zpad pads_S9x1600_S16x1600_070_000 h_S_)
    zpad pads_S16x1600_S16x1664_000_0640 h_S_

/-- A column of the target boxes read at target q. -/
private theorem col_apply (a : Fin 4) (hs : S1600x4.Slices ![0, a.val] S1600x1) (hc : S1600x1.ShapeCasts S1600) (q : Fin 1600) :
    shapeCast S1600 (extractStridedSlice S1600x1 ![0, a.val] T hs) hc (ix1 q) = T (ix2 q a) := by
  rw [shapeCast_apply _ hc (ix1 q) (ix2 q (0 : Fin 1)) (by rw [Shape.rowMajor_val_two, Shape.rowMajor_val_one]; show q.val * 1 + 0 = q.val; omega)]
  exact extractStridedSlice_apply _ T hs _ (ix2 q a) (fun b => by match b with | ⟨0, _⟩ => exact (Nat.zero_add _).symm | ⟨1, _⟩ => rfl)

private theorem cxv_apply (q : Fin 1600) : cxv T (ix1 q) = T (ix2 q 0) := col_apply T 0 _ _ q
private theorem cyv_apply (q : Fin 1600) : cyv T (ix1 q) = T (ix2 q 1) := col_apply T 1 _ _ q
private theorem wv_apply (q : Fin 1600) : wv T (ix1 q) = T (ix2 q 2) := col_apply T 2 _ _ q
private theorem hv_apply (q : Fin 1600) : hv T (ix1 q) = T (ix2 q 3) := col_apply T 3 _ _ q
private theorem halfv_apply (q : Fin 1600) : halfv (ix1 q) = Cert.Spec.half := rfl

private theorem x0v_apply (q : Fin 1600) : x0v T (ix1 q) = Cert.Spec.lo (T (ix2 q 0)) (T (ix2 q 2)) := by
  show cxv T (ix1 q) - halfv (ix1 q) * wv T (ix1 q) = _
  rw [cxv_apply, wv_apply, halfv_apply]; rfl
private theorem y0v_apply (q : Fin 1600) : y0v T (ix1 q) = Cert.Spec.lo (T (ix2 q 1)) (T (ix2 q 3)) := by
  show cyv T (ix1 q) - halfv (ix1 q) * hv T (ix1 q) = _
  rw [cyv_apply, hv_apply, halfv_apply]; rfl
private theorem x1v_apply (q : Fin 1600) : x1v T (ix1 q) = Cert.Spec.hi (T (ix2 q 0)) (T (ix2 q 2)) := by
  show cxv T (ix1 q) + halfv (ix1 q) * wv T (ix1 q) = _
  rw [cxv_apply, wv_apply, halfv_apply]; rfl
private theorem y1v_apply (q : Fin 1600) : y1v T (ix1 q) = Cert.Spec.hi (T (ix2 q 1)) (T (ix2 q 3)) := by
  show cyv T (ix1 q) + halfv (ix1 q) * hv T (ix1 q) = _
  rw [cyv_apply, hv_apply, halfv_apply]; rfl
private theorem arv_apply (q : Fin 1600) : arv T (ix1 q)
    = (Cert.Spec.hi (T (ix2 q 0)) (T (ix2 q 2)) - Cert.Spec.lo (T (ix2 q 0)) (T (ix2 q 2)))
      * (Cert.Spec.hi (T (ix2 q 1)) (T (ix2 q 3)) - Cert.Spec.lo (T (ix2 q 1)) (T (ix2 q 3))) := by
  show (x1v T (ix1 q) - x0v T (ix1 q)) * (y1v T (ix1 q) - y0v T (ix1 q)) = _
  rw [x1v_apply, x0v_apply, y1v_apply, y0v_apply]

/-- A vector laid as one row reads the vector. -/
private theorem rowOf_apply (v : S1600.Idx → EReal) (q : Fin 1600) : rowOf v (ix2 (0 : Fin 1) q) = v (ix1 q) := by
  unfold rowOf
  exact broadcastInDim_apply ![1] bcast_S1600_S1x1600_1 v (ix2 (0 : Fin 1) q) (ix1 q) (fun a => by match a with | ⟨0, _⟩ => rfl)

/-- Row k of the nine stacked rows is the k-th vector. -/
private theorem nine_apply (k : Fin 9) (q : Fin 1600) :
    nine T (ix2 k q)
      = (![cxv T, cyv T, wv T, hv T, x0v T, y0v T, x1v T, y1v T, arv T] : Fin 9 → S1600.Idx → EReal) k (ix1 q) := by
  unfold nine
  refine (concatenate_apply_piece (0 : Fin S9x1600.rank) _ _ (ix2 k q) k.val (by exact k.isLt) S1x1600
    (rowOf ((![cxv T, cyv T, wv T, hv T, x0v T, y0v T, x1v T, y1v T, arv T] : Fin 9 → S1600.Idx → EReal) k))
    (by fin_cases k <;> rfl) rfl k.val (by fin_cases k <;> rfl) (ix2 (0 : Fin 1) q)
    (fun b hb => by match b with | ⟨0, _⟩ => exact absurd rfl hb | ⟨1, _⟩ => rfl)
    (by show k.val + 0 = k.val; omega)).trans ?_
  exact rowOf_apply _ q

/-- The padding value is 0. -/
private theorem zpad_apply (i : S_.Idx) : zpad i = 0 := by
  show (((0#32 : BitVec 32).toInt : ℝ) : EReal) = 0
  simp

/-- The first nine rows of the table, left of the appended columns, are the nine vectors. -/
private theorem tbl_top (k : Fin 9) (q : Fin 1600) :
    tbl T (ix2 (Fin.castLE (by decide : 9 ≤ 16) k) (Fin.castLE (by decide : 1600 ≤ 1664) q))
      = (![cxv T, cyv T, wv T, hv T, x0v T, y0v T, x1v T, y1v T, arv T] : Fin 9 → S1600.Idx → EReal) k (ix1 q) := by
  unfold tbl
  rw [pad_apply_of_inside (![0, 0] : Fin 2 → Nat) ![0, 64] ![0, 0] _ _ _ _ _ (ix2 (Fin.castLE (by decide : 9 ≤ 16) k) q)
    (fun a => by match a with | ⟨0, _⟩ => exact (by simp : k.val = 0 + k.val * (0 + 1)) | ⟨1, _⟩ => exact (by simp : q.val = 0 + q.val * (0 + 1)))]
  rw [pad_apply_of_inside (![0, 0] : Fin 2 → Nat) ![7, 0] ![0, 0] _ _ _ _ _ (ix2 k q)
    (fun a => by match a with | ⟨0, _⟩ => exact (by simp : k.val = 0 + k.val * (0 + 1)) | ⟨1, _⟩ => exact (by simp : q.val = 0 + q.val * (0 + 1)))]
  exact nine_apply T k q

/-- The last seven rows are the padding value. -/
private theorem tbl_bot (r : Fin 16) (hr : 9 ≤ r.val) (q : Fin 1600) :
    tbl T (ix2 r (Fin.castLE (by decide : 1600 ≤ 1664) q)) = 0 := by
  unfold tbl
  rw [pad_apply_of_inside (![0, 0] : Fin 2 → Nat) ![0, 64] ![0, 0] _ _ _ _ _ (ix2 r q)
    (fun a => by match a with | ⟨0, _⟩ => exact (by simp : r.val = 0 + r.val * (0 + 1)) | ⟨1, _⟩ => exact (by simp : q.val = 0 + q.val * (0 + 1)))]
  rw [pad_apply_of_not_inside (![0, 0] : Fin 2 → Nat) ![7, 0] ![0, 0] _ _ _ _ (ix2 r q) (0 : Fin S9x1600.rank)
    (by
      intro h
      have h3 : (r.val - 0) / (0 + 1) < 9 := h.2.2
      simp at h3
      omega)]
  exact zpad_apply _

/-- Every entry of the table left of the appended columns: the column of target box q. -/
private theorem tbl_apply (r : Fin 16) (q : Fin 1600) :
    tbl T (ix2 r (Fin.castLE (by decide : 1600 ≤ 1664) q)) = Cert.Spec.tcol (fun a : Fin 4 => T (ix2 q a)) r := by
  fin_cases r
  · exact (tbl_top T 0 q).trans (cxv_apply T q)
  · exact (tbl_top T 1 q).trans (cyv_apply T q)
  · exact (tbl_top T 2 q).trans (wv_apply T q)
  · exact (tbl_top T 3 q).trans (hv_apply T q)
  · exact (tbl_top T 4 q).trans (x0v_apply T q)
  · exact (tbl_top T 5 q).trans (y0v_apply T q)
  · exact (tbl_top T 6 q).trans (x1v_apply T q)
  · exact (tbl_top T 7 q).trans (y1v_apply T q)
  · exact (tbl_top T 8 q).trans (arv_apply T q)
  all_goals exact tbl_bot T _ (by decide) q

end Table

/-! ## The run up to the stacking of the nine rows -/

/-- The contents after the operations that come before the nine rows are stacked: the two re-layings, the class table's
    six, and the thirty-seven that compute the nine rows. -/
private def W : Valuation τ sig (Elt Ideal) :=
  StableHlo.after (hostOps0 ++ (hostOps0_1 ++ (hostOps0_2 (F := Ideal)).take 37)) (fun b => m (c, b))

/-- The operations before the region, cut where the nine rows are stacked. -/
private theorem ops_cut :
    (List.flatten [hostOps0, hostOps0_1, hostOps0_2, hostOps0_3, hostOps0_4, hostOps0_5, hostOps0_6, hostOps0_7] : List (HloOp τ sig (Elt Ideal)))
      = (hostOps0 ++ (hostOps0_1 ++ (hostOps0_2 (F := Ideal)).take 37))
        ++ ((hostOps0_2 (F := Ideal)).drop 37 ++ (hostOps0_3 ++ (hostOps0_4 ++ (hostOps0_5 ++ (hostOps0_6 ++ hostOps0_7))))) := rfl

private theorem W_v27 : (W m c (Proc.devRef .tc main_v27) : S1x1600.Idx → EReal) = rowOf (cxv (m ((c : Thread nD τ).loc main_arg3) : S1600x4.Idx → EReal)) := by
  unfold W
  simp only [hostOps0, hostOps0_1, hostOps0_2, List.take_succ_cons, List.take_zero, List.cons_append, List.nil_append]
  after_results_simp
  rfl

private theorem W_v28 : (W m c (Proc.devRef .tc main_v28) : S1x1600.Idx → EReal) = rowOf (cyv (m ((c : Thread nD τ).loc main_arg3) : S1600x4.Idx → EReal)) := by
  unfold W
  simp only [hostOps0, hostOps0_1, hostOps0_2, List.take_succ_cons, List.take_zero, List.cons_append, List.nil_append]
  after_results_simp
  rfl

private theorem W_v29 : (W m c (Proc.devRef .tc main_v29) : S1x1600.Idx → EReal) = rowOf (wv (m ((c : Thread nD τ).loc main_arg3) : S1600x4.Idx → EReal)) := by
  unfold W
  simp only [hostOps0, hostOps0_1, hostOps0_2, List.take_succ_cons, List.take_zero, List.cons_append, List.nil_append]
  after_results_simp
  rfl

private theorem W_v30 : (W m c (Proc.devRef .tc main_v30) : S1x1600.Idx → EReal) = rowOf (hv (m ((c : Thread nD τ).loc main_arg3) : S1600x4.Idx → EReal)) := by
  unfold W
  simp only [hostOps0, hostOps0_1, hostOps0_2, List.take_succ_cons, List.take_zero, List.cons_append, List.nil_append]
  after_results_simp
  rfl

private theorem W_v31 : (W m c (Proc.devRef .tc main_v31) : S1x1600.Idx → EReal) = rowOf (x0v (m ((c : Thread nD τ).loc main_arg3) : S1600x4.Idx → EReal)) := by
  unfold W
  simp only [hostOps0, hostOps0_1, hostOps0_2, List.take_succ_cons, List.take_zero, List.cons_append, List.nil_append]
  after_results_simp
  rfl

private theorem W_v32 : (W m c (Proc.devRef .tc main_v32) : S1x1600.Idx → EReal) = rowOf (y0v (m ((c : Thread nD τ).loc main_arg3) : S1600x4.Idx → EReal)) := by
  unfold W
  simp only [hostOps0, hostOps0_1, hostOps0_2, List.take_succ_cons, List.take_zero, List.cons_append, List.nil_append]
  after_results_simp
  rfl

private theorem W_v33 : (W m c (Proc.devRef .tc main_v33) : S1x1600.Idx → EReal) = rowOf (x1v (m ((c : Thread nD τ).loc main_arg3) : S1600x4.Idx → EReal)) := by
  unfold W
  simp only [hostOps0, hostOps0_1, hostOps0_2, List.take_succ_cons, List.take_zero, List.cons_append, List.nil_append]
  after_results_simp
  rfl

private theorem W_v34 : (W m c (Proc.devRef .tc main_v34) : S1x1600.Idx → EReal) = rowOf (y1v (m ((c : Thread nD τ).loc main_arg3) : S1600x4.Idx → EReal)) := by
  unfold W
  simp only [hostOps0, hostOps0_1, hostOps0_2, List.take_succ_cons, List.take_zero, List.cons_append, List.nil_append]
  after_results_simp
  rfl

private theorem W_v35 : (W m c (Proc.devRef .tc main_v35) : S1x1600.Idx → EReal) = rowOf (arv (m ((c : Thread nD τ).loc main_arg3) : S1600x4.Idx → EReal)) := by
  unfold W
  simp only [hostOps0, hostOps0_1, hostOps0_2, List.take_succ_cons, List.take_zero, List.cons_append, List.nil_append]
  after_results_simp
  rfl

/-- The table of target-box quantities as the operations that wrote it. -/
private theorem e_v39 : (Cert.KernelIdeal.Fr.V m c main_v39 : S16x1664.Idx → EReal) = tbl (m ((c : Thread nD τ).loc main_arg3) : S1600x4.Idx → EReal) := by
  dsimp only [Cert.KernelIdeal.Fr.V, Cert.KernelIdeal.Fr.V0]
  rw [ops_cut, StableHlo.after_append]
  show StableHlo.after _ (W m c) _ = _
  simp only [hostOps0_2, hostOps0_3, hostOps0_4, hostOps0_5, hostOps0_6, hostOps0_7, List.drop_succ_cons, List.drop_zero, List.cons_append, List.nil_append, List.append_nil]
  after_results
  dsimp only [Matrix.cons_val]
  rw [W_v27, W_v28, W_v29, W_v30, W_v31, W_v32, W_v33, W_v34, W_v35]
  rfl

theorem V_v39_apply (r : Fin 16) (q : Fin 1600) :
    (Cert.KernelIdeal.Fr.V m c main_v39 : S16x1664.Idx → EReal) (ix2 r (Fin.castLE (by decide : 1600 ≤ 1664) q))
      = Cert.Spec.tcol (fun a : Fin 4 => (m ((c : Thread nD τ).loc main_arg3) : S1600x4.Idx → EReal) (ix2 q a)) r := by
  rw [e_v39]
  exact tbl_apply _ r q

/-- The class table as the operations that wrote it: the class words laid along rows, compared with the class number laid
    along columns, the bit read as a number, the axes exchanged, 64 zero columns appended. -/
private theorem e_v38 : (Cert.KernelIdeal.Fr.V m c main_v38 : S92x1664.Idx → EReal)
    = pad S92x1664 ![0, 0] ![0, 64] ![0, 0]
        (transpose S92x1600 [1, 0]
          (uitofp (F := Ideal) FTy.bf16
            (cmpi CmpIPredicate.eq
              (broadcastInDim S1600x92 ![0, 1] bcast_S1600x1_S1600x92_0_1
                (broadcastInDim S1600x1 ![0] bcast_S1600_S1600x1_0
                  (m ((c : Thread nD τ).loc main_arg2) : S1600.Idx → BitVec 32)))
              (broadcastInDim S1600x92 ![0, 1] bcast_S1x92_S1600x92_0_1 (iotaInDim S1x92 32 1))))
          transposes_S1600x92_S92x1600_1_0)
        (sitofp (F := Ideal) FTy.bf16 (constantI S_ 32 0#32)) pads_S92x1600_S92x1664_000_0640 h_S_ := by
  dsimp only [Cert.KernelIdeal.Fr.V, Cert.KernelIdeal.Fr.V0]
  simp only [hostOps0, hostOps0_1, hostOps0_2, hostOps0_3, hostOps0_4, hostOps0_5, hostOps0_6, hostOps0_7, List.flatten_cons, List.flatten_nil, List.append_nil, List.cons_append, List.nil_append]
  after_results
  rfl

/-- One entry of the class table over any column of class words: the bit of "target q's word is k", read as a number. -/
private theorem onehot_entry (I : S1600.Idx → BitVec 32)
    (hp : S92x1600.Pads (![0, 0] : Fin 2 → Nat) ![0, 64] ![0, 0] S92x1664) (hu : 0 < S_.numel)
    (ht : S1600x92.Transposes [1, 0] S92x1600)
    (hb1 : S1600.BroadcastsInDim S1600x1 ![0]) (hb2 : S1600x1.BroadcastsInDim S1600x92 ![0, 1])
    (hb3 : S1x92.BroadcastsInDim S1600x92 ![0, 1]) (k : Fin 92) (q : Fin 1600) :
    pad S92x1664 ![0, 0] ![0, 64] ![0, 0]
        (transpose S92x1600 [1, 0]
          (uitofp (F := Ideal) FTy.bf16
            (cmpi CmpIPredicate.eq
              (broadcastInDim S1600x92 ![0, 1] hb2 (broadcastInDim S1600x1 ![0] hb1 I))
              (broadcastInDim S1600x92 ![0, 1] hb3 (iotaInDim S1x92 32 1))))
          ht)
        (sitofp (F := Ideal) FTy.bf16 (constantI S_ 32 0#32)) hp hu (ix2 k (Fin.castLE (by decide : 1600 ≤ 1664) q))
      = if I (ix1 q) = BitVec.ofNat 32 k.val then (1 : EReal) else 0 := by
  -- inside the unpadded columns the padded table is the table
  rw [pad_apply_of_inside (![0, 0] : Fin 2 → Nat) ![0, 64] ![0, 0] _ _ hp hu _ (ix2 k q)
    (fun a => by match a with | ⟨0, _⟩ => exact (by simp : k.val = 0 + k.val * (0 + 1)) | ⟨1, _⟩ => exact (by simp : q.val = 0 + q.val * (0 + 1)))]
  -- the exchanged axes
  rw [transpose_apply [1, 0] _ ht (ix2 k q) (ix2 q k)
    (fun b => by match b with | ⟨0, _⟩ => rfl | ⟨1, _⟩ => rfl)]
  show FloatOps.uitofp (F := Ideal) FTy.bf16 (IntOp.cmpi CmpIPredicate.eq
      (broadcastInDim S1600x92 ![0, 1] hb2 (broadcastInDim S1600x1 ![0] hb1 I) (ix2 q k))
      (broadcastInDim S1600x92 ![0, 1] hb3 (iotaInDim S1x92 32 1) (ix2 q k))) = _
  rw [broadcastInDim_apply ![0, 1] hb2 _ (ix2 q k) (ix2 q (0 : Fin 1))
    (fun a => by match a with | ⟨0, _⟩ => rfl | ⟨1, _⟩ => rfl)]
  rw [broadcastInDim_apply ![0] hb1 I (ix2 q (0 : Fin 1)) (ix1 q)
    (fun a => by match a with | ⟨0, _⟩ => rfl)]
  rw [broadcastInDim_apply ![0, 1] hb3 _ (ix2 q k) (ix2 (0 : Fin 1) k)
    (fun a => by match a with | ⟨0, _⟩ => rfl | ⟨1, _⟩ => rfl)]
  show (((IntOp.cmpi CmpIPredicate.eq (I (ix1 q)) (BitVec.ofNat 32 k.val)).toNat : ℝ) : EReal) = _
  by_cases h : I (ix1 q) = BitVec.ofNat 32 k.val
  · rw [if_pos h, StableHlo.Predicate.cmpi_eq_iff.2 h]; simp
  · rw [if_neg h, eq_zero_of_ne_one (fun h1 => h (StableHlo.Predicate.cmpi_eq_iff.1 h1))]; simp

theorem V_v38_apply (k : Fin 92) (q : Fin 1600) :
    (Cert.KernelIdeal.Fr.V m c main_v38 : S92x1664.Idx → EReal) (ix2 k (Fin.castLE (by decide : 1600 ≤ 1664) q))
      = if (m ((c : Thread nD τ).loc main_arg2) : S1600.Idx → BitVec 32) (ix1 q) = BitVec.ofNat 32 k.val then (1 : EReal) else 0 := by
  rw [e_v38]
  exact onehot_entry _ _ _ _ _ _ _ k q

end Cert.KernelIdeal.Tables

end
-- ==== Proof.KIValue.lean ====
/-
  What the idealized program computes: the region's output array [16000, 1600] holds, at (R, q), the matching cost of
  query row R against target column q of the two tables the host lines built; the final reshape lays it out as
  [16, 1000, 1600]; and with every class word below 92 the tables' columns are the target's box quantities and the
  one-hot column of its class, so the result is the cost array of the specification.
-/
import proofs.«421631_j28406913696524_3_alg».proof.Proof.FrameKI
import proofs.«421631_j28406913696524_3_alg».proof.Proof.Spec
import proofs.«421631_j28406913696524_3_alg».proof.Proof.KBody
import proofs.«421631_j28406913696524_3_alg».proof.Proof.KTables
import Idealize.ShloMosaic.Lib.ValueIdx
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg)

theorem hz : (![0, 0] : Fin 2 → Nat) = fun _ => 0 := funext fun a => by fin_cases a <;> rfl

/-- The region's output array as one function of the four staged arrays: entry (R, q) is the cost of row R of the
    logits and boxes against column q of the two tables. -/
def G40 (c : Dev nD) : S16000x1600.Idx → EReal := fun i =>
  Cert.Spec.costK
    (fun k : Fin 92 => (V m c main_v0 : S16000x92.Idx → EReal) (ix2 ⟨(i 0).val, idx2_lt0 i⟩ k))
    (fun a : Fin 4 => (V m c main_v1 : S16000x4.Idx → EReal) (ix2 ⟨(i 0).val, idx2_lt0 i⟩ a))
    (fun r : Fin 16 => (V m c main_v39 : S16x1664.Idx → EReal) (ix2 r ⟨(i 1).val, by have := idx2_lt1 i; omega⟩))
    (fun k : Fin 92 => (V m c main_v38 : S92x1664.Idx → EReal) (ix2 k ⟨(i 1).val, by have := idx2_lt1 i; omega⟩))

/-- The body's value at any entry of its block, over the entry's own coordinates. -/
theorem body_at (x0 : Vec Ideal S640x92 .f32) (x1 : Vec Ideal S640x4 .f32) (x2 : Vec Ideal S16x1664 .f32) (x3 : Vec Ideal S92x1664 .bf16)
    (y : S640x1600.Idx) :
    bodyVal (F := Ideal) x0 x1 x2 x3 y
      = Cert.Spec.costK (fun k : Fin 92 => x0 (ix2 ⟨(y 0).val, idx2_lt0 y⟩ k)) (fun a : Fin 4 => x1 (ix2 ⟨(y 0).val, idx2_lt0 y⟩ a))
          (fun r : Fin 16 => x2 (ix2 r ⟨(y 1).val, by have := idx2_lt1 y; omega⟩))
          (fun k : Fin 92 => x3 (ix2 k ⟨(y 1).val, by have := idx2_lt1 y; omega⟩)) := by
  obtain ⟨p, q, rfl⟩ : ∃ (p : Fin 640) (q : Fin 1600), y = ix2 p q := ⟨y 0, y 1, eq_ix2 y⟩
  exact Cert.KernelIdeal.Body.bodyVal_apply x0 x1 x2 x3 p q

/-- The printed index maps over the grid: the logits', the boxes' and the output's row blocks move together with the
    point; the two tables stay at block 0; no window moves along its columns. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

set_option maxHeartbeats 1600000 in
/-- What point t writes back is block t of the region's output function. -/
theorem flushed4_eq (c : Dev nD) (t : Fin cfg0.N) :
    (dats m 0 c).flushed 4 t = ((cfg0.win 4).blk t).view.read (Elt Ideal) (G40 m c) := by
  show (cfg0.win 4).cut (grid0.coords t) ((dats m 0 c).after 4 t) = _
  rw [after0_4]
  unfold out0_4
  rw [View.canon_unit_zero hz]
  simp only [View.ld_unit_zero (S := S640x92) hz, View.ld_unit_zero (S := S640x4) hz, View.ld_unit_zero (S := S16x1664) hz,
    View.ld_unit_zero (S := S92x1664) hz]
  obtain ⟨e0, e1, e2, e3, e4, e5, e6, e7, e8, e9⟩ := idx_facts t
  funext j
  refine (body_at (iblk m c 0 t) (iblk m c 1 t) (iblk m c 2 t) (iblk m c 3 t) j).trans ?_
  show _ = G40 m c (((cfg0.win 4).blk t).view.emb j)
  unfold G40
  have hj0 : (j 0).val < 640 := (j 0).isLt
  have hj1 : (j 1).val < 1600 := (j 1).isLt
  have h0 : (fun x : Fin 92 => iblk m c 0 t (ix2 ⟨(j 0).val, hj0⟩ x))
      = fun x : Fin 92 => (V m c main_v0 : S16000x92.Idx → EReal) (ix2 ⟨((((cfg0.win 4).blk t).view.emb j) 0).val, idx2_lt0 _⟩ x) := by
    funext x
    show V m c main_v0 (((cfg0.win 0).blk t).view.emb (ix2 ⟨(j 0).val, hj0⟩ x)) = _
    have hidx : ((cfg0.win 0).blk t).view.emb (ix2 ⟨(j 0).val, hj0⟩ x) = (ix2 ⟨((((cfg0.win 4).blk t).view.emb j) 0).val, idx2_lt0 _⟩ x) := by
      funext a; apply Fin.ext
      match a with
      | ⟨0, _⟩ => show win0_0.index t (0 : Fin 2) * 640 + 1 * (j 0).val = win0_4.index t (0 : Fin 2) * 640 + 1 * (j 0).val; omega
      | ⟨1, _⟩ => show win0_0.index t (1 : Fin 2) * 92 + 1 * x.val = x.val; omega
    rw [hidx]
  have h1 : (fun x : Fin 4 => iblk m c 1 t (ix2 ⟨(j 0).val, hj0⟩ x))
      = fun x : Fin 4 => (V m c main_v1 : S16000x4.Idx → EReal) (ix2 ⟨((((cfg0.win 4).blk t).view.emb j) 0).val, idx2_lt0 _⟩ x) := by
    funext x
    show V m c main_v1 (((cfg0.win 1).blk t).view.emb (ix2 ⟨(j 0).val, hj0⟩ x)) = _
    have hidx : ((cfg0.win 1).blk t).view.emb (ix2 ⟨(j 0).val, hj0⟩ x) = (ix2 ⟨((((cfg0.win 4).blk t).view.emb j) 0).val, idx2_lt0 _⟩ x) := by
      funext a; apply Fin.ext
      match a with
      | ⟨0, _⟩ => show win0_1.index t (0 : Fin 2) * 640 + 1 * (j 0).val = win0_4.index t (0 : Fin 2) * 640 + 1 * (j 0).val; omega
      | ⟨1, _⟩ => show win0_1.index t (1 : Fin 2) * 4 + 1 * x.val = x.val; omega
    rw [hidx]
  have h2 : (fun x : Fin 16 => iblk m c 2 t (ix2 x ⟨(j 1).val, by omega⟩))
      = fun x : Fin 16 => (V m c main_v39 : S16x1664.Idx → EReal) (ix2 x ⟨((((cfg0.win 4).blk t).view.emb j) 1).val, by have := idx2_lt1 (((cfg0.win 4).blk t).view.emb j); omega⟩) := by
    funext x
    show V m c main_v39 (((cfg0.win 2).blk t).view.emb (ix2 x ⟨(j 1).val, by omega⟩)) = _
    have hidx : ((cfg0.win 2).blk t).view.emb (ix2 x ⟨(j 1).val, by omega⟩) = (ix2 x ⟨((((cfg0.win 4).blk t).view.emb j) 1).val, by have := idx2_lt1 (((cfg0.win 4).blk t).view.emb j); omega⟩) := by
      funext a; apply Fin.ext
      match a with
      | ⟨0, _⟩ => show win0_2.index t (0 : Fin 2) * 16 + 1 * x.val = x.val; omega
      | ⟨1, _⟩ => show win0_2.index t (1 : Fin 2) * 1664 + 1 * (j 1).val = win0_4.index t (1 : Fin 2) * 1600 + 1 * (j 1).val; omega
    rw [hidx]
  have h3 : (fun x : Fin 92 => iblk m c 3 t (ix2 x ⟨(j 1).val, by omega⟩))
      = fun x : Fin 92 => (V m c main_v38 : S92x1664.Idx → EReal) (ix2 x ⟨((((cfg0.win 4).blk t).view.emb j) 1).val, by have := idx2_lt1 (((cfg0.win 4).blk t).view.emb j); omega⟩) := by
    funext x
    show V m c main_v38 (((cfg0.win 3).blk t).view.emb (ix2 x ⟨(j 1).val, by omega⟩)) = _
    have hidx : ((cfg0.win 3).blk t).view.emb (ix2 x ⟨(j 1).val, by omega⟩) = (ix2 x ⟨((((cfg0.win 4).blk t).view.emb j) 1).val, by have := idx2_lt1 (((cfg0.win 4).blk t).view.emb j); omega⟩) := by
      funext a; apply Fin.ext
      match a with
      | ⟨0, _⟩ => show win0_3.index t (0 : Fin 2) * 92 + 1 * x.val = x.val; omega
      | ⟨1, _⟩ => show win0_3.index t (1 : Fin 2) * 1664 + 1 * (j 1).val = win0_4.index t (1 : Fin 2) * 1600 + 1 * (j 1).val; omega
    rw [hidx]
  rw [h0, h1, h2, h3]

/-- An index of the output array is in point t's block iff each coordinate is in the block's range on its axis. -/
theorem mem_blk4 (t : Fin cfg0.N) (i : S16000x1600.Idx) :
    i ∈ ((cfg0.win 4).blk t).view.set ↔ ∀ a : Fin 2, win0_4.index t a * S640x1600.size a ≤ (i a).val ∧ (i a).val < win0_4.index t a * S640x1600.size a + S640x1600.size a := by
  show i ∈ ((View.whole main_v40).slice (win0_4.rect t)).set ↔ _
  rw [View.set_slice_whole, Rect.mem_set_unit]
  exact Iff.rfl

/-- Every entry of the output array is in the block of the point its row falls in: rows 640 t … 640 t + 639 at point t. -/
theorem cover4 (i : S16000x1600.Idx) : ∃ t : Fin cfg0.N, (cfg0.win 4).flush t = true ∧ i ∈ ((cfg0.win 4).blk t).view.set := by
  have hi0 : (i 0).val < 16000 := (i 0).isLt
  have hi1 : (i 1).val < 1600 := (i 1).isLt
  have hN : cfg0.N = 25 := N_0
  obtain ⟨t, ht⟩ : ∃ t : Fin cfg0.N, t.val = (i 0).val / 640 := ⟨⟨(i 0).val / 640, by rw [hN]; omega⟩, rfl⟩
  obtain ⟨e0, e1, e2, e3, e4, e5, e6, e7, e8, e9⟩ := idx_facts t
  refine ⟨t, flush0_4 t, ?_⟩
  rw [mem_blk4]
  intro a
  match a with
  | ⟨0, _⟩ => show win0_4.index t (0 : Fin 2) * 640 ≤ (i 0).val ∧ (i 0).val < win0_4.index t (0 : Fin 2) * 640 + 640; omega
  | ⟨1, _⟩ => show win0_4.index t (1 : Fin 2) * 1600 ≤ (i 1).val ∧ (i 1).val < win0_4.index t (1 : Fin 2) * 1600 + 1600; omega

/-- The region's output array after the run is the output function. -/
theorem final4 (c : Dev nD) : (dats m 0 c).arrAt 4 cfg0.N = G40 m c :=
  (dats m 0 c).arrAt_eq_of_cover 4 (G40 m c) (fun t _ => flushed4_eq m c t) cover4

/-- The program's result: the reshape after the region lays the output array out as [16, 1000, 1600]. -/
theorem tail_v41 (c : Dev nD) :
    Pipeline.afterTail₀ cfgs (dats m) 0 (V0 m) [hostOps1] c main_v41
      = shapeCast S16x1000x1600 (G40 m c) shapeCasts_S16000x1600_S16x1000x1600 := by
  unfold Pipeline.afterTail₀
  show StableHlo.after hostOps1 _ (Proc.devRef .tc main_v41) = _
  after_results
  have hw : Pipeline.withArrays (cfgs 0).spec c (V0 m c) (fun w => (dats m 0 c).arrAt w (cfgs 0).N) (Proc.tc.devRef main_v40) = G40 m c :=
    (Pipeline.withArrays_arr spec0 launch0.win.arr_inj c _ _ 4).trans (final4 m c)
  rw [hw]
  rfl

/-- The run with the result named: every weakly fair execution of the idealized program terminates with its result
    the reshaped output array and its four argument arrays as launched. -/
theorem run_out : θ_run defs (onTc (τ := τ) (main (F := Ideal))) ⟨m, fun _ => 0, ρ⟩ (fun r => ∀ c : Dev nD,
      r.2.mem ((c.tc : Thread nD τ).loc main_v41) = shapeCast S16x1000x1600 (G40 m c) shapeCasts_S16000x1600_S16x1000x1600
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v41 (Pipeline.mem_restRefs_of main_v41 (by decide) (by decide))).trans (tail_v41 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Val

end
-- ==== Proof.KIFinal.lean ====
/-
  The last step on the kernel's side, over plain arrays. Let A0, A1 be the logits and predicted boxes re-laid as
  [16000, ·]; A39 the [16, 1664] table whose column q (q < 1600) is the column of target box q; A38 the [92, 1664]
  one-hot table whose entry (k, q) is 1 exactly when target q's class word is k; and let every class word be below 92.
  Then the [16000, 1600] array of costs of row R against column q of the two tables, laid out as [16, 1000, 1600],
  is the specification's cost array: the one-hot column picks the softmax entry of the target's class, and a word
  below 92 is the class it names.
-/
import proofs.«421631_j28406913696524_3_alg».proof.Proof.Spec
import Idealize.ShloMosaic.Lib.ValueIdx
import Idealize.ShloMosaic.Lib.ValueLayout
import Idealize.ShloMosaic.Lib.Pipeline.Value

noncomputable section

namespace Cert.KIFinal

open Idealize.ShloMosaic Idealize.ShloMosaic.ValueIdx

/-- Row R = b · 1000 + n of the re-laid arrays is query (b, n): R / 1000 = b and R % 1000 = n. -/
private theorem row_eq (b : Fin 16) (n : Fin 1000) (R : Fin 16000) (hR : R.val = b.val * 1000 + n.val) :
    (⟨R.val / 1000, by have := R.isLt; omega⟩ : Fin 16) = b
      ∧ (⟨R.val % 1000, Nat.mod_lt _ (by decide)⟩ : Fin 1000) = n := by
  have hn := n.isLt
  constructor
  · apply Fin.ext; show R.val / 1000 = b.val; omega
  · apply Fin.ext; show R.val % 1000 = n.val; omega

/-- A class word below 92 is the word of k exactly when k is the class it names: the word is the word of its own
    value, and the class of the word of k is k. -/
private theorem onehot_col (w : BitVec 32) (hw : w.toNat < 92) (k : Fin 92) :
    (if w = BitVec.ofNat 32 k.val then (1 : EReal) else 0) = (if k = Cert.Spec.idOf w then (1 : EReal) else 0) := by
  by_cases h : w = BitVec.ofNat 32 k.val
  · rw [if_pos h, if_pos (by rw [h, Cert.Spec.idOf_ofNat])]
  · rw [if_neg h, if_neg]
    intro hk
    apply h
    apply BitVec.eq_of_toNat_eq
    have hv : k.val = w.toNat % 92 := congrArg Fin.val hk
    rw [BitVec.toNat_ofNat]
    omega

theorem final_value
    (A0 : (⟨2, ![16000, 92]⟩ : Shape).Idx → EReal) (A1 : (⟨2, ![16000, 4]⟩ : Shape).Idx → EReal)
    (A39 : (⟨2, ![16, 1664]⟩ : Shape).Idx → EReal) (A38 : (⟨2, ![92, 1664]⟩ : Shape).Idx → EReal)
    (L : (⟨3, ![16, 1000, 92]⟩ : Shape).Idx → EReal) (B : (⟨3, ![16, 1000, 4]⟩ : Shape).Idx → EReal)
    (I : (⟨1, ![1600]⟩ : Shape).Idx → BitVec 32) (T : (⟨2, ![1600, 4]⟩ : Shape).Idx → EReal)
    (h0 : ∀ (R : Fin 16000) (k : Fin 92), A0 (ix2 R k) = L (ix3 ⟨R.val / 1000, by have := R.isLt; omega⟩ ⟨R.val % 1000, Nat.mod_lt _ (by decide)⟩ k))
    (h1 : ∀ (R : Fin 16000) (a : Fin 4), A1 (ix2 R a) = B (ix3 ⟨R.val / 1000, by have := R.isLt; omega⟩ ⟨R.val % 1000, Nat.mod_lt _ (by decide)⟩ a))
    (h39 : ∀ (r : Fin 16) (q : Fin 1600), A39 (ix2 r (Fin.castLE (by decide : 1600 ≤ 1664) q)) = Cert.Spec.tcol (fun a : Fin 4 => T (ix2 q a)) r)
    (h38 : ∀ (k : Fin 92) (q : Fin 1600), A38 (ix2 k (Fin.castLE (by decide : 1600 ≤ 1664) q))
      = if I (ix1 q) = BitVec.ofNat 32 k.val then (1 : EReal) else 0)
    (hid : ∀ q : Fin 1600, (I (ix1 q)).toNat < 92)
    (hsc : (⟨2, ![16000, 1600]⟩ : Shape).ShapeCasts ⟨3, ![16, 1000, 1600]⟩) :
    shapeCast (⟨3, ![16, 1000, 1600]⟩ : Shape) (fun i : (⟨2, ![16000, 1600]⟩ : Shape).Idx =>
        Cert.Spec.costK (fun k : Fin 92 => A0 (ix2 ⟨(i 0).val, idx2_lt0 i⟩ k)) (fun a : Fin 4 => A1 (ix2 ⟨(i 0).val, idx2_lt0 i⟩ a))
          (fun r : Fin 16 => A39 (ix2 r ⟨(i 1).val, by have := idx2_lt1 i; omega⟩))
          (fun k : Fin 92 => A38 (ix2 k ⟨(i 1).val, by have := idx2_lt1 i; omega⟩))) hsc
      = Cert.Spec.G L B I T := by
  funext i
  obtain ⟨b, n, q, rfl⟩ : ∃ (b : Fin 16) (n : Fin 1000) (q : Fin 1600), i = ix3 b n q := ⟨i 0, i 1, i 2, eq_ix3 i⟩
  have hlt : b.val * 1000 + n.val < 16000 := by have := b.isLt; have := n.isLt; omega
  obtain ⟨R, hR⟩ : ∃ R : Fin 16000, R.val = b.val * 1000 + n.val := ⟨⟨_, hlt⟩, rfl⟩
  obtain ⟨hb, hn⟩ := row_eq b n R hR
  -- the cast reads the [16000, 1600] array at the entry of equal row-major position
  refine (shapeCast_apply _ hsc (ix3 b n q) (ix2 R q) ?_).trans ?_
  · rw [Shape.rowMajor_val_two, Shape.rowMajor_val_three]
    show R.val * 1600 + q.val = (b.val * 1000 + n.val) * 1600 + q.val
    rw [hR]
  -- the four arguments of the cost, by the hypotheses on the arrays
  have e0 : (fun k : Fin 92 => A0 (ix2 R k)) = fun k => L (ix3 b n k) := by
    funext k; rw [h0, hb, hn]
  have e1 : (fun a : Fin 4 => A1 (ix2 R a)) = fun a => B (ix3 b n a) := by
    funext a; rw [h1, hb, hn]
  have e39 : (fun r : Fin 16 => A39 (ix2 r (Fin.castLE (by decide : 1600 ≤ 1664) q)))
      = Cert.Spec.tcol (fun a : Fin 4 => T (ix2 q a)) := by
    funext r; rw [h39]
  have e38 : (fun k : Fin 92 => A38 (ix2 k (Fin.castLE (by decide : 1600 ≤ 1664) q)))
      = fun k => if k = Cert.Spec.idOf (I (ix1 q)) then (1 : EReal) else 0 := by
    funext k; rw [h38, onehot_col _ (hid q)]
  show Cert.Spec.costK (fun k : Fin 92 => A0 (ix2 R k)) (fun a : Fin 4 => A1 (ix2 R a))
      (fun r : Fin 16 => A39 (ix2 r (Fin.castLE (by decide : 1600 ≤ 1664) q)))
      (fun k : Fin 92 => A38 (ix2 k (Fin.castLE (by decide : 1600 ≤ 1664) q)))
    = Cert.Spec.cost (fun k => L (ix3 b n k)) (fun a => B (ix3 b n a)) (fun a => T (ix2 q a)) (Cert.Spec.idOf (I (ix1 q)))
  rw [e0, e1, e39, e38]
  exact Cert.Spec.costK_onehot _ _ _ _

end Cert.KIFinal

end
-- ==== Proof.KIRun.lean ====
/-
  The idealized program's result is the specification's cost array when every class word is below 92: the region's
  output function, reshaped, read through what the host lines put in the four staged arrays.
-/
import proofs.«421631_j28406913696524_3_alg».proof.Proof.KIValue
import proofs.«421631_j28406913696524_3_alg».proof.Proof.KIFinal
import proofs.«421631_j28406913696524_3_alg».proof.Proof.KTables

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr

variable (m : (ℓ : Loc nD τ sig) → Buf (Elt Ideal) ℓ) (ρ : Dev nD → PrngReg)

/-- The reshaped output function is the cost array of the launch contents. -/
theorem value_v41 (c : Dev nD)
    (hid : ∀ q : Fin 1600, ((m ((c : Thread nD τ).loc main_arg2) : S1600.Idx → BitVec 32) (ix1 q)).toNat < 92) :
    shapeCast S16x1000x1600 (G40 m c) shapeCasts_S16000x1600_S16x1000x1600
      = Cert.Spec.G (m ((c : Thread nD τ).loc main_arg0)) (m ((c : Thread nD τ).loc main_arg1))
          (m ((c : Thread nD τ).loc main_arg2)) (m ((c : Thread nD τ).loc main_arg3)) := by
  unfold G40
  exact Cert.KIFinal.final_value _ _ _ _ _ _ _ _ (Cert.KernelIdeal.Tables.V_v0_apply m c) (Cert.KernelIdeal.Tables.V_v1_apply m c)
    (Cert.KernelIdeal.Tables.V_v39_apply m c) (Cert.KernelIdeal.Tables.V_v38_apply m c) hid shapeCasts_S16000x1600_S16x1000x1600

/-- Every weakly fair execution of the idealized program terminates with its result the cost array of the launch
    contents and its four argument arrays as launched. -/
theorem run_value
    (hid : ∀ (c : Dev nD) (q : Fin 1600), ((m ((c : Thread nD τ).loc main_arg2) : S1600.Idx → BitVec 32) (ix1 q)).toNat < 92) :
    θ_run defs (onTc (τ := τ) (main (F := Ideal))) ⟨m, fun _ => 0, ρ⟩ (fun r => ∀ c : Dev nD,
      r.2.mem ((c.tc : Thread nD τ).loc main_v41)
        = Cert.Spec.G (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (value_v41 m c (hid c)), (h c).2⟩) (run_out m ρ)

end Cert.KernelIdeal.Val

end
-- ==== Proof.PreDecode.lean ====
/-
  The precondition read back at the class words: it ends in two tests over all 1600 words, 0 ≤ word and word < 92 as
  signed integers, each reduced by "and" to one bit, and the bits are joined by "and" with the finiteness tests; if the
  whole is 1 then each test holds at each word, so each word, read as a natural number, is below 92.
-/
import proofs.«421631_j28406913696524_3_alg».proof.Pre_finite_inputs
import Idealize.ShloMosaic.Lib.ReduceAll
import Idealize.ShloMosaic.Lib.ValueIdx

noncomputable section

namespace Cert.PreDecode

open Idealize.ShloMosaic Idealize.ShloMosaic.ValueIdx Cert.Pre_finite_inputs

instance : Subsingleton S_.Idx := ⟨fun a b => funext fun d => d.elim0⟩

/-- A 32-bit word that is non-negative and below 92 as a signed integer is below 92 as a natural number. -/
theorem toNat_lt_of_signed (w : BitVec 32) (h0 : (0#32).sle w = true) (h1 : w.slt 92#32 = true) : w.toNat < 92 := by
  rw [BitVec.sle_iff_toInt_le] at h0
  rw [BitVec.slt_iff_toInt_lt] at h1
  have e0 : (0#32 : BitVec 32).toInt = 0 := by decide
  have e92 : (92#32 : BitVec 32).toInt = 92 := by decide
  rw [e0] at h0; rw [e92] at h1
  have := BitVec.toInt_eq_toNat_cond w
  have hw := w.isLt
  split at this <;> omega

theorem ids_lt {F : FTy → Type} [FloatOps F] [Cert.Pre_finite_inputs.Facts]
    (a0 : FVec F S16x1000x92 .f32) (a1 : FVec F S16x1000x4 .f32) (a2 : IVec S1600 32) (a3 : FVec F S1600x4 .f32)
    (h : Cert.Pre_finite_inputs.fn (F := F) a0 a1 a2 a3 = fun _ => 1#1) (q : Fin 1600) : (a2 (ix1 q)).toNat < 92 := by
  have h0 := congrFun h ix0
  dsimp only [fn, fn_part1] at h0
  obtain ⟨h1, hlt⟩ := IntOp.andi_eq_one.1 h0
  obtain ⟨-, hge⟩ := IntOp.andi_eq_one.1 h1
  have g := Host.reduce_andi_all _ _ _ _ ix0 hge (ix1 q)
  have l := Host.reduce_andi_all _ _ _ _ ix0 hlt (ix1 q)
  have g' : (0#32 : BitVec 32).sle (a2 (ix1 q)) = true := by
    have g2 : BitVec.ofBool ((0#32 : BitVec 32).sle (a2 (ix1 q))) = 1#1 := g
    cases hb : (0#32 : BitVec 32).sle (a2 (ix1 q)) with
    | true => rfl
    | false => rw [hb] at g2; exact absurd g2 (by decide)
  have l' : (a2 (ix1 q)).slt 92#32 = true := by
    have l2 : BitVec.ofBool ((a2 (ix1 q)).slt 92#32) = 1#1 := l
    cases hb : (a2 (ix1 q)).slt 92#32 with
    | true => rfl
    | false => rw [hb] at l2; exact absurd l2 (by decide)
  exact toNat_lt_of_signed _ g' l'

end Cert.PreDecode

end
-- ==== Proof.RefClass.lean ====
/-
  The reference's class cost at one entry: minus the softmax of query row R's logits at target q's class. The softmax
  takes the row's maximum, exponentiates the differences, and divides by their sum; the class is read by a gather whose
  start index is the class word (a negative word would be wrapped by 92 first; a word below 92 is its own index).
-/
import proofs.«421631_j28406913696524_3_alg».proof.Proof.Gen.ReferenceIdeal.Read
import proofs.«421631_j28406913696524_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefClass

open Idealize.ShloMosaic Idealize.ShloMosaic.ValueIdx
open Cert.ReferenceIdeal Cert.ReferenceIdeal.Gen Cert.ReferenceIdeal.Read

/-! ## The row maximum -/

private theorem reduces_row : S16000x92.Reduces [1] S16000 := by decide

/-- The reduced index R with column k put back is (R, k). -/
private theorem lift_row (h : S16000x92.Reduces [1] S16000) (R : Fin 16000) (k : Fin (S16000x92.size 1)) :
    h.lift (ix1 R) k = ix2 R (⟨k.val, k.isLt⟩ : Fin 92) := by
  funext c; apply Fin.ext
  fin_cases c <;> rfl

/-- −∞ is the unit of max on the extended reals. -/
private theorem ninf_max (y : EReal) : max (Ideal.ofBits .f32 0xFF800000#32) y = y := by
  simp [Ideal.ofBits, Ideal.ieee]

/-- The max-reduce of row R from −∞ is the fold of max over the row's 92 entries. -/
private theorem rowmax (y : FVec Ideal S16000x92 .f32) (R : Fin 16000) :
    Host.reduce FloatOps.maximumf y (constant S_ .f32 0xFF800000#32) reducesTo_S16000x92_S16000_d1 h_S_ (ix1 R)
      = Cert.Spec.smax (fun k : Fin 92 => y (ix2 R k)) := by
  rw [Host.reduce_eq_fold_single FloatOps.maximumf y _ reducesTo_S16000x92_S16000_d1 reduces_row h_S_]
  have hf : (y ∘ reduces_row.lift (ix1 R)) = fun k : Fin 92 => y (ix2 R k) :=
    funext fun k => congrArg y (lift_row reduces_row R k)
  unfold Cert.Spec.smax
  exact congrArg (fun f => Finset.fold max (Ideal.ofBits .f32 0xFF800000#32) f (Finset.univ : Finset (Fin 92))) hf

/-! ## The gather -/

/-- The gather at (R, q) reads row R at the column the start index (q, 0) names, read signed and clamped to 91. -/
private theorem gather_row {α : Type} (y : S16000x92.Idx → α) (idx : IVec S1600x1 32) (R : Fin 16000) (q : Fin 1600)
    (c : Fin 92) (hc : min (idx (ix2 q (0 : Fin 1))).toInt.toNat 91 = c.val) :
    Host.gather gather_S16000x92_S1600x1_S16000x1600_0_1_n_n_1_1_160001 y idx (ix2 R q) = y (ix2 R c) := by
  unfold Host.gather
  congr 1
  funext a
  refine Fin.ext ?_
  match a with
  | ⟨0, _⟩ =>
    show gather_S16000x92_S1600x1_S16000x1600_0_1_n_n_1_1_160001.start (ix2 R q) idx 0
      + gather_S16000x92_S1600x1_S16000x1600_0_1_n_n_1_1_160001.batchCoord (ix2 R q) 0
      + gather_S16000x92_S1600x1_S16000x1600_0_1_n_n_1_1_160001.offCoord (ix2 R q) 0 = R.val
    rw [GatherDims.batchCoord_eq_zero _ _ _ List.not_mem_nil]
    unfold GatherDims.start
    rw [dif_neg (show (0 : Fin 2) ∉ gather_S16000x92_S1600x1_S16000x1600_0_1_n_n_1_1_160001.startIndexMap from by decide)]
    unfold GatherDims.offCoord
    rw [dif_pos (show (0 : Fin 2) ∈ gather_S16000x92_S1600x1_S16000x1600_0_1_n_n_1_1_160001.sKept from by decide)]
    simp only [Nat.add_zero, Nat.zero_add]
    rfl
  | ⟨1, _⟩ =>
    show gather_S16000x92_S1600x1_S16000x1600_0_1_n_n_1_1_160001.start (ix2 R q) idx 1
      + gather_S16000x92_S1600x1_S16000x1600_0_1_n_n_1_1_160001.batchCoord (ix2 R q) 1
      + gather_S16000x92_S1600x1_S16000x1600_0_1_n_n_1_1_160001.offCoord (ix2 R q) 1 = c.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16000x92_S1600x1_S16000x1600_0_1_n_n_1_1_160001.startIndexMap from List.mem_singleton.mpr rfl)]
    have hsi : gather_S16000x92_S1600x1_S16000x1600_0_1_n_n_1_1_160001.siIdx (ix2 R q)
        ⟨List.idxOf (1 : Fin 2) gather_S16000x92_S1600x1_S16000x1600_0_1_n_n_1_1_160001.startIndexMap,
          List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    exact hc

/-! ## The class word -/

/-- A word below 92 is not negative, so the wrap by 92 leaves it alone. -/
private theorem wrap_id (w : BitVec 32) (hw : w.toNat < 92) :
    Scalar.select (IntOp.cmpi .slt w 0#32) (IntOp.addi w 92#32) w = w := by
  have h0 : IntOp.cmpi .slt w 0#32 = 0#1 := by
    apply eq_zero_of_ne_one
    intro h
    have := (StableHlo.Predicate.slt_iff_toNat (a := w) (b := 0#32) (by omega) (by decide)).1 h
    simp at this
  rw [h0, select_zero]

/-- Its signed reading clamped to 91 is its value. -/
private theorem clamp_id (w : BitVec 32) (hw : w.toNat < 92) : min w.toInt.toNat 91 = w.toNat := by
  rw [StableHlo.Predicate.toInt_eq_toNat_of_lt (by omega)]
  simp only [Int.toNat_natCast]
  omega

/-- The start-index column at (q, 0) is class word q. -/
private theorem v18_at (x2 : IVec S1600 32) (hid : ∀ q : Fin 1600, (x2 (ix1 q)).toNat < 92) (q : Fin 1600) :
    val_main_v18 (F := Ideal) x2 (ix2 q (0 : Fin 1)) = x2 (ix1 q) := by
  have e : idx_main_v18 (ix2 q (0 : Fin 1)) = ix1 q := by
    funext a; refine Fin.ext ?_
    match a with
    | ⟨0, _⟩ => rfl
  rw [val_main_v18_apply, e, val_main_v17_apply, val_main_v14_apply, val_main_v16_apply, val_main_v13_apply,
    val_main_v15_apply, val_main_c_apply, val_main_c_2_apply]
  exact wrap_id _ (hid q)

/-! ## The softmax of row R -/

/-- Row R of the [16000, 92] logits is row (R / 1000, R % 1000) of the argument. -/
private abbrev rowOf (x0 : FVec Ideal S16x1000x92 .f32) (R : Fin 16000) : Fin 92 → EReal :=
  fun k => x0 (ix3 ⟨R.val / 1000, by have := R.isLt; omega⟩ ⟨R.val % 1000, Nat.mod_lt _ (by decide)⟩ k)

private theorem idx0 (R : Fin 16000) (c : Fin 92) :
    idx_main_v0 (ix2 R c) = ix3 (⟨R.val / 1000, by have := R.isLt; omega⟩ : Fin 16)
      (⟨R.val % 1000, Nat.mod_lt _ (by decide)⟩ : Fin 1000) c := by
  funext a; refine Fin.ext ?_
  have hR := R.isLt
  have hc := c.isLt
  match a with
  | ⟨0, _⟩ => show (R.val * 92 + c.val) / 92000 = R.val / 1000; omega
  | ⟨1, _⟩ => show (R.val * 92 + c.val) / 92 % 1000 = R.val % 1000; omega
  | ⟨2, _⟩ => show (R.val * 92 + c.val) % 92 = c.val; omega

private theorem v0_at (x0 : FVec Ideal S16x1000x92 .f32) (R : Fin 16000) (c : Fin 92) :
    val_main_v0 (F := Ideal) x0 (ix2 R c) = rowOf x0 R c := by
  rw [val_main_v0_apply, idx0]

/-- The row's maximum. -/
private theorem v3_at (x0 : FVec Ideal S16x1000x92 .f32) (R : Fin 16000) :
    val_main_v3 (F := Ideal) x0 (ix1 R) = Cert.Spec.smax (rowOf x0 R) := by
  rw [val_main_v3_apply, val_main_v2_apply, val_main_cst_0_apply]
  show max (Ideal.ofBits .f32 0xFF800000#32) (val_main_v1 (F := Ideal) x0 (ix1 R)) = _
  rw [ninf_max]
  unfold val_main_v1 val_main_cst
  rw [rowmax]
  exact congrArg Cert.Spec.smax (funext fun k => v0_at x0 R k)

private theorem v5_at (x0 : FVec Ideal S16x1000x92 .f32) (R : Fin 16000) (c : Fin 92) :
    val_main_v5 (F := Ideal) x0 (ix2 R c) = Cert.Spec.smax (rowOf x0 R) := by
  have e : idx_main_v4 (idx_main_v5 (ix2 R c)) = ix1 R := by
    funext a; refine Fin.ext ?_
    match a with
    | ⟨0, _⟩ => rfl
  rw [val_main_v5_apply, val_main_v4_apply, e]
  exact v3_at x0 R

/-- The shifted exponential. -/
private theorem v7_at (x0 : FVec Ideal S16x1000x92 .f32) (R : Fin 16000) (c : Fin 92) :
    val_main_v7 (F := Ideal) x0 (ix2 R c) = Cert.Spec.sexp (rowOf x0 R) c := by
  rw [val_main_v7_apply, val_main_v6_apply, v0_at, v5_at]
  rfl

/-- The row's sum of shifted exponentials. -/
private theorem v8_at (x0 : FVec Ideal S16x1000x92 .f32) (R : Fin 16000) :
    val_main_v8 (F := Ideal) x0 (ix1 R) = ∑ k : Fin 92, Cert.Spec.sexp (rowOf x0 R) k := by
  rw [val_main_v8_apply, val_main_cst_1_apply]
  show Ideal.ofBits .f32 0x00000000#32 + _ = _
  rw [Ideal.ofBits_zero_f32, zero_add]
  refine Finset.sum_congr rfl fun k _ => ?_
  have e : idx_main_v8 (ix1 R) k = ix2 R k := by
    funext a; refine Fin.ext ?_
    match a with
    | ⟨0, _⟩ => rfl
    | ⟨1, _⟩ => rfl
  rw [e]
  exact v7_at x0 R k

private theorem v10_at (x0 : FVec Ideal S16x1000x92 .f32) (R : Fin 16000) (c : Fin 92) :
    val_main_v10 (F := Ideal) x0 (ix2 R c) = ∑ k : Fin 92, Cert.Spec.sexp (rowOf x0 R) k := by
  have e : idx_main_v9 (idx_main_v10 (ix2 R c)) = ix1 R := by
    funext a; refine Fin.ext ?_
    match a with
    | ⟨0, _⟩ => rfl
  rw [val_main_v10_apply, val_main_v9_apply, e]
  exact v8_at x0 R

/-- The softmax's entry. -/
private theorem v11_at (x0 : FVec Ideal S16x1000x92 .f32) (R : Fin 16000) (c : Fin 92) :
    val_main_v11 (F := Ideal) x0 (ix2 R c) = Cert.Spec.prob (rowOf x0 R) c := by
  rw [val_main_v11_apply, v7_at, v10_at]
  rfl

theorem ref_class (x0 : FVec Ideal S16x1000x92 .f32) (x2 : IVec S1600 32)
    (hid : ∀ q : Fin 1600, (x2 (ix1 q)).toNat < 92) (R : Fin 16000) (q : Fin 1600) :
    val_main_v20 (F := Ideal) x0 x2 (ix2 R q)
      = -(Cert.Spec.prob (fun k : Fin 92 => x0 (ix3 ⟨R.val / 1000, by have := R.isLt; omega⟩ ⟨R.val % 1000, Nat.mod_lt _ (by decide)⟩ k)) (Cert.Spec.idOf (x2 (ix1 q)))) := by
  have hw := hid q
  have hcol : min (val_main_v18 (F := Ideal) x2 (ix2 q (0 : Fin 1))).toInt.toNat 91 = (Cert.Spec.idOf (x2 (ix1 q))).val := by
    rw [v18_at x2 hid q, clamp_id _ hw]
    exact (Nat.mod_eq_of_lt hw).symm
  rw [val_main_v20_apply]
  unfold val_main_v19
  rw [gather_row (val_main_v11 (F := Ideal) x0) (val_main_v18 (F := Ideal) x2) R q (Cert.Spec.idOf (x2 (ix1 q))) hcol, v11_at]
  rfl

end Cert.ReferenceIdeal.RefClass

end
-- ==== Proof.RefL1.lean ====
/-
  The reference's box-distance cost at one entry: the sum over the four box coordinates of |predicted − target|,
  which is the left-to-right sum of the four absolute differences.
-/
import proofs.«421631_j28406913696524_3_alg».proof.Proof.Gen.ReferenceIdeal.Read
import proofs.«421631_j28406913696524_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefL1

open Idealize.ShloMosaic Idealize.ShloMosaic.ValueIdx
open Cert.ReferenceIdeal Cert.ReferenceIdeal.Gen Cert.ReferenceIdeal.Read

/-- Entry (R, a) of the flattened predicted boxes is entry (R / 1000, R % 1000, a) of the batched ones:
    the row-major position R · 4 + a splits as ((R / 1000) · 1000 + R % 1000) · 4 + a. -/
private theorem idx_pred (R : Fin 16000) (q : Fin 1600) (a : Fin 4) :
    idx_main_v12 (idx_main_v21 (idx_main_v23 (ix3 R q a)))
      = ix3 (⟨R.val / 1000, by have := R.isLt; omega⟩ : Fin 16) (⟨R.val % 1000, Nat.mod_lt _ (by decide)⟩ : Fin 1000) a := by
  funext d
  apply Fin.ext
  have ha := a.isLt
  have hR := R.isLt
  match d with
  | ⟨0, _⟩ => show (R.val * 4 + a.val) / 4000 = R.val / 1000; omega
  | ⟨1, _⟩ => show (R.val * 4 + a.val) / 4 % 1000 = R.val % 1000; omega
  | ⟨2, _⟩ => show (R.val * 4 + a.val) % 4 = a.val; omega

/-- The broadcast target boxes at (R, q, a) read target box q's coordinate a. -/
private theorem idx_targ (R : Fin 16000) (q : Fin 1600) (a : Fin 4) :
    idx_main_v22 (idx_main_v24 (ix3 R q a)) = ix2 q a := by
  funext d
  match d with
  | ⟨0, _⟩ => rfl
  | ⟨1, _⟩ => rfl

/-- The summed axis' coordinate k of entry (R, q) is entry (R, q, k). -/
private theorem idx_sum (R : Fin 16000) (q : Fin 1600) (k : Fin 4) :
    idx_main_v27 (ix2 R q) k = ix3 R q k := by
  funext d
  match d with
  | ⟨0, _⟩ => rfl
  | ⟨1, _⟩ => rfl
  | ⟨2, _⟩ => rfl

/-- The broadcast predicted boxes at (R, q, a): coordinate a of predicted box (R / 1000, R % 1000). -/
private theorem pred_entry (x1 : FVec Ideal S16x1000x4 .f32) (R : Fin 16000) (q : Fin 1600) (a : Fin 4) :
    val_main_v23 (F := Ideal) x1 (ix3 R q a)
      = x1 (ix3 ⟨R.val / 1000, by have := R.isLt; omega⟩ ⟨R.val % 1000, Nat.mod_lt _ (by decide)⟩ a) := by
  rw [val_main_v23_apply, val_main_v21_apply, val_main_v12_apply, idx_pred]

/-- The broadcast target boxes at (R, q, a): coordinate a of target box q. -/
private theorem targ_entry (x3 : FVec Ideal S1600x4 .f32) (R : Fin 16000) (q : Fin 1600) (a : Fin 4) :
    val_main_v24 (F := Ideal) x3 (ix3 R q a) = x3 (ix2 q a) := by
  rw [val_main_v24_apply, val_main_v22_apply, idx_targ]

/-- The absolute difference at (R, q, a): |predicted − target| on coordinate a, the absolute value being
    the larger of a number and its negation. -/
private theorem abs_entry (x1 : FVec Ideal S16x1000x4 .f32) (x3 : FVec Ideal S1600x4 .f32)
    (R : Fin 16000) (q : Fin 1600) (a : Fin 4) :
    val_main_v26 (F := Ideal) x1 x3 (ix3 R q a)
      = Cert.Spec.absE (x1 (ix3 ⟨R.val / 1000, by have := R.isLt; omega⟩ ⟨R.val % 1000, Nat.mod_lt _ (by decide)⟩ a)
          - x3 (ix2 q a)) := by
  rw [val_main_v26_apply, val_main_v25_apply, pred_entry, targ_entry]
  rfl

theorem ref_l1 (x1 : FVec Ideal S16x1000x4 .f32) (x3 : FVec Ideal S1600x4 .f32) (R : Fin 16000) (q : Fin 1600) :
    val_main_v27 (F := Ideal) x1 x3 (ix2 R q)
      = Cert.Spec.l1K (fun a : Fin 4 => x1 (ix3 ⟨R.val / 1000, by have := R.isLt; omega⟩ ⟨R.val % 1000, Nat.mod_lt _ (by decide)⟩ a)) (Cert.Spec.tcol (fun a : Fin 4 => x3 (ix2 q a))) := by
  rw [val_main_v27_apply, val_main_cst_3_apply]
  simp only [idx_sum, abs_entry]
  rw [Fin.sum_univ_four]
  show Ideal.ofBits .f32 0x00000000#32 + _ = _
  rw [Ideal.ofBits_zero_f32, zero_add]
  rfl

end Cert.ReferenceIdeal.RefL1

end
-- ==== Proof.RefCorners.lean ====
/-
  The reference's corner arrays: row R of the predicted boxes' corners and row q of the target boxes' corners are
  (x low, y low, x high, y high) = (cx − ½w, cy − ½h, cx + ½w, cy + ½h), the four columns joined side by side.
-/
import proofs.«421631_j28406913696524_3_alg».proof.Proof.Gen.ReferenceIdeal.Read
import proofs.«421631_j28406913696524_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefCorners

open Idealize.ShloMosaic Idealize.ShloMosaic.ValueIdx
open Cert.ReferenceIdeal Cert.ReferenceIdeal.Gen Cert.ReferenceIdeal.Read

/-- Four one-column arrays joined side by side along the second axis, read at (R, a): entry R of the a-th array. -/
private theorem concat4_col {α : Type} {N : Nat} (y0 y1 y2 y3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1)
    (R : Fin N) (a : Fin 4) :
    concatenate (⟨2, ![N, 4]⟩ : Shape) 1 [⟨⟨2, ![N, 1]⟩, y0⟩, ⟨⟨2, ![N, 1]⟩, y1⟩, ⟨⟨2, ![N, 1]⟩, y2⟩, ⟨⟨2, ![N, 1]⟩, y3⟩] h (ix2 R a)
      = (![y0 (ix2 R 0), y1 (ix2 R 0), y2 (ix2 R 0), y3 (ix2 R 0)] : Fin 4 → α) a := by
  match a with
  | ⟨0, _⟩ =>
    exact concatenate_apply_piece (t := (⟨2, ![N, 4]⟩ : Shape)) 1
      [⟨⟨2, ![N, 1]⟩, y0⟩, ⟨⟨2, ![N, 1]⟩, y1⟩, ⟨⟨2, ![N, 1]⟩, y2⟩, ⟨⟨2, ![N, 1]⟩, y3⟩] h _ 0 (by simp) _ y0 rfl rfl 0 rfl (ix2 R 0)
      (fun b hb => by match b with | ⟨0, _⟩ => rfl | ⟨1, _⟩ => exact absurd rfl hb) rfl
  | ⟨1, _⟩ =>
    exact concatenate_apply_piece (t := (⟨2, ![N, 4]⟩ : Shape)) 1
      [⟨⟨2, ![N, 1]⟩, y0⟩, ⟨⟨2, ![N, 1]⟩, y1⟩, ⟨⟨2, ![N, 1]⟩, y2⟩, ⟨⟨2, ![N, 1]⟩, y3⟩] h _ 1 (by simp) _ y1 rfl rfl 1 rfl (ix2 R 0)
      (fun b hb => by match b with | ⟨0, _⟩ => rfl | ⟨1, _⟩ => exact absurd rfl hb) rfl
  | ⟨2, _⟩ =>
    exact concatenate_apply_piece (t := (⟨2, ![N, 4]⟩ : Shape)) 1
      [⟨⟨2, ![N, 1]⟩, y0⟩, ⟨⟨2, ![N, 1]⟩, y1⟩, ⟨⟨2, ![N, 1]⟩, y2⟩, ⟨⟨2, ![N, 1]⟩, y3⟩] h _ 2 (by simp) _ y2 rfl rfl 2 rfl (ix2 R 0)
      (fun b hb => by match b with | ⟨0, _⟩ => rfl | ⟨1, _⟩ => exact absurd rfl hb) rfl
  | ⟨3, _⟩ =>
    exact concatenate_apply_piece (t := (⟨2, ![N, 4]⟩ : Shape)) 1
      [⟨⟨2, ![N, 1]⟩, y0⟩, ⟨⟨2, ![N, 1]⟩, y1⟩, ⟨⟨2, ![N, 1]⟩, y2⟩, ⟨⟨2, ![N, 1]⟩, y3⟩] h _ 3 (by simp) _ y3 rfl rfl 3 rfl (ix2 R 0)
      (fun b hb => by match b with | ⟨0, _⟩ => rfl | ⟨1, _⟩ => exact absurd rfl hb) rfl

/-! ## The predicted boxes' corners

Row R of the flattened [16000, 4] array is row (R / 1000, R % 1000) of the [16, 1000, 4] argument. -/

/-- The batch of flattened row R. -/
private abbrev bOf (R : Fin 16000) : Fin 16 := ⟨R.val / 1000, by have := R.isLt; omega⟩
/-- The query of flattened row R. -/
private abbrev qOf (R : Fin 16000) : Fin 1000 := ⟨R.val % 1000, Nat.mod_lt _ (by decide)⟩

/-- Column 0 of the flattened predicted boxes, as a vector, at R: entry (R / 1000, R % 1000, 0) of the argument. -/
private theorem b1_col0 (x1 : FVec Ideal S16x1000x4 .f32) (R : Fin 16000) :
    val_main_v29 (F := Ideal) x1 (ix1 R) = x1 (ix3 (bOf R) (qOf R) 0) := by
  rw [val_main_v29_apply, val_main_v28_apply, val_main_v12_apply]
  exact congrArg x1 (funext fun a => Fin.ext (by
    match a with
    | ⟨0, _⟩ => show (R.val / 1 * 4 + 0) / 4000 = R.val / 1000; omega
    | ⟨1, _⟩ => show (R.val / 1 * 4 + 0) / 4 % 1000 = R.val % 1000; omega
    | ⟨2, _⟩ => show (R.val / 1 * 4 + 0) % 4 = 0; omega))

/-- Column 1 of the flattened predicted boxes, as a vector, at R: entry (R / 1000, R % 1000, 1) of the argument. -/
private theorem b1_col1 (x1 : FVec Ideal S16x1000x4 .f32) (R : Fin 16000) :
    val_main_v31 (F := Ideal) x1 (ix1 R) = x1 (ix3 (bOf R) (qOf R) 1) := by
  rw [val_main_v31_apply, val_main_v30_apply, val_main_v12_apply]
  exact congrArg x1 (funext fun a => Fin.ext (by
    match a with
    | ⟨0, _⟩ => show (R.val / 1 * 4 + (1 + 0)) / 4000 = R.val / 1000; omega
    | ⟨1, _⟩ => show (R.val / 1 * 4 + (1 + 0)) / 4 % 1000 = R.val % 1000; omega
    | ⟨2, _⟩ => show (R.val / 1 * 4 + (1 + 0)) % 4 = 1; omega))

/-- Column 2 of the flattened predicted boxes, as a vector, at R: entry (R / 1000, R % 1000, 2) of the argument. -/
private theorem b1_col2 (x1 : FVec Ideal S16x1000x4 .f32) (R : Fin 16000) :
    val_main_v33 (F := Ideal) x1 (ix1 R) = x1 (ix3 (bOf R) (qOf R) 2) := by
  rw [val_main_v33_apply, val_main_v32_apply, val_main_v12_apply]
  exact congrArg x1 (funext fun a => Fin.ext (by
    match a with
    | ⟨0, _⟩ => show (R.val / 1 * 4 + (2 + 0)) / 4000 = R.val / 1000; omega
    | ⟨1, _⟩ => show (R.val / 1 * 4 + (2 + 0)) / 4 % 1000 = R.val % 1000; omega
    | ⟨2, _⟩ => show (R.val / 1 * 4 + (2 + 0)) % 4 = 2; omega))

/-- Column 3 of the flattened predicted boxes, as a vector, at R: entry (R / 1000, R % 1000, 3) of the argument. -/
private theorem b1_col3 (x1 : FVec Ideal S16x1000x4 .f32) (R : Fin 16000) :
    val_main_v35 (F := Ideal) x1 (ix1 R) = x1 (ix3 (bOf R) (qOf R) 3) := by
  rw [val_main_v35_apply, val_main_v34_apply, val_main_v12_apply]
  exact congrArg x1 (funext fun a => Fin.ext (by
    match a with
    | ⟨0, _⟩ => show (R.val / 1 * 4 + (3 + 0)) / 4000 = R.val / 1000; omega
    | ⟨1, _⟩ => show (R.val / 1 * 4 + (3 + 0)) / 4 % 1000 = R.val % 1000; omega
    | ⟨2, _⟩ => show (R.val / 1 * 4 + (3 + 0)) % 4 = 3; omega))

/-- The broadcast constant is ½ at every entry. -/
private theorem b1_half36 (R : Fin 16000) : val_main_v36 (F := Ideal) (ix1 R) = Cert.Spec.half := by
  rw [val_main_v36_apply, val_main_cst_4_apply]
  rfl

/-- The broadcast constant is ½ at every entry. -/
private theorem b1_half39 (R : Fin 16000) : val_main_v39 (F := Ideal) (ix1 R) = Cert.Spec.half := by
  rw [val_main_v39_apply, val_main_cst_5_apply]
  rfl

/-- The broadcast constant is ½ at every entry. -/
private theorem b1_half42 (R : Fin 16000) : val_main_v42 (F := Ideal) (ix1 R) = Cert.Spec.half := by
  rw [val_main_v42_apply, val_main_cst_6_apply]
  rfl

/-- The broadcast constant is ½ at every entry. -/
private theorem b1_half45 (R : Fin 16000) : val_main_v45 (F := Ideal) (ix1 R) = Cert.Spec.half := by
  rw [val_main_v45_apply, val_main_cst_7_apply]
  rfl

/-- The low corner along x at R: centre − ½ · extent. -/
private theorem b1_v38 (x1 : FVec Ideal S16x1000x4 .f32) (R : Fin 16000) :
    val_main_v38 (F := Ideal) x1 (ix1 R)
      = Cert.Spec.lo (x1 (ix3 (bOf R) (qOf R) 0)) (x1 (ix3 (bOf R) (qOf R) 2)) := by
  rw [val_main_v38_apply, val_main_v37_apply, b1_col0, b1_col2, b1_half36]
  rfl

/-- The low corner along y at R: centre − ½ · extent. -/
private theorem b1_v41 (x1 : FVec Ideal S16x1000x4 .f32) (R : Fin 16000) :
    val_main_v41 (F := Ideal) x1 (ix1 R)
      = Cert.Spec.lo (x1 (ix3 (bOf R) (qOf R) 1)) (x1 (ix3 (bOf R) (qOf R) 3)) := by
  rw [val_main_v41_apply, val_main_v40_apply, b1_col1, b1_col3, b1_half39]
  rfl

/-- The high corner along x at R: centre + ½ · extent. -/
private theorem b1_v44 (x1 : FVec Ideal S16x1000x4 .f32) (R : Fin 16000) :
    val_main_v44 (F := Ideal) x1 (ix1 R)
      = Cert.Spec.hi (x1 (ix3 (bOf R) (qOf R) 0)) (x1 (ix3 (bOf R) (qOf R) 2)) := by
  rw [val_main_v44_apply, val_main_v43_apply, b1_col0, b1_col2, b1_half42]
  rfl

/-- The high corner along y at R: centre + ½ · extent. -/
private theorem b1_v47 (x1 : FVec Ideal S16x1000x4 .f32) (R : Fin 16000) :
    val_main_v47 (F := Ideal) x1 (ix1 R)
      = Cert.Spec.hi (x1 (ix3 (bOf R) (qOf R) 1)) (x1 (ix3 (bOf R) (qOf R) 3)) := by
  rw [val_main_v47_apply, val_main_v46_apply, b1_col1, b1_col3, b1_half45]
  rfl

/-- The corner vector as a one-column array: its entry (R, 0) is the vector's entry R. -/
private theorem b1_v48 (x1 : FVec Ideal S16x1000x4 .f32) (R : Fin 16000) :
    val_main_v48 (F := Ideal) x1 (ix2 R 0) = val_main_v38 (F := Ideal) x1 (ix1 R) := by
  rw [val_main_v48_apply]
  exact congrArg (val_main_v38 (F := Ideal) x1) (funext fun a => by match a with | ⟨0, _⟩ => rfl)

/-- The corner vector as a one-column array: its entry (R, 0) is the vector's entry R. -/
private theorem b1_v49 (x1 : FVec Ideal S16x1000x4 .f32) (R : Fin 16000) :
    val_main_v49 (F := Ideal) x1 (ix2 R 0) = val_main_v41 (F := Ideal) x1 (ix1 R) := by
  rw [val_main_v49_apply]
  exact congrArg (val_main_v41 (F := Ideal) x1) (funext fun a => by match a with | ⟨0, _⟩ => rfl)

/-- The corner vector as a one-column array: its entry (R, 0) is the vector's entry R. -/
private theorem b1_v50 (x1 : FVec Ideal S16x1000x4 .f32) (R : Fin 16000) :
    val_main_v50 (F := Ideal) x1 (ix2 R 0) = val_main_v44 (F := Ideal) x1 (ix1 R) := by
  rw [val_main_v50_apply]
  exact congrArg (val_main_v44 (F := Ideal) x1) (funext fun a => by match a with | ⟨0, _⟩ => rfl)

/-- The corner vector as a one-column array: its entry (R, 0) is the vector's entry R. -/
private theorem b1_v51 (x1 : FVec Ideal S16x1000x4 .f32) (R : Fin 16000) :
    val_main_v51 (F := Ideal) x1 (ix2 R 0) = val_main_v47 (F := Ideal) x1 (ix1 R) := by
  rw [val_main_v51_apply]
  exact congrArg (val_main_v47 (F := Ideal) x1) (funext fun a => by match a with | ⟨0, _⟩ => rfl)

theorem ref_b1 (x1 : FVec Ideal S16x1000x4 .f32) (R : Fin 16000) (a : Fin 4) :
    val_main_v52 (F := Ideal) x1 (ix2 R a)
      = (![Cert.Spec.lo (x1 (ix3 ⟨R.val / 1000, by have := R.isLt; omega⟩ ⟨R.val % 1000, Nat.mod_lt _ (by decide)⟩ 0)) (x1 (ix3 ⟨R.val / 1000, by have := R.isLt; omega⟩ ⟨R.val % 1000, Nat.mod_lt _ (by decide)⟩ 2)), Cert.Spec.lo (x1 (ix3 ⟨R.val / 1000, by have := R.isLt; omega⟩ ⟨R.val % 1000, Nat.mod_lt _ (by decide)⟩ 1)) (x1 (ix3 ⟨R.val / 1000, by have := R.isLt; omega⟩ ⟨R.val % 1000, Nat.mod_lt _ (by decide)⟩ 3)), Cert.Spec.hi (x1 (ix3 ⟨R.val / 1000, by have := R.isLt; omega⟩ ⟨R.val % 1000, Nat.mod_lt _ (by decide)⟩ 0)) (x1 (ix3 ⟨R.val / 1000, by have := R.isLt; omega⟩ ⟨R.val % 1000, Nat.mod_lt _ (by decide)⟩ 2)), Cert.Spec.hi (x1 (ix3 ⟨R.val / 1000, by have := R.isLt; omega⟩ ⟨R.val % 1000, Nat.mod_lt _ (by decide)⟩ 1)) (x1 (ix3 ⟨R.val / 1000, by have := R.isLt; omega⟩ ⟨R.val % 1000, Nat.mod_lt _ (by decide)⟩ 3))] : Fin 4 → EReal) a := by
  unfold val_main_v52
  refine (concat4_col _ _ _ _ _ R a).trans ?_
  rw [b1_v48, b1_v49, b1_v50, b1_v51, b1_v38, b1_v41, b1_v44, b1_v47]

/-! ## The target boxes' corners -/

/-- Column 0 of the target boxes, as a vector, at q: entry (q, 0) of the argument. -/
private theorem b2_col0 (x3 : FVec Ideal S1600x4 .f32) (q : Fin 1600) :
    val_main_v54 (F := Ideal) x3 (ix1 q) = x3 (ix2 q 0) := by
  rw [val_main_v54_apply, val_main_v53_apply]
  exact congrArg x3 (funext fun a => Fin.ext (by
    match a with
    | ⟨0, _⟩ => show q.val / 1 = q.val; omega
    | ⟨1, _⟩ => show 0 = 0; rfl))

/-- Column 1 of the target boxes, as a vector, at q: entry (q, 1) of the argument. -/
private theorem b2_col1 (x3 : FVec Ideal S1600x4 .f32) (q : Fin 1600) :
    val_main_v56 (F := Ideal) x3 (ix1 q) = x3 (ix2 q 1) := by
  rw [val_main_v56_apply, val_main_v55_apply]
  exact congrArg x3 (funext fun a => Fin.ext (by
    match a with
    | ⟨0, _⟩ => show q.val / 1 = q.val; omega
    | ⟨1, _⟩ => show 1 + 0 = 1; rfl))

/-- Column 2 of the target boxes, as a vector, at q: entry (q, 2) of the argument. -/
private theorem b2_col2 (x3 : FVec Ideal S1600x4 .f32) (q : Fin 1600) :
    val_main_v58 (F := Ideal) x3 (ix1 q) = x3 (ix2 q 2) := by
  rw [val_main_v58_apply, val_main_v57_apply]
  exact congrArg x3 (funext fun a => Fin.ext (by
    match a with
    | ⟨0, _⟩ => show q.val / 1 = q.val; omega
    | ⟨1, _⟩ => show 2 + 0 = 2; rfl))

/-- Column 3 of the target boxes, as a vector, at q: entry (q, 3) of the argument. -/
private theorem b2_col3 (x3 : FVec Ideal S1600x4 .f32) (q : Fin 1600) :
    val_main_v60 (F := Ideal) x3 (ix1 q) = x3 (ix2 q 3) := by
  rw [val_main_v60_apply, val_main_v59_apply]
  exact congrArg x3 (funext fun a => Fin.ext (by
    match a with
    | ⟨0, _⟩ => show q.val / 1 = q.val; omega
    | ⟨1, _⟩ => show 3 + 0 = 3; rfl))

/-- The broadcast constant is ½ at every entry. -/
private theorem b2_half61 (q : Fin 1600) : val_main_v61 (F := Ideal) (ix1 q) = Cert.Spec.half := by
  rw [val_main_v61_apply, val_main_cst_8_apply]
  rfl

/-- The broadcast constant is ½ at every entry. -/
private theorem b2_half64 (q : Fin 1600) : val_main_v64 (F := Ideal) (ix1 q) = Cert.Spec.half := by
  rw [val_main_v64_apply, val_main_cst_9_apply]
  rfl

/-- The broadcast constant is ½ at every entry. -/
private theorem b2_half67 (q : Fin 1600) : val_main_v67 (F := Ideal) (ix1 q) = Cert.Spec.half := by
  rw [val_main_v67_apply, val_main_cst_10_apply]
  rfl

/-- The broadcast constant is ½ at every entry. -/
private theorem b2_half70 (q : Fin 1600) : val_main_v70 (F := Ideal) (ix1 q) = Cert.Spec.half := by
  rw [val_main_v70_apply, val_main_cst_11_apply]
  rfl

/-- The low corner along x at q: centre − ½ · extent. -/
private theorem b2_v63 (x3 : FVec Ideal S1600x4 .f32) (q : Fin 1600) :
    val_main_v63 (F := Ideal) x3 (ix1 q) = Cert.Spec.lo (x3 (ix2 q 0)) (x3 (ix2 q 2)) := by
  rw [val_main_v63_apply, val_main_v62_apply, b2_col0, b2_col2, b2_half61]
  rfl

/-- The low corner along y at q: centre − ½ · extent. -/
private theorem b2_v66 (x3 : FVec Ideal S1600x4 .f32) (q : Fin 1600) :
    val_main_v66 (F := Ideal) x3 (ix1 q) = Cert.Spec.lo (x3 (ix2 q 1)) (x3 (ix2 q 3)) := by
  rw [val_main_v66_apply, val_main_v65_apply, b2_col1, b2_col3, b2_half64]
  rfl

/-- The high corner along x at q: centre + ½ · extent. -/
private theorem b2_v69 (x3 : FVec Ideal S1600x4 .f32) (q : Fin 1600) :
    val_main_v69 (F := Ideal) x3 (ix1 q) = Cert.Spec.hi (x3 (ix2 q 0)) (x3 (ix2 q 2)) := by
  rw [val_main_v69_apply, val_main_v68_apply, b2_col0, b2_col2, b2_half67]
  rfl

/-- The high corner along y at q: centre + ½ · extent. -/
private theorem b2_v72 (x3 : FVec Ideal S1600x4 .f32) (q : Fin 1600) :
    val_main_v72 (F := Ideal) x3 (ix1 q) = Cert.Spec.hi (x3 (ix2 q 1)) (x3 (ix2 q 3)) := by
  rw [val_main_v72_apply, val_main_v71_apply, b2_col1, b2_col3, b2_half70]
  rfl

/-- The corner vector as a one-column array: its entry (q, 0) is the vector's entry q. -/
private theorem b2_v73 (x3 : FVec Ideal S1600x4 .f32) (q : Fin 1600) :
    val_main_v73 (F := Ideal) x3 (ix2 q 0) = val_main_v63 (F := Ideal) x3 (ix1 q) := by
  rw [val_main_v73_apply]
  exact congrArg (val_main_v63 (F := Ideal) x3) (funext fun a => by match a with | ⟨0, _⟩ => rfl)

/-- The corner vector as a one-column array: its entry (q, 0) is the vector's entry q. -/
private theorem b2_v74 (x3 : FVec Ideal S1600x4 .f32) (q : Fin 1600) :
    val_main_v74 (F := Ideal) x3 (ix2 q 0) = val_main_v66 (F := Ideal) x3 (ix1 q) := by
  rw [val_main_v74_apply]
  exact congrArg (val_main_v66 (F := Ideal) x3) (funext fun a => by match a with | ⟨0, _⟩ => rfl)

/-- The corner vector as a one-column array: its entry (q, 0) is the vector's entry q. -/
private theorem b2_v75 (x3 : FVec Ideal S1600x4 .f32) (q : Fin 1600) :
    val_main_v75 (F := Ideal) x3 (ix2 q 0) = val_main_v69 (F := Ideal) x3 (ix1 q) := by
  rw [val_main_v75_apply]
  exact congrArg (val_main_v69 (F := Ideal) x3) (funext fun a => by match a with | ⟨0, _⟩ => rfl)

/-- The corner vector as a one-column array: its entry (q, 0) is the vector's entry q. -/
private theorem b2_v76 (x3 : FVec Ideal S1600x4 .f32) (q : Fin 1600) :
    val_main_v76 (F := Ideal) x3 (ix2 q 0) = val_main_v72 (F := Ideal) x3 (ix1 q) := by
  rw [val_main_v76_apply]
  exact congrArg (val_main_v72 (F := Ideal) x3) (funext fun a => by match a with | ⟨0, _⟩ => rfl)

theorem ref_b2 (x3 : FVec Ideal S1600x4 .f32) (q : Fin 1600) (a : Fin 4) :
    val_main_v77 (F := Ideal) x3 (ix2 q a)
      = (![Cert.Spec.lo (x3 (ix2 q 0)) (x3 (ix2 q 2)), Cert.Spec.lo (x3 (ix2 q 1)) (x3 (ix2 q 3)), Cert.Spec.hi (x3 (ix2 q 0)) (x3 (ix2 q 2)), Cert.Spec.hi (x3 (ix2 q 1)) (x3 (ix2 q 3))] : Fin 4 → EReal) a := by
  unfold val_main_v77
  refine (concat4_col _ _ _ _ _ q a).trans ?_
  rw [b2_v73, b2_v74, b2_v75, b2_v76, b2_v63, b2_v66, b2_v69, b2_v72]

end Cert.ReferenceIdeal.RefCorners

end
-- ==== Proof.RefGiou.lean ====
/-
  The reference's overlap cost at one entry, from the two corner arrays: minus the generalised intersection over union
  of predicted box R and target box q. Intersection = product of the clipped overlaps on the two axes; union = the two
  areas less the intersection; enclosing box = product of the spans of the outer corners.
-/
import proofs.«421631_j28406913696524_3_alg».proof.Proof.Gen.ReferenceIdeal.Read
import proofs.«421631_j28406913696524_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefGiou

open Idealize.ShloMosaic Idealize.ShloMosaic.ValueIdx
open Cert.ReferenceIdeal Cert.ReferenceIdeal.Gen Cert.ReferenceIdeal.Read

/-! ## Where each broadcast column reads the corner arrays

A column of a corner array is sliced out, flattened to a vector, and spread over the (row, target) grid; entry (R, q) of
the spread column c of the predictions' corners is that array's entry (R, c), and of the targets' corners its entry
(q, c). The flattening's row index R / 1 is R. -/

private theorem row84 (x1 : FVec Ideal S16x1000x4 .f32) (R : Fin 16000) (q : Fin 1600) :
    val_main_v84 (F := Ideal) x1 (ix2 R q) = val_main_v52 (F := Ideal) x1 (ix2 R 0) := by
  rw [val_main_v84_apply, val_main_v80_apply, val_main_v79_apply, val_main_v78_apply]
  exact congrArg _ (funext fun a => match a with
    | ⟨0, _⟩ => Fin.ext (by show R.val / 1 = R.val; omega)
    | ⟨1, _⟩ => rfl)

private theorem col85 (x3 : FVec Ideal S1600x4 .f32) (R : Fin 16000) (q : Fin 1600) :
    val_main_v85 (F := Ideal) x3 (ix2 R q) = val_main_v77 (F := Ideal) x3 (ix2 q 0) := by
  rw [val_main_v85_apply, val_main_v83_apply, val_main_v82_apply, val_main_v81_apply]
  exact congrArg _ (funext fun a => match a with
    | ⟨0, _⟩ => Fin.ext (by show q.val / 1 = q.val; omega)
    | ⟨1, _⟩ => rfl)

private theorem row93 (x1 : FVec Ideal S16x1000x4 .f32) (R : Fin 16000) (q : Fin 1600) :
    val_main_v93 (F := Ideal) x1 (ix2 R q) = val_main_v52 (F := Ideal) x1 (ix2 R 1) := by
  rw [val_main_v93_apply, val_main_v89_apply, val_main_v88_apply, val_main_v87_apply]
  exact congrArg _ (funext fun a => match a with
    | ⟨0, _⟩ => Fin.ext (by show R.val / 1 = R.val; omega)
    | ⟨1, _⟩ => rfl)

private theorem col94 (x3 : FVec Ideal S1600x4 .f32) (R : Fin 16000) (q : Fin 1600) :
    val_main_v94 (F := Ideal) x3 (ix2 R q) = val_main_v77 (F := Ideal) x3 (ix2 q 1) := by
  rw [val_main_v94_apply, val_main_v92_apply, val_main_v91_apply, val_main_v90_apply]
  exact congrArg _ (funext fun a => match a with
    | ⟨0, _⟩ => Fin.ext (by show q.val / 1 = q.val; omega)
    | ⟨1, _⟩ => rfl)

private theorem row102 (x1 : FVec Ideal S16x1000x4 .f32) (R : Fin 16000) (q : Fin 1600) :
    val_main_v102 (F := Ideal) x1 (ix2 R q) = val_main_v52 (F := Ideal) x1 (ix2 R 2) := by
  rw [val_main_v102_apply, val_main_v98_apply, val_main_v97_apply, val_main_v96_apply]
  exact congrArg _ (funext fun a => match a with
    | ⟨0, _⟩ => Fin.ext (by show R.val / 1 = R.val; omega)
    | ⟨1, _⟩ => rfl)

private theorem col103 (x3 : FVec Ideal S1600x4 .f32) (R : Fin 16000) (q : Fin 1600) :
    val_main_v103 (F := Ideal) x3 (ix2 R q) = val_main_v77 (F := Ideal) x3 (ix2 q 2) := by
  rw [val_main_v103_apply, val_main_v101_apply, val_main_v100_apply, val_main_v99_apply]
  exact congrArg _ (funext fun a => match a with
    | ⟨0, _⟩ => Fin.ext (by show q.val / 1 = q.val; omega)
    | ⟨1, _⟩ => rfl)

private theorem row111 (x1 : FVec Ideal S16x1000x4 .f32) (R : Fin 16000) (q : Fin 1600) :
    val_main_v111 (F := Ideal) x1 (ix2 R q) = val_main_v52 (F := Ideal) x1 (ix2 R 3) := by
  rw [val_main_v111_apply, val_main_v107_apply, val_main_v106_apply, val_main_v105_apply]
  exact congrArg _ (funext fun a => match a with
    | ⟨0, _⟩ => Fin.ext (by show R.val / 1 = R.val; omega)
    | ⟨1, _⟩ => rfl)

private theorem col112 (x3 : FVec Ideal S1600x4 .f32) (R : Fin 16000) (q : Fin 1600) :
    val_main_v112 (F := Ideal) x3 (ix2 R q) = val_main_v77 (F := Ideal) x3 (ix2 q 3) := by
  rw [val_main_v112_apply, val_main_v110_apply, val_main_v109_apply, val_main_v108_apply]
  exact congrArg _ (funext fun a => match a with
    | ⟨0, _⟩ => Fin.ext (by show q.val / 1 = q.val; omega)
    | ⟨1, _⟩ => rfl)

private theorem row156 (x1 : FVec Ideal S16x1000x4 .f32) (R : Fin 16000) (q : Fin 1600) :
    val_main_v156 (F := Ideal) x1 (ix2 R q) = val_main_v52 (F := Ideal) x1 (ix2 R 0) := by
  rw [val_main_v156_apply, val_main_v152_apply, val_main_v151_apply, val_main_v150_apply]
  exact congrArg _ (funext fun a => match a with
    | ⟨0, _⟩ => Fin.ext (by show R.val / 1 = R.val; omega)
    | ⟨1, _⟩ => rfl)

private theorem col157 (x3 : FVec Ideal S1600x4 .f32) (R : Fin 16000) (q : Fin 1600) :
    val_main_v157 (F := Ideal) x3 (ix2 R q) = val_main_v77 (F := Ideal) x3 (ix2 q 0) := by
  rw [val_main_v157_apply, val_main_v155_apply, val_main_v154_apply, val_main_v153_apply]
  exact congrArg _ (funext fun a => match a with
    | ⟨0, _⟩ => Fin.ext (by show q.val / 1 = q.val; omega)
    | ⟨1, _⟩ => rfl)

private theorem row165 (x1 : FVec Ideal S16x1000x4 .f32) (R : Fin 16000) (q : Fin 1600) :
    val_main_v165 (F := Ideal) x1 (ix2 R q) = val_main_v52 (F := Ideal) x1 (ix2 R 1) := by
  rw [val_main_v165_apply, val_main_v161_apply, val_main_v160_apply, val_main_v159_apply]
  exact congrArg _ (funext fun a => match a with
    | ⟨0, _⟩ => Fin.ext (by show R.val / 1 = R.val; omega)
    | ⟨1, _⟩ => rfl)

private theorem col166 (x3 : FVec Ideal S1600x4 .f32) (R : Fin 16000) (q : Fin 1600) :
    val_main_v166 (F := Ideal) x3 (ix2 R q) = val_main_v77 (F := Ideal) x3 (ix2 q 1) := by
  rw [val_main_v166_apply, val_main_v164_apply, val_main_v163_apply, val_main_v162_apply]
  exact congrArg _ (funext fun a => match a with
    | ⟨0, _⟩ => Fin.ext (by show q.val / 1 = q.val; omega)
    | ⟨1, _⟩ => rfl)

private theorem row174 (x1 : FVec Ideal S16x1000x4 .f32) (R : Fin 16000) (q : Fin 1600) :
    val_main_v174 (F := Ideal) x1 (ix2 R q) = val_main_v52 (F := Ideal) x1 (ix2 R 2) := by
  rw [val_main_v174_apply, val_main_v170_apply, val_main_v169_apply, val_main_v168_apply]
  exact congrArg _ (funext fun a => match a with
    | ⟨0, _⟩ => Fin.ext (by show R.val / 1 = R.val; omega)
    | ⟨1, _⟩ => rfl)

private theorem col175 (x3 : FVec Ideal S1600x4 .f32) (R : Fin 16000) (q : Fin 1600) :
    val_main_v175 (F := Ideal) x3 (ix2 R q) = val_main_v77 (F := Ideal) x3 (ix2 q 2) := by
  rw [val_main_v175_apply, val_main_v173_apply, val_main_v172_apply, val_main_v171_apply]
  exact congrArg _ (funext fun a => match a with
    | ⟨0, _⟩ => Fin.ext (by show q.val / 1 = q.val; omega)
    | ⟨1, _⟩ => rfl)

private theorem row183 (x1 : FVec Ideal S16x1000x4 .f32) (R : Fin 16000) (q : Fin 1600) :
    val_main_v183 (F := Ideal) x1 (ix2 R q) = val_main_v52 (F := Ideal) x1 (ix2 R 3) := by
  rw [val_main_v183_apply, val_main_v179_apply, val_main_v178_apply, val_main_v177_apply]
  exact congrArg _ (funext fun a => match a with
    | ⟨0, _⟩ => Fin.ext (by show R.val / 1 = R.val; omega)
    | ⟨1, _⟩ => rfl)

private theorem col184 (x3 : FVec Ideal S1600x4 .f32) (R : Fin 16000) (q : Fin 1600) :
    val_main_v184 (F := Ideal) x3 (ix2 R q) = val_main_v77 (F := Ideal) x3 (ix2 q 3) := by
  rw [val_main_v184_apply, val_main_v182_apply, val_main_v181_apply, val_main_v180_apply]
  exact congrArg _ (funext fun a => match a with
    | ⟨0, _⟩ => Fin.ext (by show q.val / 1 = q.val; omega)
    | ⟨1, _⟩ => rfl)

/-! The flattened columns the two areas are computed from, before any spreading. -/

private theorem vec120 (x1 : FVec Ideal S16x1000x4 .f32) (R : Fin 16000) :
    val_main_v120 (F := Ideal) x1 (ix1 R) = val_main_v52 (F := Ideal) x1 (ix2 R 2) := by
  rw [val_main_v120_apply, val_main_v119_apply]
  exact congrArg _ (funext fun a => match a with
    | ⟨0, _⟩ => Fin.ext (by show R.val / 1 = R.val; omega)
    | ⟨1, _⟩ => rfl)

private theorem vec122 (x1 : FVec Ideal S16x1000x4 .f32) (R : Fin 16000) :
    val_main_v122 (F := Ideal) x1 (ix1 R) = val_main_v52 (F := Ideal) x1 (ix2 R 0) := by
  rw [val_main_v122_apply, val_main_v121_apply]
  exact congrArg _ (funext fun a => match a with
    | ⟨0, _⟩ => Fin.ext (by show R.val / 1 = R.val; omega)
    | ⟨1, _⟩ => rfl)

private theorem vec125 (x1 : FVec Ideal S16x1000x4 .f32) (R : Fin 16000) :
    val_main_v125 (F := Ideal) x1 (ix1 R) = val_main_v52 (F := Ideal) x1 (ix2 R 3) := by
  rw [val_main_v125_apply, val_main_v124_apply]
  exact congrArg _ (funext fun a => match a with
    | ⟨0, _⟩ => Fin.ext (by show R.val / 1 = R.val; omega)
    | ⟨1, _⟩ => rfl)

private theorem vec127 (x1 : FVec Ideal S16x1000x4 .f32) (R : Fin 16000) :
    val_main_v127 (F := Ideal) x1 (ix1 R) = val_main_v52 (F := Ideal) x1 (ix2 R 1) := by
  rw [val_main_v127_apply, val_main_v126_apply]
  exact congrArg _ (funext fun a => match a with
    | ⟨0, _⟩ => Fin.ext (by show R.val / 1 = R.val; omega)
    | ⟨1, _⟩ => rfl)

private theorem vec131 (x3 : FVec Ideal S1600x4 .f32) (q : Fin 1600) :
    val_main_v131 (F := Ideal) x3 (ix1 q) = val_main_v77 (F := Ideal) x3 (ix2 q 2) := by
  rw [val_main_v131_apply, val_main_v130_apply]
  exact congrArg _ (funext fun a => match a with
    | ⟨0, _⟩ => Fin.ext (by show q.val / 1 = q.val; omega)
    | ⟨1, _⟩ => rfl)

private theorem vec133 (x3 : FVec Ideal S1600x4 .f32) (q : Fin 1600) :
    val_main_v133 (F := Ideal) x3 (ix1 q) = val_main_v77 (F := Ideal) x3 (ix2 q 0) := by
  rw [val_main_v133_apply, val_main_v132_apply]
  exact congrArg _ (funext fun a => match a with
    | ⟨0, _⟩ => Fin.ext (by show q.val / 1 = q.val; omega)
    | ⟨1, _⟩ => rfl)

private theorem vec136 (x3 : FVec Ideal S1600x4 .f32) (q : Fin 1600) :
    val_main_v136 (F := Ideal) x3 (ix1 q) = val_main_v77 (F := Ideal) x3 (ix2 q 3) := by
  rw [val_main_v136_apply, val_main_v135_apply]
  exact congrArg _ (funext fun a => match a with
    | ⟨0, _⟩ => Fin.ext (by show q.val / 1 = q.val; omega)
    | ⟨1, _⟩ => rfl)

private theorem vec138 (x3 : FVec Ideal S1600x4 .f32) (q : Fin 1600) :
    val_main_v138 (F := Ideal) x3 (ix1 q) = val_main_v77 (F := Ideal) x3 (ix2 q 1) := by
  rw [val_main_v138_apply, val_main_v137_apply]
  exact congrArg _ (funext fun a => match a with
    | ⟨0, _⟩ => Fin.ext (by show q.val / 1 = q.val; omega)
    | ⟨1, _⟩ => rfl)

/-- The predictions' area vector spread over the grid reads its entry R. -/
private theorem row143 (x1 : FVec Ideal S16x1000x4 .f32) (R : Fin 16000) (q : Fin 1600) :
    val_main_v143 (F := Ideal) x1 (ix2 R q) = val_main_v129 (F := Ideal) x1 (ix1 R) := by
  rw [val_main_v143_apply, val_main_v141_apply]
  exact congrArg _ (funext fun a => match a with
    | ⟨0, _⟩ => rfl)

/-- The targets' area vector spread over the grid reads its entry q. -/
private theorem col144 (x3 : FVec Ideal S1600x4 .f32) (R : Fin 16000) (q : Fin 1600) :
    val_main_v144 (F := Ideal) x3 (ix2 R q) = val_main_v140 (F := Ideal) x3 (ix1 q) := by
  rw [val_main_v144_apply, val_main_v142_apply]
  exact congrArg _ (funext fun a => match a with
    | ⟨0, _⟩ => rfl)

/-! The spread constants: the two clips' zero and the two denominators' ε. -/

private theorem zero115 (i : S16000x1600.Idx) : val_main_call0_v1 (F := Ideal) i = Cert.Spec.zero := by
  rw [val_main_call0_v1_apply, val_main_call0_v0_apply, val_main_cst_12_apply]; rfl

private theorem zero117 (i : S16000x1600.Idx) : val_main_call1_v1 (F := Ideal) i = Cert.Spec.zero := by
  rw [val_main_call1_v1_apply, val_main_call1_v0_apply, val_main_cst_13_apply]; rfl

private theorem eps147 (i : S16000x1600.Idx) : val_main_v147 (F := Ideal) i = Cert.Spec.eps := by
  rw [val_main_v147_apply, val_main_cst_14_apply]; rfl

private theorem eps190 (i : S16000x1600.Idx) : val_main_v190 (F := Ideal) i = Cert.Spec.eps := by
  rw [val_main_v190_apply, val_main_cst_15_apply]; rfl

/-! ## The chain over the two boxes' corner rows

P and T stand for the rows of the two corner arrays: (low x, low y, high x, high y) of predicted box R and of target
box q. -/

/-- The intersection's area as the program forms it: each axis's overlap clipped below at zero, the zero on the left. -/
private def interC (P T : Fin 4 → EReal) : EReal :=
  max Cert.Spec.zero (min (P 2) (T 2) - max (P 0) (T 0)) * max Cert.Spec.zero (min (P 3) (T 3) - max (P 1) (T 1))

/-- The union's area: the two boxes' areas less the intersection. -/
private def unionC (P T : Fin 4 → EReal) : EReal :=
  ((P 2 - P 0) * (P 3 - P 1) + (T 2 - T 0) * (T 3 - T 1)) - interC P T

/-- The enclosing box's area: the product of the spans of the outer corners. -/
private def encC (P T : Fin 4 → EReal) : EReal :=
  (max (P 2) (T 2) - min (P 0) (T 0)) * (max (P 3) (T 3) - min (P 1) (T 1))

/-- Generalised intersection over union from the corner rows. -/
private def giouC (P T : Fin 4 → EReal) : EReal :=
  Ideal.div (interC P T) (unionC P T + Cert.Spec.eps) - Ideal.div (encC P T - unionC P T) (encC P T + Cert.Spec.eps)

section Chain
variable (x1 : FVec Ideal S16x1000x4 .f32) (x3 : FVec Ideal S1600x4 .f32) (R : Fin 16000) (q : Fin 1600)
  (P T : Fin 4 → EReal)
  (hP : ∀ a : Fin 4, val_main_v52 (F := Ideal) x1 (ix2 R a) = P a)
  (hT : ∀ a : Fin 4, val_main_v77 (F := Ideal) x3 (ix2 q a) = T a)
include hP hT

/-- The larger of the two low x corners. -/
private theorem e86 : val_main_v86 (F := Ideal) x1 x3 (ix2 R q) = max (P 0) (T 0) := by
  rw [val_main_v86_apply, row84, col85, hP, hT, Ideal.maximumf_def]

/-- The larger of the two low y corners. -/
private theorem e95 : val_main_v95 (F := Ideal) x1 x3 (ix2 R q) = max (P 1) (T 1) := by
  rw [val_main_v95_apply, row93, col94, hP, hT, Ideal.maximumf_def]

/-- The smaller of the two high x corners. -/
private theorem e104 : val_main_v104 (F := Ideal) x1 x3 (ix2 R q) = min (P 2) (T 2) := by
  rw [val_main_v104_apply, row102, col103, hP, hT, Ideal.minimumf_def]

/-- The smaller of the two high y corners. -/
private theorem e113 : val_main_v113 (F := Ideal) x1 x3 (ix2 R q) = min (P 3) (T 3) := by
  rw [val_main_v113_apply, row111, col112, hP, hT, Ideal.minimumf_def]

/-- The x overlap, clipped below at zero. -/
private theorem e115 : val_main_v115 (F := Ideal) x1 x3 (ix2 R q)
    = max Cert.Spec.zero (min (P 2) (T 2) - max (P 0) (T 0)) := by
  rw [val_main_v115_apply, zero115, val_main_v114_apply, e104 x1 x3 R q P T hP hT, e86 x1 x3 R q P T hP hT,
    Ideal.subf_def, Ideal.maximumf_def]

/-- The y overlap, clipped below at zero. -/
private theorem e117 : val_main_v117 (F := Ideal) x1 x3 (ix2 R q)
    = max Cert.Spec.zero (min (P 3) (T 3) - max (P 1) (T 1)) := by
  rw [val_main_v117_apply, zero117, val_main_v116_apply, e113 x1 x3 R q P T hP hT, e95 x1 x3 R q P T hP hT,
    Ideal.subf_def, Ideal.maximumf_def]

/-- The intersection's area. -/
private theorem e118 : val_main_v118 (F := Ideal) x1 x3 (ix2 R q) = interC P T := by
  rw [val_main_v118_apply, e115 x1 x3 R q P T hP hT, e117 x1 x3 R q P T hP hT, Ideal.mulf_def]
  rfl

/-- The predicted box's area: width times height from its corners. -/
private theorem e129 : val_main_v129 (F := Ideal) x1 (ix1 R) = (P 2 - P 0) * (P 3 - P 1) := by
  rw [val_main_v129_apply, val_main_v123_apply, val_main_v128_apply, vec120, vec122, vec125, vec127,
    hP, hP, hP, hP, Ideal.subf_def, Ideal.subf_def, Ideal.mulf_def]

/-- The target box's area. -/
private theorem e140 : val_main_v140 (F := Ideal) x3 (ix1 q) = (T 2 - T 0) * (T 3 - T 1) := by
  rw [val_main_v140_apply, val_main_v134_apply, val_main_v139_apply, vec131, vec133, vec136, vec138,
    hT, hT, hT, hT, Ideal.subf_def, Ideal.subf_def, Ideal.mulf_def]

/-- The union's area. -/
private theorem e146 : val_main_v146 (F := Ideal) x1 x3 (ix2 R q) = unionC P T := by
  rw [val_main_v146_apply, val_main_v145_apply, row143, col144, e129 x1 x3 R q P T hP hT, e140 x1 x3 R q P T hP hT,
    e118 x1 x3 R q P T hP hT, Ideal.addf_def, Ideal.subf_def]
  rfl

/-- Intersection over union, the denominator shifted by ε. -/
private theorem e149 : val_main_v149 (F := Ideal) x1 x3 (ix2 R q)
    = Ideal.div (interC P T) (unionC P T + Cert.Spec.eps) := by
  rw [val_main_v149_apply, val_main_v148_apply, e118 x1 x3 R q P T hP hT, e146 x1 x3 R q P T hP hT, eps147,
    Ideal.addf_def, Ideal.hostDivf_def]

/-- The smaller of the two low x corners. -/
private theorem e158 : val_main_v158 (F := Ideal) x1 x3 (ix2 R q) = min (P 0) (T 0) := by
  rw [val_main_v158_apply, row156, col157, hP, hT, Ideal.minimumf_def]

/-- The smaller of the two low y corners. -/
private theorem e167 : val_main_v167 (F := Ideal) x1 x3 (ix2 R q) = min (P 1) (T 1) := by
  rw [val_main_v167_apply, row165, col166, hP, hT, Ideal.minimumf_def]

/-- The larger of the two high x corners. -/
private theorem e176 : val_main_v176 (F := Ideal) x1 x3 (ix2 R q) = max (P 2) (T 2) := by
  rw [val_main_v176_apply, row174, col175, hP, hT, Ideal.maximumf_def]

/-- The larger of the two high y corners. -/
private theorem e185 : val_main_v185 (F := Ideal) x1 x3 (ix2 R q) = max (P 3) (T 3) := by
  rw [val_main_v185_apply, row183, col184, hP, hT, Ideal.maximumf_def]

/-- The enclosing box's area. -/
private theorem e188 : val_main_v188 (F := Ideal) x1 x3 (ix2 R q) = encC P T := by
  rw [val_main_v188_apply, val_main_v186_apply, val_main_v187_apply, e176 x1 x3 R q P T hP hT,
    e158 x1 x3 R q P T hP hT, e185 x1 x3 R q P T hP hT, e167 x1 x3 R q P T hP hT,
    Ideal.subf_def, Ideal.subf_def, Ideal.mulf_def]
  rfl

/-- The share of the enclosing box outside the union, the denominator shifted by ε. -/
private theorem e192 : val_main_v192 (F := Ideal) x1 x3 (ix2 R q)
    = Ideal.div (encC P T - unionC P T) (encC P T + Cert.Spec.eps) := by
  rw [val_main_v192_apply, val_main_v189_apply, val_main_v191_apply, e188 x1 x3 R q P T hP hT,
    e146 x1 x3 R q P T hP hT, eps190, Ideal.subf_def, Ideal.addf_def, Ideal.hostDivf_def]

/-- The negated generalised intersection over union. -/
private theorem e194 : val_main_v194 (F := Ideal) x1 x3 (ix2 R q) = -(giouC P T) := by
  rw [val_main_v194_apply, val_main_v193_apply, e149 x1 x3 R q P T hP hT, e192 x1 x3 R q P T hP hT,
    Ideal.subf_def, Ideal.hostNegf_def, Ideal.negf_def]
  rfl

end Chain

/-! ## The chain over the corners is the specification's -/

/-- Over the corners of a predicted box p and a target box t the chain is the specification's generalised intersection
    over union: the target's corners and area are entries 4 to 8 of its column, and a maximum with zero commutes. -/
private theorem giouC_spec (p t : Fin 4 → EReal) :
    giouC ![Cert.Spec.lo (p 0) (p 2), Cert.Spec.lo (p 1) (p 3), Cert.Spec.hi (p 0) (p 2), Cert.Spec.hi (p 1) (p 3)]
        ![Cert.Spec.lo (t 0) (t 2), Cert.Spec.lo (t 1) (t 3), Cert.Spec.hi (t 0) (t 2), Cert.Spec.hi (t 1) (t 3)]
      = Cert.Spec.giouK p (Cert.Spec.tcol t) := by
  have hI : interC ![Cert.Spec.lo (p 0) (p 2), Cert.Spec.lo (p 1) (p 3), Cert.Spec.hi (p 0) (p 2), Cert.Spec.hi (p 1) (p 3)]
        ![Cert.Spec.lo (t 0) (t 2), Cert.Spec.lo (t 1) (t 3), Cert.Spec.hi (t 0) (t 2), Cert.Spec.hi (t 1) (t 3)]
      = Cert.Spec.inter p (Cert.Spec.tcol t) := by
    unfold interC Cert.Spec.inter
    rw [max_comm Cert.Spec.zero, max_comm Cert.Spec.zero]
    rfl
  unfold giouC unionC encC Cert.Spec.giouK Cert.Spec.union Cert.Spec.enclose
  rw [hI]
  rfl

theorem ref_giou (x1 : FVec Ideal S16x1000x4 .f32) (x3 : FVec Ideal S1600x4 .f32)
    (h52 : ∀ (R : Fin 16000) (a : Fin 4), val_main_v52 (F := Ideal) x1 (ix2 R a)
      = (![Cert.Spec.lo (x1 (ix3 ⟨R.val / 1000, by have := R.isLt; omega⟩ ⟨R.val % 1000, Nat.mod_lt _ (by decide)⟩ 0)) (x1 (ix3 ⟨R.val / 1000, by have := R.isLt; omega⟩ ⟨R.val % 1000, Nat.mod_lt _ (by decide)⟩ 2)), Cert.Spec.lo (x1 (ix3 ⟨R.val / 1000, by have := R.isLt; omega⟩ ⟨R.val % 1000, Nat.mod_lt _ (by decide)⟩ 1)) (x1 (ix3 ⟨R.val / 1000, by have := R.isLt; omega⟩ ⟨R.val % 1000, Nat.mod_lt _ (by decide)⟩ 3)), Cert.Spec.hi (x1 (ix3 ⟨R.val / 1000, by have := R.isLt; omega⟩ ⟨R.val % 1000, Nat.mod_lt _ (by decide)⟩ 0)) (x1 (ix3 ⟨R.val / 1000, by have := R.isLt; omega⟩ ⟨R.val % 1000, Nat.mod_lt _ (by decide)⟩ 2)), Cert.Spec.hi (x1 (ix3 ⟨R.val / 1000, by have := R.isLt; omega⟩ ⟨R.val % 1000, Nat.mod_lt _ (by decide)⟩ 1)) (x1 (ix3 ⟨R.val / 1000, by have := R.isLt; omega⟩ ⟨R.val % 1000, Nat.mod_lt _ (by decide)⟩ 3))] : Fin 4 → EReal) a)
    (h77 : ∀ (q : Fin 1600) (a : Fin 4), val_main_v77 (F := Ideal) x3 (ix2 q a)
      = (![Cert.Spec.lo (x3 (ix2 q 0)) (x3 (ix2 q 2)), Cert.Spec.lo (x3 (ix2 q 1)) (x3 (ix2 q 3)), Cert.Spec.hi (x3 (ix2 q 0)) (x3 (ix2 q 2)), Cert.Spec.hi (x3 (ix2 q 1)) (x3 (ix2 q 3))] : Fin 4 → EReal) a)
    (R : Fin 16000) (q : Fin 1600) :
    val_main_v194 (F := Ideal) x1 x3 (ix2 R q)
      = -(Cert.Spec.giouK (fun a : Fin 4 => x1 (ix3 ⟨R.val / 1000, by have := R.isLt; omega⟩ ⟨R.val % 1000, Nat.mod_lt _ (by decide)⟩ a)) (Cert.Spec.tcol (fun a : Fin 4 => x3 (ix2 q a)))) := by
  refine (e194 x1 x3 R q _ _ (h52 R) (h77 q)).trans ?_
  exact congrArg Neg.neg (giouC_spec
    (fun a : Fin 4 => x1 (ix3 ⟨R.val / 1000, by have := R.isLt; omega⟩ ⟨R.val % 1000, Nat.mod_lt _ (by decide)⟩ a))
    (fun a : Fin 4 => x3 (ix2 q a)))

end Cert.ReferenceIdeal.RefGiou

end
-- ==== Proof.RefAssemble.lean ====
/-
  The reference's result from its three cost arrays: at (b, n, q) it is 5 · L1 + 1 · class + 2 · overlap of query row
  b·1000 + n against target q, laid out as [16, 1000, 1600]; with the class and overlap costs the negatives of the
  softmax entry and of the generalised intersection over union, this is the specification's cost array
  (−x is 0 − x on the extended reals).
-/
import proofs.«421631_j28406913696524_3_alg».proof.Proof.Gen.ReferenceIdeal.Read
import proofs.«421631_j28406913696524_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefAssemble

open Idealize.ShloMosaic Idealize.ShloMosaic.ValueIdx
open Cert.ReferenceIdeal Cert.ReferenceIdeal.Gen Cert.ReferenceIdeal.Read

/-- Entry (b, n, q) of the [16, 1000, 1600] result is entry (b · 1000 + n, q) of the [16000, 1600] array:
    the row-major position (b · 1000 + n) · 1600 + q has quotient b · 1000 + n and remainder q by 1600. -/
private theorem idx_out (b : Fin 16) (n : Fin 1000) (q : Fin 1600) (hlt : b.val * 1000 + n.val < 16000) :
    idx_main_v203 (ix3 b n q) = ix2 (⟨b.val * 1000 + n.val, hlt⟩ : Fin 16000) q := by
  funext d
  apply Fin.ext
  have hb := b.isLt
  have hn := n.isLt
  have hq := q.isLt
  match d with
  | ⟨0, _⟩ => show ((b.val * 1000 + n.val) * 1600 + q.val) / 1600 = b.val * 1000 + n.val; omega
  | ⟨1, _⟩ => show ((b.val * 1000 + n.val) * 1600 + q.val) % 1600 = q.val; omega

/-- Row R = b · 1000 + n of the flattened queries is query (b, n): R / 1000 = b and R % 1000 = n. -/
private theorem row_eq (b : Fin 16) (n : Fin 1000) (R : Fin 16000) (hR : R.val = b.val * 1000 + n.val) :
    (⟨R.val / 1000, by have := R.isLt; omega⟩ : Fin 16) = b
      ∧ (⟨R.val % 1000, Nat.mod_lt _ (by decide)⟩ : Fin 1000) = n := by
  have hn := n.isLt
  constructor
  · apply Fin.ext; show R.val / 1000 = b.val; omega
  · apply Fin.ext; show R.val % 1000 = n.val; omega

/-- The negation of x is 0 − x, the zero being the float word 0.0. -/
private theorem neg_eq_zero_sub (x : EReal) : -x = Cert.Spec.zero - x := by
  rw [show Cert.Spec.zero = 0 from Ideal.ofBits_zero_f32, zero_sub]

theorem ref_value (x0 : FVec Ideal S16x1000x92 .f32) (x1 : FVec Ideal S16x1000x4 .f32) (x2 : IVec S1600 32) (x3 : FVec Ideal S1600x4 .f32)
    (hC : ∀ (R : Fin 16000) (q : Fin 1600), val_main_v20 (F := Ideal) x0 x2 (ix2 R q)
      = -(Cert.Spec.prob (fun k : Fin 92 => x0 (ix3 ⟨R.val / 1000, by have := R.isLt; omega⟩ ⟨R.val % 1000, Nat.mod_lt _ (by decide)⟩ k)) (Cert.Spec.idOf (x2 (ix1 q)))))
    (hL : ∀ (R : Fin 16000) (q : Fin 1600), val_main_v27 (F := Ideal) x1 x3 (ix2 R q)
      = Cert.Spec.l1K (fun a : Fin 4 => x1 (ix3 ⟨R.val / 1000, by have := R.isLt; omega⟩ ⟨R.val % 1000, Nat.mod_lt _ (by decide)⟩ a)) (Cert.Spec.tcol (fun a : Fin 4 => x3 (ix2 q a))))
    (hG : ∀ (R : Fin 16000) (q : Fin 1600), val_main_v194 (F := Ideal) x1 x3 (ix2 R q)
      = -(Cert.Spec.giouK (fun a : Fin 4 => x1 (ix3 ⟨R.val / 1000, by have := R.isLt; omega⟩ ⟨R.val % 1000, Nat.mod_lt _ (by decide)⟩ a)) (Cert.Spec.tcol (fun a : Fin 4 => x3 (ix2 q a))))) :
    val_main_v203 (F := Ideal) x0 x1 x2 x3 = Cert.Spec.G x0 x1 x2 x3 := by
  funext i
  obtain ⟨b, n, q, rfl⟩ : ∃ (b : Fin 16) (n : Fin 1000) (q : Fin 1600), i = ix3 b n q := ⟨i 0, i 1, i 2, eq_ix3 i⟩
  have hlt : b.val * 1000 + n.val < 16000 := by have := b.isLt; have := n.isLt; omega
  obtain ⟨hb, hn⟩ := row_eq b n ⟨b.val * 1000 + n.val, hlt⟩ rfl
  have hC' := hC ⟨b.val * 1000 + n.val, hlt⟩ q
  have hL' := hL ⟨b.val * 1000 + n.val, hlt⟩ q
  have hG' := hG ⟨b.val * 1000 + n.val, hlt⟩ q
  rw [hb, hn] at hC' hL' hG'
  rw [val_main_v203_apply, idx_out b n q hlt, val_main_v202_apply, val_main_v199_apply, val_main_v196_apply,
    val_main_v198_apply, val_main_v201_apply, val_main_v195_apply, val_main_v197_apply, val_main_v200_apply,
    val_main_cst_16_apply, val_main_cst_17_apply, val_main_cst_18_apply, hC', hL', hG',
    neg_eq_zero_sub, neg_eq_zero_sub]
  rfl

end Cert.ReferenceIdeal.RefAssemble

end
-- ==== Proof.lean ====
/-
  The certificate of the matching-cost kernel against its reference, over the extended reals.

  The kernel's program builds, on the host, a one-hot class table and a table of target-box quantities (both padded to
  1664 columns), runs one region over 25 blocks of 640 queries, each block computing for every (query, target) pair
  5 · L1 distance of the boxes − softmax probability of the target's class + 2 · (− generalised IoU), the class
  probability as the product of the softmax row with the one-hot table, and reshapes the [16000, 1600] result.
  The reference computes the same cost with a gather of the softmax at the target's class.

  The two agree when every target class word lies in 0 … 91 (the domain added to the precondition: outside it the
  reference's gather wraps or clamps the index while the one-hot table has an all-zero column): a one-hot column
  picks out exactly the gathered entry; everything else is the same expression on both sides, up to the order of a
  four-term sum, max against zero written either way round, and −x written 0 − x.

  The frames: every host line writes only its own result buffer and the region's body loads and stores whole staging
  buffers, so both kernel programs run to the end with their arguments unchanged at any float instance; the
  reference's frame is its run with the result dropped. The idealization rewrote nothing, so `preserves` is `True`.
-/
import proofs.«421631_j28406913696524_3_alg».proof.Defs
import proofs.«421631_j28406913696524_3_alg».proof.Proof.Gen.Kernel
import proofs.«421631_j28406913696524_3_alg».proof.Proof.Gen.KernelIdeal
import proofs.«421631_j28406913696524_3_alg».proof.Proof.Gen.ReferenceIdeal
import proofs.«421631_j28406913696524_3_alg».proof.Proof.Gen.Pre_finite_inputs
import proofs.«421631_j28406913696524_3_alg».proof.Proof.Gen.ReferenceIdeal.Run
import proofs.«421631_j28406913696524_3_alg».proof.Proof.Gen.ReferenceIdeal.Read
import proofs.«421631_j28406913696524_3_alg».proof.Proof.FrameK
import proofs.«421631_j28406913696524_3_alg».proof.Proof.FrameKI
import proofs.«421631_j28406913696524_3_alg».proof.Proof.KIRun
import proofs.«421631_j28406913696524_3_alg».proof.Proof.PreDecode
import proofs.«421631_j28406913696524_3_alg».proof.Proof.RefClass
import proofs.«421631_j28406913696524_3_alg».proof.Proof.RefL1
import proofs.«421631_j28406913696524_3_alg».proof.Proof.RefCorners
import proofs.«421631_j28406913696524_3_alg».proof.Proof.RefGiou
import proofs.«421631_j28406913696524_3_alg».proof.Proof.RefAssemble
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's cost array of the (shared) arguments: the kernel's by its
    run read through the host tables, the reference's by its run read stage by stage; the class words are below 92 by
    the precondition. -/
theorem algebraic : Cert.algebraic_KernelIdeal_ReferenceIdeal := by
  intro m ρ m' ρ' hpre hagree
  have hid : ∀ (c : Dev Cert.KernelIdeal.nD) (q : Fin 1600),
      ((m ((c : Thread Cert.KernelIdeal.nD Cert.KernelIdeal.τ).loc Cert.KernelIdeal.main_arg2) : Cert.KernelIdeal.S1600.Idx → BitVec 32)
        (ValueIdx.ix1 q)).toNat < 92 :=
    fun c q => Cert.PreDecode.ids_lt _ _ _ _ (hpre c) q
  refine ⟨_, Cert.KernelIdeal.Val.run_value m ρ hid, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v203_eq, (hagree c).1, (hagree c).2.1, (hagree c).2.2.1, (hagree c).2.2.2]
  exact Cert.ReferenceIdeal.RefAssemble.ref_value _ _ _ _
    (Cert.ReferenceIdeal.RefClass.ref_class _ _ (hid c))
    (Cert.ReferenceIdeal.RefL1.ref_l1 _ _)
    (Cert.ReferenceIdeal.RefGiou.ref_giou _ _ (Cert.ReferenceIdeal.RefCorners.ref_b1 _) (Cert.ReferenceIdeal.RefCorners.ref_b2 _))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
